-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  main_v3
-- ==== Kernel.lean ====
abbrev S512x256 : Shape := ⟨2, ![512, 256]⟩
abbrev S1x256 : Shape := ⟨2, ![1, 256]⟩
abbrev S8x256 : Shape := ⟨2, ![8, 256]⟩
abbrev S7 : Shape := ⟨1, ![7]⟩
abbrev S_ : Shape := ⟨0, ![]⟩
abbrev S256 : Shape := ⟨1, ![256]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S512x256, .f32⟩
  | .hbm, ⟨1, _⟩ => ⟨S1x256, .f32⟩
  | .local _ .vmem, ⟨0, _⟩ => ⟨S512x256, .f32⟩
  | .local _ .vmem, ⟨1, _⟩ => ⟨S1x256, .f32⟩
  | .local _ .vmem, ⟨2, _⟩ => ⟨S8x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v36 : Index := Scalar.indexCast v2
  let c0_29 : Index := 0#32
  ![v36.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_37 : BitVec 32 := 0#32
  ![v2.toNat, 0]
def k0_dev8 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_31 : BitVec 32 := 1#32
  let v40 : BitVec 32 := Scalar.addi v2 c1_i32_31
  let c8_i32_32 : BitVec 32 := 8#32
  let v41 : BitVec 32 := Scalar.remsi v40 c8_i32_32
  let c1_i32_35 : BitVec 32 := 1#32
  let v42 : BitVec 32 := Scalar.muli v41 c1_i32_35
  let v43 : BitVec 32 := Scalar.addi c0_i32_36 v42
  v43.toNat
def k0_dev9 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_39 : BitVec 32 := 2#32
  let v50 : BitVec 32 := Scalar.addi v2 c2_i32_39
  let c8_i32_40 : BitVec 32 := 8#32
  let v51 : BitVec 32 := Scalar.remsi v50 c8_i32_40
  let c1_i32_43 : BitVec 32 := 1#32
  let v52 : BitVec 32 := Scalar.muli v51 c1_i32_43
  let v53 : BitVec 32 := Scalar.addi c0_i32_44 v52
  v53.toNat
def k0_dev10 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_47 : BitVec 32 := 3#32
  let v60 : BitVec 32 := Scalar.addi v2 c3_i32_47
  let c8_i32_48 : BitVec 32 := 8#32
  let v61 : BitVec 32 := Scalar.remsi v60 c8_i32_48
  let c1_i32_51 : BitVec 32 := 1#32
  let v62 : BitVec 32 := Scalar.muli v61 c1_i32_51
  let v63 : BitVec 32 := Scalar.addi c0_i32_52 v62
  v63.toNat
def k0_dev11 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_55 : BitVec 32 := 4#32
  let v70 : BitVec 32 := Scalar.addi v2 c4_i32_55
  let c8_i32_56 : BitVec 32 := 8#32
  let v71 : BitVec 32 := Scalar.remsi v70 c8_i32_56
  let c1_i32_59 : BitVec 32 := 1#32
  let v72 : BitVec 32 := Scalar.muli v71 c1_i32_59
  let v73 : BitVec 32 := Scalar.addi c0_i32_60 v72
  v73.toNat
def k0_dev12 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_63 : BitVec 32 := 5#32
  let v80 : BitVec 32 := Scalar.addi v2 c5_i32_63
  let c8_i32_64 : BitVec 32 := 8#32
  let v81 : BitVec 32 := Scalar.remsi v80 c8_i32_64
  let c1_i32_67 : BitVec 32 := 1#32
  let v82 : BitVec 32 := Scalar.muli v81 c1_i32_67
  let v83 : BitVec 32 := Scalar.addi c0_i32_68 v82
  v83.toNat
def k0_dev13 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_71 : BitVec 32 := 6#32
  let v90 : BitVec 32 := Scalar.addi v2 c6_i32_71
  let c8_i32_72 : BitVec 32 := 8#32
  let v91 : BitVec 32 := Scalar.remsi v90 c8_i32_72
  let c1_i32_75 : BitVec 32 := 1#32
  let v92 : BitVec 32 := Scalar.muli v91 c1_i32_75
  let v93 : BitVec 32 := Scalar.addi c0_i32_76 v92
  v93.toNat
def k0_dev14 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_79 : BitVec 32 := 7#32
  let v100 : BitVec 32 := Scalar.addi v2 c7_i32_79
  let c8_i32_80 : BitVec 32 := 8#32
  let v101 : BitVec 32 := Scalar.remsi v100 c8_i32_80
  let c1_i32_83 : BitVec 32 := 1#32
  let v102 : BitVec 32 := Scalar.muli v101 c1_i32_83
  let v103 : BitVec 32 := Scalar.addi c0_i32_84 v102
  v103.toNat
def k0_off3 (d0 : Dev nD) (c1_i32_87 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v110 : BitVec 32 := Scalar.subi v2 c1_i32_87
  let c8_i32_88 : BitVec 32 := 8#32
  let v111 : BitVec 32 := Scalar.addi v110 c8_i32_88
  let c8_i32_89 : BitVec 32 := 8#32
  let v112 : BitVec 32 := Scalar.remsi v111 c8_i32_89
  let c0_i32_94 : BitVec 32 := 0#32
  ![v112.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S256 : S512x256.Reduces [0] S256
  shapeCasts_S256_S1x256 : S256.ShapeCasts S1x256
  h_S1x256 : 0 < S1x256.numel
  shapeCasts_S1x256_S1x256 : S1x256.ShapeCasts S1x256
  hamt_7 : (7#32 : BitVec 32).msb = false
  inb_S7_S1_0 : ∀ a, (![0] : Fin 1 → Nat) a + S1.size a ≤ S7.size a
  squeezes_S1_S_ : S1.Squeezes S_
  inb_S7_S1_1 : ∀ a, (![1] : Fin 1 → Nat) a + S1.size a ≤ S7.size a
  inb_S7_S1_2 : ∀ a, (![2] : Fin 1 → Nat) a + S1.size a ≤ S7.size a
  inb_S7_S1_3 : ∀ a, (![3] : Fin 1 → Nat) a + S1.size a ≤ S7.size a
  inb_S7_S1_4 : ∀ a, (![4] : Fin 1 → Nat) a + S1.size a ≤ S7.size a
  inb_S7_S1_5 : ∀ a, (![5] : Fin 1 → Nat) a + S1.size a ≤ S7.size a
  inb_S7_S1_6 : ∀ a, (![6] : Fin 1 → Nat) a + S1.size a ≤ S7.size a
  inb_S8x256_S8x256_0_0 : ∀ a, (![0, 0] : Fin 2 → Nat) a + S8x256.size a ≤ S8x256.size a
  h_S8x256 : 0 < S8x256.numel
  reduces_S8x256_S256 : S8x256.Reduces [0] S256
  inb_S1x256_S1x256_0_0 : ∀ a, (![0, 0] : Fin 2 → Nat) a + S1x256.size a ≤ S1x256.size a
  hcc0_scratch1 : 2 + S7.numel ≤ 16
  hcc0_scratch2 : 9 + S7.numel ≤ 16
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ a, (k0_off1 d0) a + S1x256.size a ≤ S8x256.size a
  k0_off2_inb : ∀ d0 : Dev nD, ∀ a, (k0_off2 d0) a + S1x256.size a ≤ S8x256.size a
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off3_inb : ∀ d0 : Dev nD, ∀ (r : Fin 7), ∀ a, (k0_off3 d0 (BitVec.ofNat 32 (1 + r.val))) a + S1x256.size a ≤ S8x256.size a
  hstage0_0 : ∀ j, (stage0_0 j).IsWhole
  hstage0_1 : ∀ j, (stage0_1 j).IsWhole

variable [Facts₀]

abbrev cc0_scratch1 : DmaSems sig S7 := SemArray.consecutive 2 S7 hcc0_scratch1
abbrev cc0_scratch2 : DmaSems sig S7 := SemArray.consecutive 9 S7 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x256 : Shape := ⟨2, ![4096, 256]⟩
abbrev S_ : Shape := ⟨0, ![]⟩
abbrev S256 : Shape := ⟨1, ![256]⟩
abbrev S1x256 : Shape := ⟨2, ![1, 256]⟩

abbrev nBuf : Space → Nat
  | .hbm => 4
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S_, .f32⟩
  | .hbm, ⟨2, _⟩ => ⟨S256, .f32⟩
  | .hbm, ⟨3, _⟩ => ⟨S1x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S4096x256_S256_d0 : S4096x256.ReducesTo [0] S256
  h_S_ : 0 < S_.numel
  bcast_S256_S1x256_1 : S256.BroadcastsInDim S1x256 (![1] : Fin 1 → Fin S1x256.rank)

variable [Facts₀]

class Facts : Prop extends Facts₀ where

variable [Facts]
-- ==== Proof.Proto.lean ====
/-
  The all-gather-and-sum kernel on the eight-device mesh: the vocabulary of its protocol.

  Device c first tells every other device that it has entered (one unit on each peer's barrier
  semaphore), writes the column sums of its own block into row c of its 8 x 256 gather buffer,
  waits for the seven units of its own barrier semaphore, copies its row c into row c of every
  peer's gather buffer, waits for the seven rows arriving from its peers and for its own seven
  copies to have left, and sums the eight rows.

  Under the rounds discipline: a barrier cell has one round of seven unit duties, duty k paid
  by the device k+1 places before the owner, which hands over the row of ITS gather buffer
  that the owner will write; each of a device's seven send cells and seven receive cells has
  one duty.  A send cell's duty hands back the share of the source row lent to the copy; a
  receive cell's duty hands the owner the written row.  All rows are stated against ONE
  array, the gathered array whose row r holds the column sums of device r's block.
-/
import proofs.«901092_g7700000000001093_dist_sum_ax0_shard0_i_m512_n256_v7x_i8_bf16_1_alg».proof.Proof.Gen.KernelIdeal
import proofs.«901092_g7700000000001093_dist_sum_ax0_shard0_i_m512_n256_v7x_i8_bf16_1_alg».proof.Proof.Gen.KernelIdeal.Skeleton
import proofs.«901092_g7700000000001093_dist_sum_ax0_shard0_i_m512_n256_v7x_i8_bf16_1_alg».proof.Proof.Gen.KernelIdeal.Launch
import proofs.«901092_g7700000000001093_dist_sum_ax0_shard0_i_m512_n256_v7x_i8_bf16_1_alg».proof.Proof.Gen.KernelIdeal.Points
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Positions on the mesh: k+1 places on, k+1 places back -/

def sh (k : Fin 7) (c : Dev nD) : Dev nD := ⟨(c.val + k.val + 1) % 8, Nat.mod_lt _ (by decide)⟩
def bk (k : Fin 7) (c : Dev nD) : Dev nD := ⟨(c.val + 7 - k.val) % 8, Nat.mod_lt _ (by decide)⟩

theorem bk_sh (k : Fin 7) (c : Dev nD) : bk k (sh k c) = c := by revert k c; decide
theorem sh_bk (k : Fin 7) (c : Dev nD) : sh k (bk k c) = c := by revert k c; decide
theorem sh_ne (k : Fin 7) (c : Dev nD) : sh k c ≠ c := by revert k c; decide
theorem bk_ne (k : Fin 7) (c : Dev nD) : bk k c ≠ c := by revert k c; decide
/-- Going k+1 places on is going 7-k places back. -/
theorem sh_eq_bk_rev (k : Fin 7) (c : Dev nD) : sh k c = bk k.rev c := by revert k c; decide
theorem bk_eq_sh_rev (k : Fin 7) (c : Dev nD) : bk k c = sh k.rev c := by revert k c; decide
theorem sh_inj_left (c : Dev nD) : Function.Injective fun k : Fin 7 => sh k c := by revert c; decide
theorem bk_inj_left (c : Dev nD) : Function.Injective fun k : Fin 7 => bk k c := by revert c; decide

/-- The kernel's `device_id` chains: signal k and copy k both name the device k+1 places on. -/
theorem dev1_eq (c : Dev nD) : (⟨k0_dev1 c, k0_dev1_lt c⟩ : Dev nD) = sh 0 c := Fin.ext (k0_dev1_eq c)
theorem dev2_eq (c : Dev nD) : (⟨k0_dev2 c, k0_dev2_lt c⟩ : Dev nD) = sh 1 c := Fin.ext (k0_dev2_eq c)
theorem dev3_eq (c : Dev nD) : (⟨k0_dev3 c, k0_dev3_lt c⟩ : Dev nD) = sh 2 c := Fin.ext (k0_dev3_eq c)
theorem dev4_eq (c : Dev nD) : (⟨k0_dev4 c, k0_dev4_lt c⟩ : Dev nD) = sh 3 c := Fin.ext (k0_dev4_eq c)
theorem dev5_eq (c : Dev nD) : (⟨k0_dev5 c, k0_dev5_lt c⟩ : Dev nD) = sh 4 c := Fin.ext (k0_dev5_eq c)
theorem dev6_eq (c : Dev nD) : (⟨k0_dev6 c, k0_dev6_lt c⟩ : Dev nD) = sh 5 c := Fin.ext (k0_dev6_eq c)
theorem dev7_eq (c : Dev nD) : (⟨k0_dev7 c, k0_dev7_lt c⟩ : Dev nD) = sh 6 c := Fin.ext (k0_dev7_eq c)
theorem dev8_eq (c : Dev nD) : (⟨k0_dev8 c, k0_dev8_lt c⟩ : Dev nD) = sh 0 c := Fin.ext (k0_dev8_eq c)
theorem dev9_eq (c : Dev nD) : (⟨k0_dev9 c, k0_dev9_lt c⟩ : Dev nD) = sh 1 c := Fin.ext (k0_dev9_eq c)
theorem dev10_eq (c : Dev nD) : (⟨k0_dev10 c, k0_dev10_lt c⟩ : Dev nD) = sh 2 c := Fin.ext (k0_dev10_eq c)
theorem dev11_eq (c : Dev nD) : (⟨k0_dev11 c, k0_dev11_lt c⟩ : Dev nD) = sh 3 c := Fin.ext (k0_dev11_eq c)
theorem dev12_eq (c : Dev nD) : (⟨k0_dev12 c, k0_dev12_lt c⟩ : Dev nD) = sh 4 c := Fin.ext (k0_dev12_eq c)
theorem dev13_eq (c : Dev nD) : (⟨k0_dev13 c, k0_dev13_lt c⟩ : Dev nD) = sh 5 c := Fin.ext (k0_dev13_eq c)
theorem dev14_eq (c : Dev nD) : (⟨k0_dev14 c, k0_dev14_lt c⟩ : Dev nD) = sh 6 c := Fin.ext (k0_dev14_eq c)

/-! ## The memrefs and cells -/

abbrev xM : Memref sig .tc .vmem S512x256 .f32 := Memref.whole cc0_stg0_0
abbrev oM : Memref sig .tc .vmem S1x256 .f32 := Memref.whole cc0_stg1_0
abbrev cM : Memref sig .tc .vmem S8x256 .f32 := Memref.whole cc0_scratch0

/-- Row r of the gather buffer, as the kernel slices it for its copies. -/
abbrev rowM (r : Dev nD) : Memref sig .tc .vmem S1x256 .f32 :=
  cM.slice (Rect.unit (s := S8x256) (k0_off2 r) S1x256.size (k0_off2_inb r)) (fun _ => rfl)

/-- The runtime's barrier semaphore of collective id 0 (unscoped); the seven send and seven
    receive DMA semaphores (scoped scratch), by position. -/
abbrev barS : Sem sig := (SemArray.scalar (sig.barrier 0 rfl) : Sems sig S_).sem
def sendS (j : Fin 7) : DmaSem sig := ⟨2 + j.val, by have := j.isLt; show 2 + j.val < 16; omega⟩
def recvS (j : Fin 7) : DmaSem sig := ⟨9 + j.val, by have := j.isLt; show 9 + j.val < 16; omega⟩

abbrev barCell (c : Dev nD) : GSem nD τ sig := ((c : Thread nD τ), .reg barS)
abbrev sendCell (c : Dev nD) (j : Fin 7) : GSem nD τ sig := ((c : Thread nD τ), .dma (sendS j))
abbrev recvCell (c : Dev nD) (j : Fin 7) : GSem nD τ sig := ((c : Thread nD τ), .dma (recvS j))

/-- The units one row's copy puts on a DMA semaphore. -/
abbrev N : ℕ := (rowM (0 : Dev nD)).view.dmaCredit
theorem N_pos : 0 < N := View.dmaCredit_pos _ (by decide)
theorem N_row (r : Dev nD) : (rowM r).view.dmaCredit = N := rfl

/-! ## Contents -/

/-- Device c's block of x, as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))

/-- The gathered array: row r holds the column sums of device r's block. -/
def gath : (cc0_scratch0 : Ref sig .tc).ty.Contents (Elt F) :=
  fun i => k0_pay2 (xstg m ρ (i 0)) (ValueIdx.ix2 (0 : Fin 1) (i 1))

/-- The kernel's result, on every device: the column sums of the gathered array. -/
def outv : (cc0_stg1_0 : Ref sig .tc).ty.Contents (Elt F) := k0_pay1 (gath m ρ)

/-- Share q of row r of device t's gather buffer, at contents f. -/
def rowPts (t r : Dev nD) (q : PosShare TreeShare) (f : Buf (Elt F) ((rowM r).view.loc (t : Thread nD τ))) : sProp 𝕄 :=
  (rowM r).view.loc (t : Thread nD τ) ↦[(rowM r).view.set]{q} f

/-- The seven shares a device's own row is lent out in, one per copy. -/
def qs : Fin 7 → PosShare TreeShare
  | 0 => fullShare.left
  | 1 => fullShare.right.left
  | 2 => fullShare.right.right.left
  | 3 => fullShare.right.right.right.left
  | 4 => fullShare.right.right.right.right.left
  | 5 => fullShare.right.right.right.right.right.left
  | 6 => fullShare.right.right.right.right.right.right

omit [FloatOps F] in
instance rowPts_storable (t r : Dev nD) (q) (f) : BI.Storable (upEmb : UEmb _ 𝕄) (rowPts (F := F) t r q f) := by unfold rowPts; infer_instance

/-! ## The schedule -/

/-- Which send (receive) semaphore a DMA semaphore is, if any. -/
def sendJ : SemLoc sig → Option (Fin 7)
  | .dma q => if h : 2 ≤ q.val ∧ q.val < 9 then some ⟨q.val - 2, by omega⟩ else none
  | _ => none
def recvJ : SemLoc sig → Option (Fin 7)
  | .dma q => if h : 9 ≤ q.val ∧ q.val < 16 then some ⟨q.val - 9, by omega⟩ else none
  | _ => none

/-- Duty k of g's barrier cell: the device k+1 places before g hands g the row of its gather
    buffer that g will write, at whatever it holds. -/
def barPay (g : Dev nD) (k : Fin 7) : sProp 𝕄 := iprop(∃ f, rowPts (bk k g) g fullShare f)
/-- The duty of c's j-th send cell: the share of its own row lent to copy j, back. -/
def sendPay (c : Dev nD) (j : Fin 7) : sProp 𝕄 := rowPts c c (qs j) (gath m ρ)
/-- The duty of g's j-th receive cell: row (j+1 places before g) of g's buffer, written. -/
def recvPay (g : Dev nD) (j : Fin 7) : sProp 𝕄 := rowPts g (bk j g) fullShare (gath m ρ)

def sched : Rounds.Schedule (GSem nD τ sig) (Fin 7) 𝕄 where
  duties g r :=
    if r = 0 ∧ g.1.2 = .tc then
      (if g.2 = .reg barS then Finset.univ else if (sendJ g.2).isSome ∨ (recvJ g.2).isSome then {0} else ∅)
    else ∅
  unitless _ := False
  amount g _ _ := if g.2 = .reg barS then 1 else N
  payload g _ d :=
    if g.2 = .reg barS then barPay g.1.1 d
    else match sendJ g.2, recvJ g.2 with
      | some j, _ => sendPay m ρ g.1.1 j
      | none, some j => recvPay m ρ g.1.1 j
      | none, none => iprop(emp)
  amount_pos g _ _ _ := by
    by_cases h : g.2 = .reg barS
    · rw [if_pos h]; exact Nat.one_pos
    · rw [if_neg h]; exact N_pos

/-! ## The schedule's tables -/

section Tables
variable (c : Dev nD) (j : Fin 7)

omit [FloatOps F] in
theorem sendJ_send : sendJ (SemLoc.dma (sendS j) : SemLoc sig) = some j := by revert j; decide
omit [FloatOps F] in
theorem recvJ_send : recvJ (SemLoc.dma (sendS j) : SemLoc sig) = none := by revert j; decide
omit [FloatOps F] in
theorem sendJ_recv : sendJ (SemLoc.dma (recvS j) : SemLoc sig) = none := by revert j; decide
omit [FloatOps F] in
theorem recvJ_recv : recvJ (SemLoc.dma (recvS j) : SemLoc sig) = some j := by revert j; decide
omit [FloatOps F] in
theorem send_ne_bar : (SemLoc.dma (sendS j) : SemLoc sig) ≠ .reg barS := fun h => by cases h
omit [FloatOps F] in
theorem recv_ne_bar : (SemLoc.dma (recvS j) : SemLoc sig) ≠ .reg barS := fun h => by cases h
omit [FloatOps F] in
theorem send_ne_recv (j j' : Fin 7) : (SemLoc.dma (sendS j) : SemLoc sig) ≠ .dma (recvS j') := by revert j j'; decide
omit [FloatOps F] in
theorem sendS_inj : Function.Injective (sendS : Fin 7 → DmaSem sig) := by decide
omit [FloatOps F] in
theorem recvS_inj : Function.Injective (recvS : Fin 7 → DmaSem sig) := by decide

theorem duties_bar : (sched (F := F) m ρ).duties (barCell c) 0 = Finset.univ := by
  dsimp only [sched]; rw [if_pos ⟨rfl, rfl⟩, if_pos rfl]
theorem duties_send : (sched (F := F) m ρ).duties (sendCell c j) 0 = {0} := by
  dsimp only [sched]; rw [if_pos ⟨rfl, rfl⟩, if_neg (send_ne_bar j), if_pos (Or.inl (by rw [sendJ_send]; rfl))]
theorem duties_recv : (sched (F := F) m ρ).duties (recvCell c j) 0 = {0} := by
  dsimp only [sched]; rw [if_pos ⟨rfl, rfl⟩, if_neg (recv_ne_bar j), if_pos (Or.inr (by rw [recvJ_recv]; rfl))]
theorem duties_later (g : GSem nD τ sig) : ∀ r, 1 ≤ r → (sched (F := F) m ρ).duties g r = ∅ :=
  fun r hr => by dsimp only [sched]; rw [if_neg fun h => by omega]

theorem amount_bar (d : Fin 7) : (sched (F := F) m ρ).amount (barCell c) 0 d = 1 := by dsimp only [sched]; exact if_pos rfl
theorem amount_send (d : Fin 7) : (sched (F := F) m ρ).amount (sendCell c j) 0 d = N := by dsimp only [sched]; exact if_neg (send_ne_bar j)
theorem amount_recv (d : Fin 7) : (sched (F := F) m ρ).amount (recvCell c j) 0 d = N := by dsimp only [sched]; exact if_neg (recv_ne_bar j)

theorem expect_bar : (sched (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_send : (sched (F := F) m ρ).expect (sendCell c j) 0 = N := by
  unfold Schedule.expect Schedule.amountOf; rw [duties_send, Finset.sum_singleton, amount_send]
theorem expect_recv : (sched (F := F) m ρ).expect (recvCell c j) 0 = N := by
  unfold Schedule.expect Schedule.amountOf; rw [duties_recv, Finset.sum_singleton, amount_recv]

theorem payload_bar (k : Fin 7) : (sched (F := F) m ρ).payload (barCell c) 0 k = barPay c k := by dsimp only [sched]; rw [if_pos rfl]
theorem payload_send (d : Fin 7) : (sched (F := F) m ρ).payload (sendCell c j) 0 d = sendPay m ρ c j := by
  dsimp only [sched]; rw [if_neg (send_ne_bar j)]; simp only [sendJ_send]
theorem payload_recv (d : Fin 7) : (sched (F := F) m ρ).payload (recvCell c j) 0 d = recvPay m ρ c j := by
  dsimp only [sched]; rw [if_neg (recv_ne_bar j)]; simp only [sendJ_recv, recvJ_recv]

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The whole of the barrier cell's round: the seven peers' rows. -/
theorem rest_bar : bigSep ((sched (F := F) m ρ).duties (barCell c) 0 \ ∅) (fun d => (sched (F := F) m ρ).payload (barCell c) 0 d)
    = iprop(barPay c 0 ∗ barPay c 1 ∗ barPay c 2 ∗ barPay c 3 ∗ barPay c 4 ∗ barPay c 5 ∗ barPay c 6) := by
  rw [Finset.sdiff_empty, duties_bar, bigSep_fin7]; simp only [payload_bar]
theorem rest_send : bigSep ((sched (F := F) m ρ).duties (sendCell c j) 0 \ ∅) (fun d => (sched (F := F) m ρ).payload (sendCell c j) 0 d) = sendPay m ρ c j := by
  rw [Finset.sdiff_empty, duties_send, bigSep_singleton, payload_send]
theorem rest_recv : bigSep ((sched (F := F) m ρ).duties (recvCell c j) 0 \ ∅) (fun d => (sched (F := F) m ρ).payload (recvCell c j) 0 d) = recvPay m ρ c j := by
  rw [Finset.sdiff_empty, duties_recv, bigSep_singleton, payload_recv]

instance sched_payload_storable (g : GSem nD τ sig) (r : ℕ) (d : Fin 7) :
    BI.Storable (upEmb : UEmb _ 𝕄) ((sched (F := F) m ρ).payload g r d) := by
  show BI.Storable upEmb (if g.2 = .reg barS then barPay g.1.1 d
    else match sendJ g.2, recvJ g.2 with
      | some j, _ => sendPay m ρ g.1.1 j
      | none, some j => recvPay m ρ g.1.1 j
      | none, none => iprop(emp))
  unfold barPay sendPay recvPay
  (repeat' split) <;> infer_instance

end Tables

/-! ## What each device owes at launch; the levels -/

/-- One row's credit on the j-th receive cell of the device j+1 places on; one unit on the
    barrier cell of the device k+1 places on. -/
def rT (c : Dev nD) (j : Fin 7) : CellTallies nD τ sig Unit := tallyAt (recvCell (sh j c) j) () N
def bT (c : Dev nD) (k : Fin 7) : CellTallies nD τ sig Unit := tallyAt (barCell (sh k c)) () 1
/-- What the seven copies pay, summed so that copy 0 peels the last summand; -/
def OR (c : Dev nD) : CellTallies nD τ sig Unit := rT c 6 + rT c 5 + rT c 4 + rT c 3 + rT c 2 + rT c 1 + rT c 0
/-- and before them the seven signals, signal 0 the last summand. -/
def O₀ (c : Dev nD) : CellTallies nD τ sig Unit := OR c + bT c 6 + bT c 5 + bT c 4 + bT c 3 + bT c 2 + bT c 1 + bT c 0

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if (recvJ g.2).isSome then 2 else 0

/-- The kernel's own (scoped) semaphores, as the launch indexes them: the seven send, then the
    seven receive. -/
abbrev osem (i : Fin 14) : SemLoc sig :=
  if h : i.val < 7 then .dma (sendS ⟨i.val, h⟩) else .dma (recvS ⟨i.val - 7, by have := i.isLt; omega⟩)

/-! ## The ghost state a device's body starts from -/

/-- A device's fifteen cells: its barrier cell, its seven send cells, its seven receive cells. -/
def csem (i : Fin 15) : SemLoc sig :=
  if i.val = 0 then .reg barS
  else if h : i.val < 8 then .dma (sendS ⟨i.val - 1, by omega⟩)
  else .dma (recvS ⟨i.val - 8, by have := i.isLt; omega⟩)
abbrev kcell (ck : Dev nD × Fin 15) : GSem nD τ sig := ((ck.1 : Thread nD τ), csem ck.2)
def iB : Fin 15 := 0
def iS (j : Fin 7) : Fin 15 := ⟨1 + j.val, by have := j.isLt; omega⟩
def iR (j : Fin 7) : Fin 15 := ⟨8 + j.val, by have := j.isLt; omega⟩
omit [FloatOps F] in
theorem kcell_iB (c : Dev nD) : kcell (c, iB) = barCell c := rfl
omit [FloatOps F] in
theorem kcell_iS (c : Dev nD) (j : Fin 7) : kcell (c, iS j) = sendCell c j := by revert c j; decide
omit [FloatOps F] in
theorem kcell_iR (c : Dev nD) (j : Fin 7) : kcell (c, iR j) = recvCell c j := by revert c j; decide

/-- Every cell's invariant, under the names the launch allocated them at, and that every cell
    has reached round 0: persistent, known to every device. -/
def records (K : Dev nD × Fin 15 → ℕ) : sProp 𝕄 :=
  iprop((bigSep Finset.univ fun ck : Dev nD × Fin 15 => cellInv ER (sched m ρ) (K ck) (kcell ck))
    ∗ bigSep Finset.univ fun ck : Dev nD × Fin 15 => reached ER (kcell ck) 0)

instance records_persistent (K : Dev nD × Fin 15 → ℕ) : BI.Persistent (records m ρ K) := by unfold records; infer_instance

/-- The tokens of the duties device c pays: duty k of the barrier cell k+1 places on, its own
    seven send duties, the receive duty j of the device j+1 places on. -/
def payToks (c : Dev nD) : sProp 𝕄 :=
  iprop((bigSep Finset.univ fun k : Fin 7 => dutyTok ER (barCell (sh k c)) 0 k)
    ∗ (bigSep Finset.univ fun j : Fin 7 => dutyTok ER (sendCell c j) 0 (0 : Fin 7))
    ∗ (bigSep Finset.univ fun j : Fin 7 => dutyTok ER (recvCell (sh j c) j) 0 (0 : Fin 7)))
/-- What stays with device c alone: its positions at round 0 of its fifteen cells and those tokens. -/
def linear (c : Dev nD) : sProp 𝕄 :=
  iprop((atPos ER (barCell c) 0 ∅ 0
      ∗ (bigSep Finset.univ fun j : Fin 7 => atPos ER (sendCell c j) 0 ∅ 0)
      ∗ (bigSep Finset.univ fun j : Fin 7 => atPos ER (recvCell c j) 0 ∅ 0))
    ∗ payToks c)
def ghost (K : Dev nD × Fin 15 → ℕ) (c : Dev nD) : sProp 𝕄 := iprop(records m ρ K ∗ linear c)

/-- What device c's body starts from: that at some names, the credit dealt at launch (its
    barrier's seven units, each receive cell's row credit) and the level facts. -/
def start (c : Dev nD) : sProp 𝕄 :=
  iprop((∃ K, ghost m ρ K c) ∗ cred (tallyAt (barCell c) () 7)
    ∗ (bigSep Finset.univ fun j : Fin 7 => cred (tallyAt (recvCell c j) () N)) ∗ levAts L lv)

/-- The whole gather buffer of device c at contents f. -/
def cPts (c : Dev nD) (f : Buf (Elt F) ((c : Thread nD τ).loc cc0_scratch0)) : sProp 𝕄 :=
  ((c : Thread nD τ).loc cc0_scratch0) ↦{fullShare} f

def Φ₀ (c : Dev nD) : sProp 𝕄 := iprop(start m ρ c ∗ ∃ f, cPts c f)
/-- After the point: the gather buffer holding the gathered array, the fourteen OWN cells at
    zero, closed (the barrier cell is the runtime's: nothing to hand back). -/
def Φ₁ (c : Dev nD) : sProp 𝕄 :=
  iprop(cPts c (gath m ρ) ∗ (bigSep Finset.univ fun j : Fin 7 => semVal (sendCell c j) 0)
    ∗ (bigSep Finset.univ fun j : Fin 7 => semVal (recvCell c j) 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outv m ρ
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

/-- A whole staging buffer of device c at contents X, as the pipeline hands it to the body. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body of device c runs from, its ghost state opened at the names K; -/
def bodyPre (K : Dev nD × Fin 15 → ℕ) (c : Dev nD) : sProp 𝕄 :=
  iprop((ghost m ρ K c ∗ cred (tallyAt (barCell c) () 7)
      ∗ (bigSep Finset.univ fun j : Fin 7 => cred (tallyAt (recvCell c j) () N)) ∗ levAts L lv ∗ ∃ f, cPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- and what it ends in. -/
def bodyPost (c : Dev nD) : sProp 𝕄 :=
  iprop(Φ₁ m ρ c ∗ (dats m ρ 0 c).owesAt () t₀.succ ∗ stg c cc0_stg0_0 (xstg m ρ c) ∗ stg c cc0_stg1_0 (outv m ρ))

end Cert.KernelIdeal.Gather

end
-- ==== Proof.Mid.lean ====
/-
  The body in two halves.  The first half runs a device from its entry through its seven
  signals, the column sums of its block, the wait on its barrier and its seven copies; the
  second half waits for the seven arriving rows and the seven departed copies, and sums the
  gathered rows.  Between them the device holds no part of its gather buffer: its own row is
  lent out to its seven copies in seven shares and its other seven rows are with its peers.
-/
import proofs.«901092_g7700000000001093_dist_sum_ax0_shard0_i_m512_n256_v7x_i8_bf16_1_alg».proof.Proof.Proto

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The device's position on the mesh axis, as the kernel computes the word. -/
def v2w (c : Dev nD) : BitVec 32 := Scalar.remsi (Scalar.divsi (Dev.word c) 1#32) 8#32

/-- The kernel on device c, as the pipeline calls it. -/
abbrev bodyAt : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) cc0_scratch1 cc0_scratch2

/-- What is left of the kernel on device c after its seven copies have been started: the seven
    waits for arriving rows, the seven waits for its own copies, the sum of the eight rows. -/
def second (c : Dev nD) (v2 : BitVec 32) : Prog (TpuEff nD τ sig (Elt F) Λ₀ .tc) PUnit := do
  k0_part5 xM (Memref.isWhole_whole _) oM (Memref.isWhole_whole _) cM (Memref.isWhole_whole _) cc0_scratch1 cc0_scratch2 c v2
  k0_part6 xM (Memref.isWhole_whole _) oM (Memref.isWhole_whole _) cM (Memref.isWhole_whole _) cc0_scratch1 cc0_scratch2 c v2
  k0_part7 xM (Memref.isWhole_whole _) oM (Memref.isWhole_whole _) cM (Memref.isWhole_whole _) cc0_scratch1 cc0_scratch2 c
  let v197 : DmaSems sig S1 := cc0_scratch1.slice (Rect.unit (s := S7) ![6] S1.size inb_S7_S1_6)
  let v198 : DmaSems sig S_ := v197.squeeze S_ squeezes_S1_S_
  let v199 : Memref sig .tc .vmem S1x256 .f32 := cM.slice (Rect.unit (s := S8x256) (k0_off2 c) S1x256.size (k0_off2_inb c)) (fun _ => rfl)
  let v200 : Memref sig .tc .vmem S1x256 .f32 := cM.slice (Rect.unit (s := S8x256) (k0_off2 c) S1x256.size (k0_off2_inb c)) (fun _ => rfl)
  Prog.lift (.waitDma2 v198.sem v200 v199 (View.wordExact_bits rfl) (View.wordExact_bits rfl))
  let v201 : Vec F S8x256 .f32 ← Prog.lift (.load cM (Rect.unit (s := S8x256) ![0, 0] S8x256.size inb_S8x256_S8x256_0_0).toLoadRect (View.loadsAt_vmem h_S8x256))
  let v204 : Vec F S1x256 .f32 ← Prog.lift (.load oM (Rect.unit (s := S1x256) ![0, 0] S1x256.size inb_S1x256_S1x256_0_0).toLoadRect (View.loadsAt_vmem h_S1x256))
  Prog.lift (.store oM (Rect.unit (s := S1x256) ![0, 0] S1x256.size inb_S1x256_S1x256_0_0) (k0_pay1 v201) Finset.univ (View.stores_vmem_bits_univ h_S1x256 rfl) (.inl rfl))
  pure ⟨⟩

/-- What device c holds between the halves: every cell's invariant and reached-fact, the level
    facts, its positions at round 0 of its seven send and seven receive cells, the credit of
    each (a send cell's from its copy's departure, a receive cell's dealt at launch), nothing
    owed any more, its staged block of x and the staged output. -/
def midPt (K : Dev nD × Fin 15 → ℕ) (c : Dev nD) : sProp 𝕄 :=
  iprop(records m ρ K ∗ levAts L lv
    ∗ (bigSep Finset.univ fun j : Fin 7 => atPos ER (sendCell c j) 0 ∅ 0)
    ∗ (bigSep Finset.univ fun j : Fin 7 => atPos ER (recvCell c j) 0 ∅ 0)
    ∗ (bigSep Finset.univ fun j : Fin 7 => cred (tallyAt (sendCell c j) () N))
    ∗ (bigSep Finset.univ fun j : Fin 7 => cred (tallyAt (recvCell c j) () N))
    ∗ (∃ W : Waits sig Unit, owes (c : Thread nD τ) 0 W)
    ∗ (((c : Thread nD τ).loc cc0_stg0_0) ↦{fullShare} xstg m ρ c)
    ∗ (∃ g : Buf (Elt F) ((c : Thread nD τ).loc cc0_stg1_0), ((c : Thread nD τ).loc cc0_stg1_0) ↦{fullShare} g))

end Cert.KernelIdeal.Gather

end
-- ==== Proof.Rows.lean ====
/-
  The gather buffer by rows: device t's 8 x 256 buffer is its eight rows; a row held whole is
  the seven shares it is lent out in; the row a device stores its column sums into, and the
  row a peer's copy lands in, hold the gathered array's values there.
-/
import proofs.«901092_g7700000000001093_dist_sum_ax0_shard0_i_m512_n256_v7x_i8_bf16_1_alg».proof.Proof.Proto
import Idealize.ShloMosaic.Lib.Pipeline.Value

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The rectangle the kernel loads and stores its own row through. -/
abbrev ownRect (c : Dev nD) : Rect S8x256 := Rect.unit (s := S8x256) (k0_off1 c) S1x256.size (k0_off1_inb c)

/-! ## Which indices of the buffer a row's rectangle holds -/

/-- A one-row rectangle at offset (r, 0) holds exactly the indices whose row is r. -/
theorem mem_unit_row {off : Fin S8x256.rank → Nat} {inb} (r : Dev nD) (h : off = ![r.val, 0]) (i : S8x256.Idx) :
    i ∈ (Rect.unit (s := S8x256) off S1x256.size inb).set ↔ (i 0).val = r.val := by
  subst h
  rw [Rect.mem_set_unit]
  constructor
  · intro h
    have h0 := h 0
    simp only [Matrix.cons_val_zero] at h0
    have : S1x256.size 0 = 1 := rfl
    omega
  · intro h a
    have h1 : (i 1).val < 256 := (i 1).isLt
    revert a
    rw [Fin.forall_fin_two]
    refine ⟨?_, ?_⟩
    · show r.val ≤ (i 0).val ∧ (i 0).val < r.val + 1
      omega
    · show 0 ≤ (i 1).val ∧ (i 1).val < 0 + 256
      omega

/-- The row sets, as sets of indices of the one buffer. -/
abbrev rowSet (r : Dev nD) : Finset S8x256.Idx := (rowM r).view.set

theorem rowSet_eq (r : Dev nD) :
    rowSet r = (Rect.unit (s := S8x256) (k0_off2 r) S1x256.size (k0_off2_inb r)).set := View.set_slice_whole _ _

theorem mem_row (r : Dev nD) (i : S8x256.Idx) : i ∈ rowSet r ↔ (i 0).val = r.val := by
  rw [rowSet_eq]; exact mem_unit_row r (k0_off2_eq r) i

/-- Different rows share no index, -/
theorem rows_disj (r r' : Dev nD) (h : r ≠ r') : Disjoint (rowSet r) (rowSet r') := by
  rw [Finset.disjoint_left]
  intro i hi hi'
  rw [mem_row] at hi hi'
  exact h (Fin.ext (hi.symm.trans hi'))

/-- and every index lies in the row its first coordinate names. -/
theorem rows_cover : (Finset.univ : Finset (Dev nD)).biUnion rowSet = Finset.univ := by
  ext i
  simp only [Finset.mem_biUnion, Finset.mem_univ, true_and, iff_true]
  exact ⟨⟨(i 0).val, (i 0).isLt⟩, (mem_row _ i).mpr rfl⟩

/-- The whole buffer is its eight rows. -/
theorem cPts_rows (c : Dev nD) (f : Buf (Elt F) ((c : Thread nD τ).loc cc0_scratch0)) :
    cPts (F := F) c f ⊣⊢ bigSep Finset.univ fun r : Dev nD => rowPts c r fullShare f := by
  unfold cPts rowPts
  have h := pointsTo_biUnion (nD := nD) (τ := τ) (sig := sig) (Ix := Unit) (Val := Elt F) (Name := ℕ) (U := UU) (Lvl := ℕ)
    (ℓ := (c : Thread nD τ).loc cc0_scratch0) (q := fullShare) (f := f) (Finset.univ : Finset (Dev nD)) rowSet
    (fun r _ r' _ hne => rows_disj r r' hne)
  rw [rows_cover] at h
  rw [h]

/-! ## The eight devices as one and the seven others -/

/-- Seven distinct devices none of which is c are all the devices but c. -/
theorem erase_eq_map (g : Fin 7 ↪ Dev nD) (c : Dev nD) (hne : ∀ k, g k ≠ c) :
    (Finset.univ : Finset (Dev nD)).erase c = Finset.univ.map g := by
  symm
  apply Finset.eq_of_subset_of_card_le
  · intro x hx
    obtain ⟨k, -, rfl⟩ := Finset.mem_map.mp hx
    exact Finset.mem_erase.mpr ⟨hne k, Finset.mem_univ _⟩
  · rw [Finset.card_map, Finset.card_erase_of_mem (Finset.mem_univ c), Finset.card_univ, Finset.card_univ,
      Fintype.card_fin, Fintype.card_fin]
    decide

omit [FloatOps F] in
/-- So a product over the eight devices is the factor at c and the product over those seven. -/
theorem bigSep_around (g : Fin 7 ↪ Dev nD) (c : Dev nD) (hne : ∀ k, g k ≠ c) (Φ : Dev nD → sProp 𝕄) :
    bigSep Finset.univ Φ = iprop(Φ c ∗ bigSep Finset.univ fun k : Fin 7 => Φ (g k)) := by
  rw [bigSep_univ_at Φ c, erase_eq_map g c hne, bigSep_map]

/-- The whole buffer of device c is its own row c and the seven rows of the devices k+1 places on; -/
theorem rows_split (c : Dev nD) (f : Buf (Elt F) ((c : Thread nD τ).loc cc0_scratch0)) :
    cPts (F := F) c f ⊢ iprop(rowPts c c fullShare f ∗ bigSep Finset.univ fun k : Fin 7 => rowPts c (sh k c) fullShare f) :=
  (cPts_rows c f).1.trans (Entails.of_eq
    (bigSep_around ⟨fun k => sh k c, sh_inj_left c⟩ c (fun k => sh_ne k c) fun r => rowPts c r fullShare f))
/-- and it is put together again from its own row and the seven rows of the devices j+1 places back. -/
theorem rows_join (c : Dev nD) (f : Buf (Elt F) ((c : Thread nD τ).loc cc0_scratch0)) :
    iprop(rowPts c c fullShare f ∗ bigSep Finset.univ fun j : Fin 7 => rowPts c (bk j c) fullShare f) ⊢ cPts (F := F) c f :=
  (Entails.of_eq
    (bigSep_around ⟨fun k => bk k c, bk_inj_left c⟩ c (fun k => bk_ne k c) fun r => rowPts c r fullShare f).symm).trans
    (cPts_rows c f).2

/-- A row held whole is the seven shares it is lent out in. -/
theorem rowPts_shares (t r : Dev nD) (f : Buf (Elt F) ((rowM r).view.loc (t : Thread nD τ))) :
    rowPts (F := F) t r fullShare f ⊣⊢ bigSep Finset.univ fun j : Fin 7 => rowPts t r (qs j) f := by
  -- a share is its left and its right half; the seven shares are the left halves met going right six times
  have hs : ∀ q : PosShare TreeShare, rowPts (F := F) t r q f = iprop(rowPts t r q.left f ∗ rowPts t r q.right f) :=
    fun q => BI.equiv_iff.mp ⟨(pointsTo_share (PosShare.mem_left_op_right q)).1, (pointsTo_share (PosShare.mem_left_op_right q)).2⟩
  rw [bigSep_fin7]
  simp only [qs]
  rw [hs fullShare, hs fullShare.right, hs fullShare.right.right, hs fullShare.right.right.right,
    hs fullShare.right.right.right.right, hs fullShare.right.right.right.right.right]

/-- The rectangle of the kernel's own accesses holds the indices of row c. -/
theorem ownRect_set (c : Dev nD) : (ownRect c).set = rowSet c := by
  ext i
  rw [mem_row]; exact mem_unit_row c (k0_off1_eq c) i

/-- The kernel's load and store of its own row touch that row only. -/
theorem own_load_sub (c : Dev nD) :
    (cM : Memref sig .tc .vmem S8x256 .f32).view.setOn (ownRect c).toLoadRect.set ⊆ (rowM c).view.set := by
  intro i hi
  obtain ⟨y, hy, rfl⟩ := Finset.mem_map.mp hi
  show y ∈ rowSet c
  rw [← ownRect_set]; exact hy
theorem own_store_sub (c : Dev nD) :
    ((cM : Memref sig .tc .vmem S8x256 .f32).access (ownRect c)).setOn Finset.univ ⊆ (rowM c).view.set := by
  rw [View.setOn_univ, show ((cM : Memref sig .tc .vmem S8x256 .f32).access (ownRect c)).set = (ownRect c).set from
    View.set_slice_whole _ _, ownRect_set]

open Idealize.ShloMosaic.ValueIdx in
/-- Through the kernel's own rectangle, column b of the one row is column b of row c of the buffer. -/
theorem own_emb (c : Dev nD) (b : Fin 256) :
    ((cM : Memref sig .tc .vmem S8x256 .f32).access (ownRect c)).emb (ix2 (0 : Fin 1) b) = (ix2 c b : S8x256.Idx) := by
  funext a
  match a with
  | ⟨0, _⟩ =>
    apply Fin.ext
    show k0_off1 c 0 + 1 * 0 = c.val
    rw [k0_off1_eq]; rfl
  | ⟨1, _⟩ =>
    apply Fin.ext
    show k0_off1 c 1 + 1 * b.val = b.val
    rw [k0_off1_eq]; show 0 + 1 * b.val = b.val; omega

open Idealize.ShloMosaic.ValueIdx in
/-- After device c has stored the column sums of its block, its row c holds the gathered array's row c. -/
theorem row_stored (c : Dev nD) (f : Buf (Elt F) (((cM : Memref sig .tc .vmem S8x256 .f32).access (ownRect c)).loc (c : Thread nD τ))) :
    rowPts c c fullShare (((cM : Memref sig .tc .vmem S8x256 .f32).access (ownRect c)).write (Elt F) f (k0_pay2 (xstg m ρ c)) Finset.univ)
      = rowPts c c fullShare (gath m ρ) := by
  unfold rowPts
  apply pointsTo_congr
  intro i hi
  -- an index of row c is column b of the one stored row, for some b
  have hi' : i ∈ ((cM : Memref sig .tc .vmem S8x256 .f32).access (ownRect c)).set := by
    rw [show ((cM : Memref sig .tc .vmem S8x256 .f32).access (ownRect c)).set = (ownRect c).set from
      View.set_slice_whole _ _, ownRect_set]
    exact hi
  obtain ⟨y, rfl⟩ := View.exists_emb_of_mem_set _ hi'
  obtain ⟨a, b, rfl⟩ : ∃ (a : Fin 1) (b : Fin 256), y = ix2 a b := ⟨y 0, y 1, eq_ix2 y⟩
  obtain rfl : a = 0 := Subsingleton.elim _ _
  -- there the store left the column sum of block c at b, which is the gathered array at (c, b)
  rw [View.write_emb_of_mem _ _ (Finset.mem_univ _), own_emb, cast_eq]
  rfl

/-- Row c of device t's buffer, overwritten by a copy of a row c that holds the gathered array's, holds it too. -/
theorem row_landed (t c : Dev nD) (fd : Buf (Elt F) ((rowM c).view.loc (t : Thread nD τ))) :
    rowPts t c fullShare ((rowM c).view.write (Elt F) fd ((rowM c).view.read (Elt F) (gath m ρ)) Finset.univ)
      = rowPts t c fullShare (gath m ρ) := by
  unfold rowPts
  apply pointsTo_congr
  intro i hi
  obtain ⟨y, rfl⟩ := View.exists_emb_of_mem_set _ hi
  -- the copy wrote at each index of the row what the source row, the gathered array's, holds there
  rw [View.write_emb_of_mem _ _ (Finset.mem_univ _), View.read_apply, cast_cast, cast_eq]

/-- info: 'Cert.KernelIdeal.Gather.rows_join' depends on axioms: [propext, Classical.choice, Quot.sound] -/
#guard_msgs in #print axioms rows_join

/-- info: 'Cert.KernelIdeal.Gather.row_landed' depends on axioms: [propext, Classical.choice, Quot.sound] -/
#guard_msgs in #print axioms row_landed

end Cert.KernelIdeal.Gather

end
-- ==== Proof.First.lean ====
/-
  The first half of the body on device c.  Seven signals, signal k handing the device k+1
  places on the row of c's gather buffer that device will write; the column sums of c's block
  stored into row c, which then holds the gathered array's row c; the wait for the seven units
  of c's barrier cell, which brings row c of every peer's buffer; seven copies, copy j lending
  share j of row c and writing row c of the device j+1 places on.
-/
import proofs.«901092_g7700000000001093_dist_sum_ax0_shard0_i_m512_n256_v7x_i8_bf16_1_alg».proof.Proof.Mid
import proofs.«901092_g7700000000001093_dist_sum_ax0_shard0_i_m512_n256_v7x_i8_bf16_1_alg».proof.Proof.Rows
import proofs.«901092_g7700000000001093_dist_sum_ax0_shard0_i_m512_n256_v7x_i8_bf16_1_alg».proof.Proof.Gen.KernelIdeal.Skeleton
import Idealize.ShloMosaic.Lib.Tactic
import Idealize.ShloMosaic.Lib.Pipeline.Launch

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells' invariants and reached-facts, one at a time -/

theorem inv_at (K : Dev nD × Fin 15 → ℕ) (ck : Dev nD × Fin 15) :
    (bigSep Finset.univ fun ck : Dev nD × Fin 15 => (cellInv ER (sched m ρ) (K ck) (kcell ck) : sProp 𝕄)) ⊢ cellInv ER (sched m ρ) (K ck) (kcell ck) :=
  bigSep_elim (Finset.mem_univ ck)
omit [FloatOps F] in
theorem reached_at (ck : Dev nD × Fin 15) :
    (bigSep Finset.univ fun ck : Dev nD × Fin 15 => (reached ER (kcell ck) 0 : sProp 𝕄)) ⊢ reached ER (kcell ck) 0 :=
  bigSep_elim (Finset.mem_univ ck)

/-! ## The printed semaphores are the send and receive semaphores by position -/

omit [FloatOps F] in
theorem semS0 : ((SemArray.slice cc0_scratch1 (Rect.unit (s := S7) ![0] S1.size inb_S7_S1_0)).squeeze S_ squeezes_S1_S_).sem = sendS 0 := by decide
omit [FloatOps F] in
theorem semR0 : ((SemArray.slice cc0_scratch2 (Rect.unit (s := S7) ![0] S1.size inb_S7_S1_0)).squeeze S_ squeezes_S1_S_).sem = recvS 0 := by decide
omit [FloatOps F] in
theorem semS1 : ((SemArray.slice cc0_scratch1 (Rect.unit (s := S7) ![1] S1.size inb_S7_S1_1)).squeeze S_ squeezes_S1_S_).sem = sendS 1 := by decide
omit [FloatOps F] in
theorem semR1 : ((SemArray.slice cc0_scratch2 (Rect.unit (s := S7) ![1] S1.size inb_S7_S1_1)).squeeze S_ squeezes_S1_S_).sem = recvS 1 := by decide
omit [FloatOps F] in
theorem semS2 : ((SemArray.slice cc0_scratch1 (Rect.unit (s := S7) ![2] S1.size inb_S7_S1_2)).squeeze S_ squeezes_S1_S_).sem = sendS 2 := by decide
omit [FloatOps F] in
theorem semR2 : ((SemArray.slice cc0_scratch2 (Rect.unit (s := S7) ![2] S1.size inb_S7_S1_2)).squeeze S_ squeezes_S1_S_).sem = recvS 2 := by decide
omit [FloatOps F] in
theorem semS3 : ((SemArray.slice cc0_scratch1 (Rect.unit (s := S7) ![3] S1.size inb_S7_S1_3)).squeeze S_ squeezes_S1_S_).sem = sendS 3 := by decide
omit [FloatOps F] in
theorem semR3 : ((SemArray.slice cc0_scratch2 (Rect.unit (s := S7) ![3] S1.size inb_S7_S1_3)).squeeze S_ squeezes_S1_S_).sem = recvS 3 := by decide
omit [FloatOps F] in
theorem semS4 : ((SemArray.slice cc0_scratch1 (Rect.unit (s := S7) ![4] S1.size inb_S7_S1_4)).squeeze S_ squeezes_S1_S_).sem = sendS 4 := by decide
omit [FloatOps F] in
theorem semR4 : ((SemArray.slice cc0_scratch2 (Rect.unit (s := S7) ![4] S1.size inb_S7_S1_4)).squeeze S_ squeezes_S1_S_).sem = recvS 4 := by decide
omit [FloatOps F] in
theorem semS5 : ((SemArray.slice cc0_scratch1 (Rect.unit (s := S7) ![5] S1.size inb_S7_S1_5)).squeeze S_ squeezes_S1_S_).sem = sendS 5 := by decide
omit [FloatOps F] in
theorem semR5 : ((SemArray.slice cc0_scratch2 (Rect.unit (s := S7) ![5] S1.size inb_S7_S1_5)).squeeze S_ squeezes_S1_S_).sem = recvS 5 := by decide
omit [FloatOps F] in
theorem semS6 : ((SemArray.slice cc0_scratch1 (Rect.unit (s := S7) ![6] S1.size inb_S7_S1_6)).squeeze S_ squeezes_S1_S_).sem = sendS 6 := by decide
omit [FloatOps F] in
theorem semR6 : ((SemArray.slice cc0_scratch2 (Rect.unit (s := S7) ![6] S1.size inb_S7_S1_6)).squeeze S_ squeezes_S1_S_).sem = recvS 6 := by decide

/-! ## The staged block read whole; the device j+1 places on is 7-j places back -/

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) :
    (xM : Memref sig .tc .vmem S512x256 .f32).view.readAt (Elt F)
      (Rect.unit (s := S512x256) ![0, 0] S512x256.size inb_S512x256_S512x256_0_0).toLoadRect f = f :=
  Memref.readAt_unit_zero (Elt F) cc0_stg0_0 hz2 _ f
omit [FloatOps F] in
theorem bk_rev_eq_sh (j : Fin 7) (c : Dev nD) : bk j.rev c = sh j c := by revert j c; decide

/-! ## One signal, one copy -/

/-- Signal k of device c: duty k of the barrier cell of the device k+1 places on, paid with
    c's row of that device's index. -/
theorem wp_sig (K : Dev nD × Fin 15 → ℕ) (c : Dev nD) (k : Fin 7) (n : Dev nD) (hn : n = sh k c) {α : Type} {Q : α → sProp 𝕄}
    {kk : PUnit → Prog (TpuEff nD τ sig (Elt F) Λ₀ .tc) α} (O : CellTallies nD τ sig Unit) (W : Waits sig Unit)
    (f : Buf (Elt F) ((rowM (sh k c)).view.loc (c : Thread nD τ))) :
    iprop(records m ρ K ∗ owes (c : Thread nD τ) (O + bT c k) W ∗ dutyTok ER (barCell (sh k c)) 0 k ∗ rowPts c (sh k c) fullShare f)
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS (1#32).toNat) kk) Q) := by
  subst hn
  unfold records
  iintro ⟨⟨#HI, #Hr⟩, HO, Htok, Hrow⟩ Hk
  iapply (Rounds.wp_signal 𝒱₀ ER (sched m ρ) (c : Thread nD τ) none (dst := (sh k c : Thread nD τ)) (κ := K (sh k c, iB))
      (d := k) (by rw [duties_bar]; exact Finset.mem_univ _) ((amount_bar m ρ (sh k c) k).trans (by decide)) () O rfl) $$ [HO Htok Hrow]
  · isplitr; · iapply (inv_at m ρ K (sh k c, iB)); iexact HI
    isplitl [HO]; · iexact HO
    isplitl [Htok]; · iexact Htok
    isplitl [Hrow]
    · rw [payload_bar]; unfold barPay; rw [bk_sh]; iexists f; iexact Hrow
    · iapply (reached_at (F := F) (sh k c, iB)); iexact Hr
  iexact Hk

/-- Copy j of device c: share j of c's own row, holding the gathered array's row c, into row c
    of the device j+1 places on. -/
theorem wp_snd (K : Dev nD × Fin 15 → ℕ) (c : Dev nD) (j : Fin 7) (n : Dev nD) (hn : n = sh j c) (t : Dev nD) (ht : t = sh j c)
    (sS sR : DmaSem sig) (hsS : sS = sendS j) (hsR : sR = recvS j)
    {hsc : (rowM c : Memref sig (Dev.tc n : Thread nD τ).2.kind .vmem S1x256 .f32).view.ref.isScScratch = false}
    {hsrc : (rowM c : Memref sig .tc .vmem S1x256 .f32).view.WordExact} {hdst : (rowM c : Memref sig .tc .vmem S1x256 .f32).view.WordExact}
    {hsem : DmaTarget.Typed .vmem (.dma sR) (.remote (Dev.tc n : Thread nD τ) (rowM c : Memref sig .tc .vmem S1x256 .f32) (.dma sS) hsc)}
    {α : Type} {Q : α → sProp 𝕄} {kk : PUnit → Prog (TpuEff nD τ sig (Elt F) Λ₀ .tc) α}
    (fn : Buf (Elt F) ((rowM c).view.loc (t : Thread nD τ))) (O : CellTallies nD τ sig Unit) (W : Waits sig Unit) :
    iprop(records m ρ K ∗ rowPts c c (qs j) (gath m ρ) ∗ rowPts t c fullShare fn
        ∗ owes (c : Thread nD τ) (O + rT c j) W
        ∗ dutyTok ER (sendCell c j) 0 (0 : Fin 7) ∗ dutyTok ER (recvCell (sh j c) j) 0 (0 : Fin 7))
      ⊢ iprop(((cred (tallyAt (sendCell c j) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (rowM c) (.remote (Dev.tc n : Thread nD τ) (rowM c) (.dma sS) hsc) (.dma sR) hsrc hdst hsem) kk) Q) := by
  subst hn hsS hsR ht
  unfold records
  iintro ⟨⟨#HI, #Hr⟩, Hsrc, Hdst, HO, Ht1, Ht2⟩ Hk
  have hI1 := inv_at m ρ K (c, iS j); rw [kcell_iS] at hI1
  have hI2 := inv_at m ρ K (sh j c, iR j); rw [kcell_iR] at hI2
  have hr1 := reached_at (F := F) (c, iS j); rw [kcell_iS] at hr1
  have hr2 := reached_at (F := F) (sh j c, iR j); rw [kcell_iR] at hr2
  unfold rowPts
  iapply (Rounds.wp_send_pointsTo 𝒱₀ ER (sched m ρ) (c : Thread nD τ) none (κ₁ := K (c, iS j)) (κ₂ := K (sh j c, iR j))
    (r₁ := 0) (r₂ := 0) (d₁ := 0) (d₂ := 0) (fd := fn) (q := qs j) (fs := gath m ρ)
    (by rw [duties_send]; exact Finset.mem_singleton_self _) (by rw [duties_recv]; exact Finset.mem_singleton_self _)
    () () N rfl (amount_send m ρ c j 0) (amount_recv m ρ (sh j c) j 0) O rfl (W := W)
    (by rw [payload_send]; exact BI.Entails.refl _)
    (by rw [payload_recv]; unfold recvPay; rw [bk_sh]; exact Entails.of_eq (row_landed m ρ (sh j c) c fn))) $$ [Hsrc Hdst HO Ht1 Ht2]
  · isplitr; · iapply hI1; iexact HI
    isplitr; · iapply hI2; iexact HI
    isplitl [Hsrc]; · iexact Hsrc
    isplitl [Hdst]; · iexact Hdst
    isplitl [HO]; · iexact HO
    isplitl [Ht1]; · iexact Ht1
    isplitr; · iapply hr1; iexact Hr
    isplitl [Ht2]; · iexact Ht2
    iapply hr2; iexact Hr
  iexact Hk

/-! ## The first half -/

set_option maxHeartbeats 1600000 in
set_option maxRecDepth 8000 in
theorem first_half (K : Dev nD × Fin 15 → ℕ) (c : Dev nD)
    (hmw : (levAts L lv : sProp 𝕄) ⊢ MayWait (c : Thread nD τ) (.reg barS) () (OR c)) (Kt : PUnit → sProp 𝕄) :
    iprop(bodyPre m ρ K c ∗ (midPt m ρ K c -∗ wp frame (wpE (defs₀ (F := F)) 𝒱₀ (c : Thread nD τ) none) Set.univ (second (F := F) c (v2w c)) Kt))
      ⊢ wp frame (wpE (defs₀ (F := F)) 𝒱₀ (c : Thread nD τ) none) Set.univ (bodyAt (F := F)) Kt := by
  unfold bodyAt; rw [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold bodyPre ghost linear payToks
  simp only [bigSep_fin7]
  iintro ⟨⟨⟨⟨#HR, ⟨HatB, ⟨HatS0, HatS1, HatS2, HatS3, HatS4, HatS5, HatS6⟩, ⟨HatV0, HatV1, HatV2, HatV3, HatV4, HatV5, HatV6⟩⟩,
      ⟨HtB0, HtB1, HtB2, HtB3, HtB4, HtB5, HtB6⟩, ⟨HtS0, HtS1, HtS2, HtS3, HtS4, HtS5, HtS6⟩, ⟨HtV0, HtV1, HtV2, HtV3, HtV4, HtV5, HtV6⟩⟩,
      HcB, ⟨HcV0, HcV1, HcV2, HcV3, HcV4, HcV5, HcV6⟩, #Hlev, ⟨%f0, Hscr⟩⟩,
    Ho, ⟨%d0, %g0, %hg0, Hx⟩, ⟨%d1, %g1, %hg1, Hout⟩⟩, Hk⟩
  -- what the device owes, and its gather buffer row by row
  unfold Dat.owesAt Pipeline.owesWithin
  icases Ho with ⟨%W, %hW, HO⟩
  rw [show (dats m ρ 0 c).owed t₀.castSucc = O₀ c from rfl]
  unfold O₀
  have hx : g0 = xstg m ρ c := by rw [hg0]; unfold Dat.before; rw [if_pos (fetch0_0 t₀)]; rfl
  subst hx
  ihave Hrows := (rows_split (F := F) c f0) $$ Hscr
  icases Hrows with ⟨Hown, Hrows⟩
  ihave Hr7 := (Entails.of_eq (bigSep_fin7 _)) $$ Hrows
  icases Hr7 with ⟨Hrow0, Hrow1, Hrow2, Hrow3, Hrow4, Hrow5, Hrow6⟩
  -- signal 0: to the device 1 places on, handing it this device's row of that index
  iapply (wp_sig m ρ K c 0 _ (dev1_eq c) (OR c + bT c 6 + bT c 5 + bT c 4 + bT c 3 + bT c 2 + bT c 1) W f0) $$ [HO HtB0 Hrow0]
  · isplitr; · iexact HR
    isplitl [HO]; · iexact HO
    isplitl [HtB0]; · iexact HtB0
    iexact Hrow0
  iintro HO
  -- signal 1: to the device 2 places on, handing it this device's row of that index
  iapply (wp_sig m ρ K c 1 _ (dev2_eq c) (OR c + bT c 6 + bT c 5 + bT c 4 + bT c 3 + bT c 2) W f0) $$ [HO HtB1 Hrow1]
  · isplitr; · iexact HR
    isplitl [HO]; · iexact HO
    isplitl [HtB1]; · iexact HtB1
    iexact Hrow1
  iintro HO
  -- signal 2: to the device 3 places on, handing it this device's row of that index
  iapply (wp_sig m ρ K c 2 _ (dev3_eq c) (OR c + bT c 6 + bT c 5 + bT c 4 + bT c 3) W f0) $$ [HO HtB2 Hrow2]
  · isplitr; · iexact HR
    isplitl [HO]; · iexact HO
    isplitl [HtB2]; · iexact HtB2
    iexact Hrow2
  iintro HO
  -- signal 3: to the device 4 places on, handing it this device's row of that index
  iapply (wp_sig m ρ K c 3 _ (dev4_eq c) (OR c + bT c 6 + bT c 5 + bT c 4) W f0) $$ [HO HtB3 Hrow3]
  · isplitr; · iexact HR
    isplitl [HO]; · iexact HO
    isplitl [HtB3]; · iexact HtB3
    iexact Hrow3
  iintro HO
  -- signal 4: to the device 5 places on, handing it this device's row of that index
  iapply (wp_sig m ρ K c 4 _ (dev5_eq c) (OR c + bT c 6 + bT c 5) W f0) $$ [HO HtB4 Hrow4]
  · isplitr; · iexact HR
    isplitl [HO]; · iexact HO
    isplitl [HtB4]; · iexact HtB4
    iexact Hrow4
  iintro HO
  -- signal 5: to the device 6 places on, handing it this device's row of that index
  iapply (wp_sig m ρ K c 5 _ (dev6_eq c) (OR c + bT c 6) W f0) $$ [HO HtB5 Hrow5]
  · isplitr; · iexact HR
    isplitl [HO]; · iexact HO
    isplitl [HtB5]; · iexact HtB5
    iexact Hrow5
  iintro HO
  -- signal 6: to the device 7 places on, handing it this device's row of that index
  iapply (wp_sig m ρ K c 6 _ (dev7_eq c) (OR c) W f0) $$ [HO HtB6 Hrow6]
  · isplitr; · iexact HR
    isplitl [HO]; · iexact HO
    isplitl [HtB6]; · iexact HtB6
    iexact Hrow6
  iintro HO
  -- the column sums of the block, into the device's own row
  iapply (wp_load 𝒱₀ (c : Thread nD τ) none Set.univ (m := xM) (Finset.subset_univ _)) $$ Hx; iintro Hx
  rw [read_x]
  unfold rowPts
  iapply (wp_load 𝒱₀ (c : Thread nD τ) none Set.univ (m := cM) (own_load_sub c)) $$ Hown; iintro Hown
  iapply (wp_store 𝒱₀ (c : Thread nD τ) none Set.univ (m := cM) (r := ownRect c) (Mk := Finset.univ) (own_store_sub c)) $$ Hown; iintro Hown
  have hst : ((((cM : Memref sig .tc .vmem S8x256 .f32).access (ownRect c)).loc (c : Thread nD τ)
        ↦[(rowM c).view.set]{fullShare} (((cM : Memref sig .tc .vmem S8x256 .f32).access (ownRect c)).write (Elt F) f0 (k0_pay2 (xstg m ρ c)) Finset.univ)) : sProp 𝕄)
      = rowPts c c fullShare (gath m ρ) := row_stored m ρ c f0
  ihave Hown := (Entails.of_eq hst) $$ Hown
  -- the wait for the seven units of its barrier cell: row c of every peer's buffer comes with them
  iapply (Rounds.wp_wait_rest_token 𝒱₀ ER (sched m ρ) (c : Thread nD τ) none (κ := K (c, iB))
      (wpE_semWait_eq 𝒱₀ (c : Thread nD τ) none Set.univ) (Set.mem_univ _) () (O := OR c) (W := W) (R := 0) (m := 0) (T := ∅)
      (by rw [expect_bar]; decide)) $$ [HcB HO HatB]
  · isplitr; · unfold records; icases HR with ⟨#HI, -⟩; iapply (inv_at m ρ K (c, iB)); iexact HI
    isplitl [HcB]; · iexact HcB
    isplitl [HO]; · iexact HO
    isplitr; · iapply hmw; iexact Hlev
    iexact HatB
  iintro ⟨HO, HatB, -, Hpay⟩
  ihave Hp := (Entails.of_eq (rest_bar m ρ c)) $$ Hpay
  unfold barPay
  icases Hp with ⟨⟨%fb0, Hpeer0⟩, ⟨%fb1, Hpeer1⟩, ⟨%fb2, Hpeer2⟩, ⟨%fb3, Hpeer3⟩, ⟨%fb4, Hpeer4⟩, ⟨%fb5, Hpeer5⟩, ⟨%fb6, Hpeer6⟩⟩
  -- the device's own row in the seven shares its copies borrow
  ihave Hq := (rowPts_shares (F := F) c c (gath m ρ)).1 $$ Hown
  ihave Hq7 := (Entails.of_eq (bigSep_fin7 _)) $$ Hq
  icases Hq7 with ⟨Hq0, Hq1, Hq2, Hq3, Hq4, Hq5, Hq6⟩
  unfold OR
  generalize hW' : insert (SemLoc.reg barS, ()) W = W'
  -- copy 0: row c into row c of the device 1 places on (that row came with duty 6 of the barrier round)
  iapply (wp_snd m ρ K c 0 _ (dev8_eq c) (bk 6 c) (bk_rev_eq_sh 0 c) _ _ semS0 semR0 fb6 (rT c 6 + rT c 5 + rT c 4 + rT c 3 + rT c 2 + rT c 1) W') $$ [Hq0 Hpeer6 HO HtS0 HtV0]
  · isplitr; · iexact HR
    isplitl [Hq0]; · iexact Hq0
    isplitl [Hpeer6]; · iexact Hpeer6
    isplitl [HO]; · iexact HO
    isplitl [HtS0]; · iexact HtS0
    iexact HtV0
  iintro ⟨HcS0, HO⟩
  -- copy 1: row c into row c of the device 2 places on (that row came with duty 5 of the barrier round)
  iapply (wp_snd m ρ K c 1 _ (dev9_eq c) (bk 5 c) (bk_rev_eq_sh 1 c) _ _ semS1 semR1 fb5 (rT c 6 + rT c 5 + rT c 4 + rT c 3 + rT c 2) W') $$ [Hq1 Hpeer5 HO HtS1 HtV1]
  · isplitr; · iexact HR
    isplitl [Hq1]; · iexact Hq1
    isplitl [Hpeer5]; · iexact Hpeer5
    isplitl [HO]; · iexact HO
    isplitl [HtS1]; · iexact HtS1
    iexact HtV1
  iintro ⟨HcS1, HO⟩
  -- copy 2: row c into row c of the device 3 places on (that row came with duty 4 of the barrier round)
  iapply (wp_snd m ρ K c 2 _ (dev10_eq c) (bk 4 c) (bk_rev_eq_sh 2 c) _ _ semS2 semR2 fb4 (rT c 6 + rT c 5 + rT c 4 + rT c 3) W') $$ [Hq2 Hpeer4 HO HtS2 HtV2]
  · isplitr; · iexact HR
    isplitl [Hq2]; · iexact Hq2
    isplitl [Hpeer4]; · iexact Hpeer4
    isplitl [HO]; · iexact HO
    isplitl [HtS2]; · iexact HtS2
    iexact HtV2
  iintro ⟨HcS2, HO⟩
  -- copy 3: row c into row c of the device 4 places on (that row came with duty 3 of the barrier round)
  iapply (wp_snd m ρ K c 3 _ (dev11_eq c) (bk 3 c) (bk_rev_eq_sh 3 c) _ _ semS3 semR3 fb3 (rT c 6 + rT c 5 + rT c 4) W') $$ [Hq3 Hpeer3 HO HtS3 HtV3]
  · isplitr; · iexact HR
    isplitl [Hq3]; · iexact Hq3
    isplitl [Hpeer3]; · iexact Hpeer3
    isplitl [HO]; · iexact HO
    isplitl [HtS3]; · iexact HtS3
    iexact HtV3
  iintro ⟨HcS3, HO⟩
  -- copy 4: row c into row c of the device 5 places on (that row came with duty 2 of the barrier round)
  iapply (wp_snd m ρ K c 4 _ (dev12_eq c) (bk 2 c) (bk_rev_eq_sh 4 c) _ _ semS4 semR4 fb2 (rT c 6 + rT c 5) W') $$ [Hq4 Hpeer2 HO HtS4 HtV4]
  · isplitr; · iexact HR
    isplitl [Hq4]; · iexact Hq4
    isplitl [Hpeer2]; · iexact Hpeer2
    isplitl [HO]; · iexact HO
    isplitl [HtS4]; · iexact HtS4
    iexact HtV4
  iintro ⟨HcS4, HO⟩
  -- copy 5: row c into row c of the device 6 places on (that row came with duty 1 of the barrier round)
  iapply (wp_snd m ρ K c 5 _ (dev13_eq c) (bk 1 c) (bk_rev_eq_sh 5 c) _ _ semS5 semR5 fb1 (rT c 6) W') $$ [Hq5 Hpeer1 HO HtS5 HtV5]
  · isplitr; · iexact HR
    isplitl [Hq5]; · iexact Hq5
    isplitl [Hpeer1]; · iexact Hpeer1
    isplitl [HO]; · iexact HO
    isplitl [HtS5]; · iexact HtS5
    iexact HtV5
  iintro ⟨HcS5, HO⟩
  -- copy 6: row c into row c of the device 7 places on (that row came with duty 0 of the barrier round)
  iapply (wp_snd m ρ K c 6 _ (dev14_eq c) (bk 0 c) (bk_rev_eq_sh 6 c) _ _ semS6 semR6 fb0 0 W') $$ [Hq6 Hpeer0 HO HtS6 HtV6]
  · isplitr; · iexact HR
    isplitl [Hq6]; · iexact Hq6
    isplitl [Hpeer0]; · iexact Hpeer0
    isplitl [HO]; · rw [zero_add]; iexact HO
    isplitl [HtS6]; · iexact HtS6
    iexact HtV6
  iintro ⟨HcS6, HO⟩
  -- between the halves
  iapply Hk
  unfold midPt
  simp only [bigSep_fin7]
  isplitr; · iexact HR
  isplitr; · iexact Hlev
  isplitl [HatS0 HatS1 HatS2 HatS3 HatS4 HatS5 HatS6]
  · isplitl [HatS0]; · iexact HatS0
    isplitl [HatS1]; · iexact HatS1
    isplitl [HatS2]; · iexact HatS2
    isplitl [HatS3]; · iexact HatS3
    isplitl [HatS4]; · iexact HatS4
    isplitl [HatS5]; · iexact HatS5
    iexact HatS6
  isplitl [HatV0 HatV1 HatV2 HatV3 HatV4 HatV5 HatV6]
  · isplitl [HatV0]; · iexact HatV0
    isplitl [HatV1]; · iexact HatV1
    isplitl [HatV2]; · iexact HatV2
    isplitl [HatV3]; · iexact HatV3
    isplitl [HatV4]; · iexact HatV4
    isplitl [HatV5]; · iexact HatV5
    iexact HatV6
  isplitl [HcS0 HcS1 HcS2 HcS3 HcS4 HcS5 HcS6]
  · isplitl [HcS0]; · iexact HcS0
    isplitl [HcS1]; · iexact HcS1
    isplitl [HcS2]; · iexact HcS2
    isplitl [HcS3]; · iexact HcS3
    isplitl [HcS4]; · iexact HcS4
    isplitl [HcS5]; · iexact HcS5
    iexact HcS6
  isplitl [HcV0 HcV1 HcV2 HcV3 HcV4 HcV5 HcV6]
  · isplitl [HcV0]; · iexact HcV0
    isplitl [HcV1]; · iexact HcV1
    isplitl [HcV2]; · iexact HcV2
    isplitl [HcV3]; · iexact HcV3
    isplitl [HcV4]; · iexact HcV4
    isplitl [HcV5]; · iexact HcV5
    iexact HcV6
  isplitl [HO]; · iexists W'; iexact HO
  isplitl [Hx]; · iexact Hx
  iexists g1; iexact Hout

end Cert.KernelIdeal.Gather

end
-- ==== Proof.Second.lean ====
/-
  The second half of a device's body: the seven waits for the rows arriving from its peers,
  the seven waits for its own copies to have left, and the sum of the eight gathered rows.
-/
import proofs.«901092_g7700000000001093_dist_sum_ax0_shard0_i_m512_n256_v7x_i8_bf16_1_alg».proof.Proof.Mid
import proofs.«901092_g7700000000001093_dist_sum_ax0_shard0_i_m512_n256_v7x_i8_bf16_1_alg».proof.Proof.Rows
import proofs.«901092_g7700000000001093_dist_sum_ax0_shard0_i_m512_n256_v7x_i8_bf16_1_alg».proof.Proof.Gen.KernelIdeal.Skeleton
import Idealize.ShloMosaic.Lib.Tactic
import Idealize.ShloMosaic.Lib.Pipeline.Launch

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] duties_send duties_recv amount_send amount_recv expect_send expect_recv payload_send payload_recv rest_send rest_recv

/-- The invariants of a device's receive and send cells, from the records every device knows. -/
theorem inv_recv (K : Dev nD × Fin 15 → ℕ) (c : Dev nD) (j : Fin 7) :
    records m ρ K ⊢ cellInv ER (sched m ρ) (K (c, iR j)) (recvCell c j) := by
  unfold records
  rw [← kcell_iR c j]
  iintro ⟨H, _⟩
  iapply (show bigSep Finset.univ (fun ck : Dev nD × Fin 15 => cellInv ER (sched m ρ) (K ck) (kcell ck))
    ⊢ cellInv ER (sched m ρ) (K (c, iR j)) (kcell (c, iR j)) from BI.bigSep_elim (Finset.mem_univ (c, iR j)))
  iexact H

theorem inv_send (K : Dev nD × Fin 15 → ℕ) (c : Dev nD) (j : Fin 7) :
    records m ρ K ⊢ cellInv ER (sched m ρ) (K (c, iS j)) (sendCell c j) := by
  unfold records
  rw [← kcell_iS c j]
  iintro ⟨H, _⟩
  iapply (show bigSep Finset.univ (fun ck : Dev nD × Fin 15 => cellInv ER (sched m ρ) (K ck) (kcell ck))
    ⊢ cellInv ER (sched m ρ) (K (c, iS j)) (kcell (c, iS j)) from BI.bigSep_elim (Finset.mem_univ (c, iS j)))
  iexact H

/-- Closing a cell of one's own that has no duty after round 0, from its position at round 1. -/
theorem close_recv (K : Dev nD × Fin 15 → ℕ) (c : Dev nD) (j : Fin 7) :
    iprop(records m ρ K ∗ atPos ER (recvCell c j) 1 ∅ 0) ⊢ iprop(|={Set.univ}=> semVal (recvCell c j) 0) := by
  iintro ⟨#Hrec, Hat⟩
  ihave #HI := (inv_recv m ρ K c j) $$ Hrec
  iapply (Rounds.cell_close ER (sched m ρ) (Set.mem_univ _) (fun h => h) (R := 1) (duties_later m ρ _))
  isplitr
  · iexact HI
  · iexact Hat

theorem close_send (K : Dev nD × Fin 15 → ℕ) (c : Dev nD) (j : Fin 7) :
    iprop(records m ρ K ∗ atPos ER (sendCell c j) 1 ∅ 0) ⊢ iprop(|={Set.univ}=> semVal (sendCell c j) 0) := by
  iintro ⟨#Hrec, Hat⟩
  ihave #HI := (inv_send m ρ K c j) $$ Hrec
  iapply (Rounds.cell_close ER (sched m ρ) (Set.mem_univ _) (fun h => h) (R := 1) (duties_later m ρ _))
  isplitr
  · iexact HI
  · iexact Hat

/-- The seven lent shares of a device's own row, back, are the row held whole. -/
theorem own_row (c : Dev nD) :
    iprop(sendPay m ρ c 0 ∗ sendPay m ρ c 1 ∗ sendPay m ρ c 2 ∗ sendPay m ρ c 3 ∗ sendPay m ρ c 4 ∗ sendPay m ρ c 5 ∗ sendPay m ρ c 6)
      ⊢ rowPts c c fullShare (gath m ρ) := by
  have h := (rowPts_shares (F := F) c c (gath m ρ)).2
  rw [bigSep_fin7] at h
  exact h

/-- The own row and the seven arrived rows are the whole gather buffer, holding the gathered array. -/
theorem buffer_joined (c : Dev nD) :
    iprop((sendPay m ρ c 0 ∗ sendPay m ρ c 1 ∗ sendPay m ρ c 2 ∗ sendPay m ρ c 3 ∗ sendPay m ρ c 4 ∗ sendPay m ρ c 5 ∗ sendPay m ρ c 6)
        ∗ recvPay m ρ c 0 ∗ recvPay m ρ c 1 ∗ recvPay m ρ c 2 ∗ recvPay m ρ c 3 ∗ recvPay m ρ c 4 ∗ recvPay m ρ c 5 ∗ recvPay m ρ c 6)
      ⊢ ((cM : Memref sig .tc .vmem S8x256 .f32).view.loc (c : Thread nD τ) ↦{fullShare} gath m ρ : sProp 𝕄) := by
  have h := rows_join (F := F) c (gath m ρ)
  rw [bigSep_fin7] at h
  exact (sep_mono_l (own_row m ρ c)).trans h

/-- A whole staging buffer, read through its memref. -/
theorem xM_view (c : Dev nD) (f : Buf (Elt F) ((c : Thread nD τ).loc cc0_stg0_0)) :
    (((c : Thread nD τ).loc cc0_stg0_0) ↦{fullShare} f : sProp 𝕄)
      ⊢ ((xM : Memref sig .tc .vmem S512x256 .f32).view.loc (c : Thread nD τ) ↦{fullShare} f) := .rfl
theorem oM_view (c : Dev nD) (f : Buf (Elt F) ((c : Thread nD τ).loc cc0_stg1_0)) :
    (((c : Thread nD τ).loc cc0_stg1_0) ↦{fullShare} f : sProp 𝕄)
      ⊢ ((oM : Memref sig .tc .vmem S1x256 .f32).view.loc (c : Thread nD τ) ↦{fullShare} f) := .rfl

/-- What the last store leaves in the staged output: the column sums of the gathered array. -/
theorem out_written (g : (cc0_stg1_0 : Ref sig .tc).ty.Contents (Elt F)) :
    (oM : Memref sig .tc .vmem S1x256 .f32).view.writes (Elt F) g
      [⟨Rect.unit (s := S1x256) ![0, 0] S1x256.size inb_S1x256_S1x256_0_0,
        k0_pay1 ((cM : Memref sig .tc .vmem S8x256 .f32).view.readAt (Elt F)
          (Rect.unit (s := S8x256) ![0, 0] S8x256.size inb_S8x256_S8x256_0_0).toLoadRect (gath m ρ))⟩]
      = outv m ρ := by
  rw [View.writes_singleton]
  have hr : (cM : Memref sig .tc .vmem S8x256 .f32).view.readAt (Elt F)
      (Rect.unit (s := S8x256) ![0, 0] S8x256.size inb_S8x256_S8x256_0_0).toLoadRect (gath m ρ) = gath m ρ :=
    Memref.readAt_unit_zero (Elt F) cc0_scratch0 (by funext a; fin_cases a <;> rfl) inb_S8x256_S8x256_0_0 (gath m ρ)
  rw [hr]
  exact Memref.write_access_unit_zero_univ (Elt F) cc0_stg1_0 (by funext a; fin_cases a <;> rfl) inb_S1x256_S1x256_0_0 g (k0_pay1 (gath m ρ))

/-- What the device ends in, put together. -/
theorem post_assemble (c : Dev nD) (W' : Waits sig Unit) (g : Buf (Elt F) ((c : Thread nD τ).loc cc0_stg1_0)) :
    iprop(((cM : Memref sig .tc .vmem S8x256 .f32).view.loc (c : Thread nD τ) ↦{fullShare} gath m ρ)
        ∗ (semVal (sendCell c 0) 0 ∗ semVal (sendCell c 1) 0 ∗ semVal (sendCell c 2) 0 ∗ semVal (sendCell c 3) 0
            ∗ semVal (sendCell c 4) 0 ∗ semVal (sendCell c 5) 0 ∗ semVal (sendCell c 6) 0)
        ∗ (semVal (recvCell c 0) 0 ∗ semVal (recvCell c 1) 0 ∗ semVal (recvCell c 2) 0 ∗ semVal (recvCell c 3) 0
            ∗ semVal (recvCell c 4) 0 ∗ semVal (recvCell c 5) 0 ∗ semVal (recvCell c 6) 0)
        ∗ owes (c : Thread nD τ) 0 W'
        ∗ ((xM : Memref sig .tc .vmem S512x256 .f32).view.loc (c : Thread nD τ) ↦{fullShare} xstg m ρ c)
        ∗ ((oM : Memref sig .tc .vmem S1x256 .f32).view.loc (c : Thread nD τ) ↦{fullShare}
            (oM : Memref sig .tc .vmem S1x256 .f32).view.writes (Elt F) g
              [⟨Rect.unit (s := S1x256) ![0, 0] S1x256.size inb_S1x256_S1x256_0_0,
                k0_pay1 ((cM : Memref sig .tc .vmem S8x256 .f32).view.readAt (Elt F)
                  (Rect.unit (s := S8x256) ![0, 0] S8x256.size inb_S8x256_S8x256_0_0).toLoadRect (gath m ρ))⟩]))
      ⊢ bodyPost m ρ c := by
  rw [out_written m ρ g]
  unfold bodyPost Φ₁ cPts
  rw [bigSep_fin7, bigSep_fin7]
  iintro ⟨Hb, Hs, Hr, HO, Hx, Ho⟩
  isplitl [Hb Hs Hr]
  · isplitl [Hb]; · iexact Hb
    isplitl [Hs]; · iexact Hs
    iexact Hr
  isplitl [HO]
  · iexists W'
    isplitr; · ipureintro; exact fun _ _ => Or.inl trivial
    iexact HO
  isplitl [Hx]
  · iexists _
    isplitr; · ipureintro; rfl
    iexact Hx
  · iexists _
    isplitr; · ipureintro; rfl
    iexact Ho

theorem second_half (K : Dev nD × Fin 15 → ℕ) (c : Dev nD) (Kt : PUnit → sProp 𝕄) :
    iprop(midPt m ρ K c ∗ (bodyPost m ρ c -∗ Kt ⟨⟩))
      ⊢ wp frame (wpE (defs₀ (F := F)) 𝒱₀ (c : Thread nD τ) none) Set.univ (second (F := F) c (v2w c)) Kt := by
  unfold midPt
  simp only [bigSep_fin7]
  iintro ⟨⟨#Hrec, #Hlev, HatS, HatR, HcS, HcR, ⟨%W, HO⟩, Hx, ⟨%g, Ho⟩⟩, Hk⟩
  unfold second
  simp only [k0_part5_eq_skeleton, k0_part6_eq_skeleton, k0_part7_eq_skeleton]
  unfold k0_part5_skel k0_part6_skel k0_part7_skel
  simp only [Prog.lift, Prog.bind_op, Prog.bind_ret, Prog.pure_eq_ret]
  ihave #HIr0 := (inv_recv m ρ K c 0) $$ Hrec
  ihave #HIr1 := (inv_recv m ρ K c 1) $$ Hrec
  ihave #HIr2 := (inv_recv m ρ K c 2) $$ Hrec
  ihave #HIr3 := (inv_recv m ρ K c 3) $$ Hrec
  ihave #HIr4 := (inv_recv m ρ K c 4) $$ Hrec
  ihave #HIr5 := (inv_recv m ρ K c 5) $$ Hrec
  ihave #HIr6 := (inv_recv m ρ K c 6) $$ Hrec
  ihave #HIs0 := (inv_send m ρ K c 0) $$ Hrec
  ihave #HIs1 := (inv_send m ρ K c 1) $$ Hrec
  ihave #HIs2 := (inv_send m ρ K c 2) $$ Hrec
  ihave #HIs3 := (inv_send m ρ K c 3) $$ Hrec
  ihave #HIs4 := (inv_send m ρ K c 4) $$ Hrec
  ihave #HIs5 := (inv_send m ρ K c 5) $$ Hrec
  ihave #HIs6 := (inv_send m ρ K c 6) $$ Hrec
  icases HatS with ⟨HatS0, HatS1, HatS2, HatS3, HatS4, HatS5, HatS6⟩
  icases HatR with ⟨HatR0, HatR1, HatR2, HatR3, HatR4, HatR5, HatR6⟩
  icases HcS with ⟨HcS0, HcS1, HcS2, HcS3, HcS4, HcS5, HcS6⟩
  icases HcR with ⟨HcR0, HcR1, HcR2, HcR3, HcR4, HcR5, HcR6⟩
  -- the fourteen waits
  sl_exec
  -- the fourteen cells, closed
  imod (close_send m ρ K c 0) $$ [HatS0] with Hs0
  · isplitr
    · iexact Hrec
    · iexact HatS0
  imod (close_send m ρ K c 1) $$ [HatS1] with Hs1
  · isplitr
    · iexact Hrec
    · iexact HatS1
  imod (close_send m ρ K c 2) $$ [HatS2] with Hs2
  · isplitr
    · iexact Hrec
    · iexact HatS2
  imod (close_send m ρ K c 3) $$ [HatS3] with Hs3
  · isplitr
    · iexact Hrec
    · iexact HatS3
  imod (close_send m ρ K c 4) $$ [HatS4] with Hs4
  · isplitr
    · iexact Hrec
    · iexact HatS4
  imod (close_send m ρ K c 5) $$ [HatS5] with Hs5
  · isplitr
    · iexact Hrec
    · iexact HatS5
  imod (close_send m ρ K c 6) $$ [HatS6] with Hs6
  · isplitr
    · iexact Hrec
    · iexact HatS6
  imod (close_recv m ρ K c 0) $$ [HatR0] with Hr0
  · isplitr
    · iexact Hrec
    · iexact HatR0
  imod (close_recv m ρ K c 1) $$ [HatR1] with Hr1
  · isplitr
    · iexact Hrec
    · iexact HatR1
  imod (close_recv m ρ K c 2) $$ [HatR2] with Hr2
  · isplitr
    · iexact Hrec
    · iexact HatR2
  imod (close_recv m ρ K c 3) $$ [HatR3] with Hr3
  · isplitr
    · iexact Hrec
    · iexact HatR3
  imod (close_recv m ρ K c 4) $$ [HatR4] with Hr4
  · isplitr
    · iexact Hrec
    · iexact HatR4
  imod (close_recv m ρ K c 5) $$ [HatR5] with Hr5
  · isplitr
    · iexact Hrec
    · iexact HatR5
  imod (close_recv m ρ K c 6) $$ [HatR6] with Hr6
  · isplitr
    · iexact Hrec
    · iexact HatR6
  -- the buffer, whole again
  ihave Hbuf := (buffer_joined m ρ c) $$ [HatS0_pay1 HatS1_pay1 HatS2_pay1 HatS3_pay1 HatS4_pay1 HatS5_pay1 HatS6_pay1 HatR0_pay1 HatR1_pay1 HatR2_pay1 HatR3_pay1 HatR4_pay1 HatR5_pay1 HatR6_pay1]
  · isplitl [HatS0_pay1 HatS1_pay1 HatS2_pay1 HatS3_pay1 HatS4_pay1 HatS5_pay1 HatS6_pay1]
    · isplitl [HatS0_pay1]; · iexact HatS0_pay1
      isplitl [HatS1_pay1]; · iexact HatS1_pay1
      isplitl [HatS2_pay1]; · iexact HatS2_pay1
      isplitl [HatS3_pay1]; · iexact HatS3_pay1
      isplitl [HatS4_pay1]; · iexact HatS4_pay1
      isplitl [HatS5_pay1]; · iexact HatS5_pay1
      iexact HatS6_pay1
    · isplitl [HatR0_pay1]; · iexact HatR0_pay1
      isplitl [HatR1_pay1]; · iexact HatR1_pay1
      isplitl [HatR2_pay1]; · iexact HatR2_pay1
      isplitl [HatR3_pay1]; · iexact HatR3_pay1
      isplitl [HatR4_pay1]; · iexact HatR4_pay1
      isplitl [HatR5_pay1]; · iexact HatR5_pay1
      iexact HatR6_pay1
  ihave Hx' := (xM_view c _) $$ Hx
  ihave Ho' := (oM_view c _) $$ Ho
  -- the sum of the eight rows, stored
  sl_exec
  sl_step
  iapply Hk
  iapply (post_assemble m ρ c _ g)
  isplitl [Hbuf]; · iexact Hbuf
  isplitl [Hs0 Hs1 Hs2 Hs3 Hs4 Hs5 Hs6]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hs6
  isplitl [Hr0 Hr1 Hr2 Hr3 Hr4 Hr5 Hr6]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    iexact Hr6
  isplitl [HO]; · iexact HO
  isplitl [Hx']; · iexact Hx'
  iexact Ho'

/-- info: 'Cert.KernelIdeal.Gather.second_half' depends on axioms: [propext, Classical.choice, Quot.sound] -/
#guard_msgs in #print axioms second_half

end Cert.KernelIdeal.Gather

end
-- ==== Proof.Body.lean ====
/-
  The body of the kernel on device c, whole: its two halves in sequence, and the form in which
  the launch asks for it.
-/
import proofs.«901092_g7700000000001093_dist_sum_ax0_shard0_i_m512_n256_v7x_i8_bf16_1_alg».proof.Proof.First
import proofs.«901092_g7700000000001093_dist_sum_ax0_shard0_i_m512_n256_v7x_i8_bf16_1_alg».proof.Proof.Second

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body on device c from its ghost state opened at the names K: the first half leaves the
    device between the halves, the second half takes it to the end. -/
theorem sound_body (K : Dev nD × Fin 15 → ℕ) (c : Dev nD)
    (hmw : (levAts L lv : sProp 𝕄) ⊢ MayWait (c : Thread nD τ) (.reg barS) () (OR c)) (Kt : PUnit → sProp 𝕄) :
    iprop(bodyPre m ρ K c ∗ (bodyPost m ρ c -∗ Kt ⟨⟩))
      ⊢ wp frame (wpE (defs₀ (F := F)) 𝒱₀ (c : Thread nD τ) none) Set.univ (bodyAt (F := F)) Kt := by
  iintro ⟨Hpre, Hk⟩
  iapply (first_half m ρ K c hmw Kt)
  isplitl [Hpre]; · iexact Hpre
  iintro Hmid
  iapply (second_half m ρ K c Kt)
  isplitl [Hmid]; · iexact Hmid
  iexact Hk

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the launch hands the body at the one point of the grid. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The body obligation of device c, given that its barrier cell sits below the receive cells
    it still owes at its barrier wait. -/
theorem body_obligation (hmw : ∀ c : Dev nD, (levAts L lv : sProp 𝕄) ⊢ MayWait (c : Thread nD τ) (.reg barS) () (OR c)) (c : Dev nD) :
    BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ (bodyAt (F := F)) (fun _ => bodyPost m ρ c)
  unfold bodyPre' Φ₀ start
  iintro ⟨⟨⟨⟨%K, Hg⟩, Hrest⟩, Hscr⟩, Ho, Hx, Hout⟩
  iapply (sound_body m ρ K c (hmw c) fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Cert.KernelIdeal.Gather

end
-- ==== Proof.Fund.lean ====
/-
  The all-gather-and-sum kernel on the eight-device mesh: the ghost state at launch.

  The rounds algebra's initial element holds, for each of the 8 x 15 cells, its round state at
  counter zero, the fact that round 0 is reached and the owner's position at the start of round
  0; and one token per duty: per device the seven duties of its barrier cell and the single
  duty of each of its seven send and seven receive cells.  It is dealt device by device.  The
  global step then puts every cell's counter (at zero) together with its round state under an
  invariant, and hands every token to the device that PAYS its duty: duty k of the barrier cell
  of device g to the device k+1 places before g, the duty of g's j-th receive cell to the device
  j+1 places before g, while a send cell's duty stays with its owner.  Moving k+1 places on is a
  bijection of the mesh, so each of these deals is a re-indexing of one big separating
  conjunction over the devices.
-/
import proofs.«901092_g7700000000001093_dist_sum_ax0_shard0_i_m512_n256_v7x_i8_bf16_1_alg».proof.Proof.Proto
import Idealize.ShloMosaic.Lib.Pipeline.Launch
import Idealize.ShloMosaic.Lib.Pipeline.Kit
import Idealize.ShloMosaic.Lib.Tactic

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Index bookkeeping -/

theorem ownSemFacts : Pipeline.OwnSemFacts cfg0.spec osem := by decide

/-- Moving k+1 places on, as a bijection of the mesh. -/
def shE (k : Fin 7) : Dev nD ≃ Dev nD := ⟨sh k, bk k, bk_sh k, sh_bk k⟩

/-- The fifteen positions of a device's cells: the barrier cell, the seven send cells, the seven
    receive cells. -/
def cellIx : Unit ⊕ (Fin 7 ⊕ Fin 7) → Fin 15
  | .inl _ => iB
  | .inr (.inl j) => iS j
  | .inr (.inr j) => iR j
def ixCell (i : Fin 15) : Unit ⊕ (Fin 7 ⊕ Fin 7) :=
  if i.val = 0 then .inl ()
  else if h : i.val < 8 then .inr (.inl ⟨i.val - 1, by omega⟩)
  else .inr (.inr ⟨i.val - 8, by have := i.isLt; omega⟩)
def e15 : Unit ⊕ (Fin 7 ⊕ Fin 7) ≃ Fin 15 :=
  ⟨cellIx, ixCell, fun x => by revert x; decide, fun i => by revert i; decide⟩

/-- The fourteen own semaphores: the seven send, then the seven receive. -/
def ownIx : Fin 7 ⊕ Fin 7 → Fin 14
  | .inl j => ⟨j.val, by have := j.isLt; omega⟩
  | .inr j => ⟨7 + j.val, by have := j.isLt; omega⟩
def ixOwn (i : Fin 14) : Fin 7 ⊕ Fin 7 :=
  if h : i.val < 7 then .inl ⟨i.val, h⟩ else .inr ⟨i.val - 7, by have := i.isLt; omega⟩
def e14 : Fin 7 ⊕ Fin 7 ≃ Fin 14 :=
  ⟨ownIx, ixOwn, fun x => by revert x; decide, fun i => by revert i; decide⟩

omit [FloatOps F] in
theorem osem_send (j : Fin 7) : osem (e14 (.inl j)) = .dma (sendS j) := by revert j; decide
omit [FloatOps F] in
theorem osem_recv (j : Fin 7) : osem (e14 (.inr j)) = .dma (recvS j) := by revert j; decide

omit [FloatOps F] in
/-- A conjunction over a device's fifteen cells, by kind of cell. -/
theorem bigSep_fin15 (Φ : Fin 15 → sProp 𝕄) :
    bigSep Finset.univ Φ = iprop(Φ iB ∗ (bigSep Finset.univ fun j : Fin 7 => Φ (iS j)) ∗ bigSep Finset.univ fun j : Fin 7 => Φ (iR j)) := by
  rw [bigSep_univ_equiv e15 Φ, bigSep_univ_sum, bigSep_univ_sum, bigSep_univ_of_subsingleton ()]
  rfl

omit [FloatOps F] in
/-- Dealing along the bijections "k+1 places on": a double conjunction over devices and duties,
    re-indexed duty by duty. -/
theorem bigSep_deal (Φ : Dev nD → Fin 7 → sProp 𝕄) :
    (bigSep Finset.univ fun c : Dev nD => bigSep Finset.univ fun k : Fin 7 => Φ c k)
      = bigSep Finset.univ fun c : Dev nD => bigSep Finset.univ fun k : Fin 7 => Φ (sh k c) k := by
  rw [bigSep_univ_comm, bigSep_univ_comm (fun c k => Φ (sh k c) k)]
  exact bigSep_congr fun k _ => bigSep_univ_equiv (shE k) (fun c => Φ c k)

omit [FloatOps F] in
theorem csem_injective : Function.Injective (csem : Fin 15 → SemLoc sig) := by decide

omit [FloatOps F] in
theorem kcell_injective : Function.Injective (kcell : Dev nD × Fin 15 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The cells of the protocol: every device's fifteen. -/
def ringCells : Finset (GSem nD τ sig) := Finset.univ.map ⟨kcell, kcell_injective⟩

/-- The duty tokens as minted, by (owner, duty): the seven duties of its barrier cell, the single
    duty of each of its send cells and of each of its receive cells. -/
def tokOf (cs : Dev nD × (Fin 7 ⊕ (Fin 7 ⊕ Fin 7))) : GSem nD τ sig × ℕ × Fin 7 := match cs.2 with
  | .inl k => (barCell cs.1, 0, k)
  | .inr (.inl j) => (sendCell cs.1 j, 0, 0)
  | .inr (.inr j) => (recvCell cs.1 j, 0, 0)

omit [FloatOps F] in
theorem tokOf_injective : Function.Injective (tokOf : Dev nD × (Fin 7 ⊕ (Fin 7 ⊕ Fin 7)) → GSem nD τ sig × ℕ × Fin 7) := by
  rintro ⟨c, s⟩ ⟨c', s'⟩ h
  have h1 : c = c' := by
    have := congrArg (fun x : GSem nD τ sig × ℕ × Fin 7 => x.1.1.1) h
    rcases s with k | j | j <;> rcases s' with k' | j' | j' <;> exact this
  subst h1
  have h2 := congrArg (fun x : GSem nD τ sig × ℕ × Fin 7 => x.1.2) h
  have h3 := congrArg (fun x : GSem nD τ sig × ℕ × Fin 7 => x.2.2) h
  rcases s with k | j | j <;> rcases s' with k' | j' | j'
  · have : k = k' := h3
    rw [this]
  · exact absurd h2.symm (send_ne_bar j')
  · exact absurd h2.symm (recv_ne_bar j')
  · exact absurd h2 (send_ne_bar j)
  · have : j = j' := sendS_inj (SemLoc.dma.inj h2)
    rw [this]
  · exact absurd h2 (send_ne_recv j j')
  · exact absurd h2 (recv_ne_bar j)
  · exact absurd h2.symm (send_ne_recv j' j)
  · have : j = j' := recvS_inj (SemLoc.dma.inj h2)
    rw [this]

def ringToks : Finset (GSem nD τ sig × ℕ × Fin 7) := Finset.univ.map ⟨tokOf, tokOf_injective⟩

/-- The launch element: the pipeline library's, and the protocol's over those cells and tokens. -/
def u₀ : UU :=
  (initOf (Pipeline.cells cfgs cellOf_inj) (Pipeline.launchToks cfgs cellOf_inj), initOf ringCells ringToks)

/-! ## What the launch element deals each device -/

/-- The duty tokens of device c's own cells. -/
def toks (c : Dev nD) : sProp 𝕄 :=
  iprop((bigSep Finset.univ fun k : Fin 7 => dutyTok ER (barCell c) 0 k)
    ∗ (bigSep Finset.univ fun j : Fin 7 => dutyTok ER (sendCell c j) 0 (0 : Fin 7))
    ∗ (bigSep Finset.univ fun j : Fin 7 => dutyTok ER (recvCell c j) 0 (0 : Fin 7)))

/-- Device c's deal: the round states of its fifteen cells at counter zero, its position at the
    start of round 0 of each with the fact that the round is reached, and its own cells' tokens. -/
def G (c : Dev nD) : sProp 𝕄 :=
  iprop((bigSep Finset.univ fun i : Fin 15 => roundState ER (sched m ρ) (kcell (c, i)) 0)
    ∗ (bigSep Finset.univ fun i : Fin 15 => iprop(atPos ER (kcell (c, i)) 0 ∅ 0 ∗ reached ER (kcell (c, i)) 0)) ∗ toks c)

/-- What the global step makes of it. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun i : Fin 15 => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element, dealt: the pipeline library's half as it stands, the protocol's half
    device by device. -/
theorem hu₀ : (ownU (u₀) : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  imod (fund_ring m ρ) $$ HX with HG
  imodintro
  isplitl [HP] <;> iassumption

/-! ## The semaphores at zero -/

omit [FloatOps F] in
/-- The kernel's own semaphores are the seven send and the seven receive semaphores; -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 7 => semVal (sendCell c j) 0) ∗ bigSep Finset.univ fun j : Fin 7 => semVal (recvCell c j) 0) := by
  unfold Pipeline.ownSems0
  rw [bigSep_univ_equiv e14, bigSep_univ_sum]
  simp only [osem_send, osem_recv]
  rfl
omit [FloatOps F] in
/-- the barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 15 => semVal (kcell (c, i)) 0 : sProp 𝕄) := by
  rw [ownSems0_eq, unscopedSems0_eq, bigSep_fin15]
  simp only [kcell_iB, kcell_iS, kcell_iR]
  iintro ⟨⟨HS, HV⟩, HB⟩
  isplitl [HB]; · iexact HB
  isplitl [HS] <;> iassumption

/-! ## The global step -/

/-- One device: each cell's counter at zero and round state go under an invariant. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i => iprop(∃ κ : ℕ, cellInv ER (sched m ρ) κ (kcell (c, i))))
          ∗ (bigSep Finset.univ fun i => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : Fin 15 => semVal (kcell (c, i)) 0) ∗ bigSep Finset.univ fun i : Fin 15 => roundState ER (sched m ρ) (kcell (c, i)) 0)
      ⊢ (|={Set.univ}=> bigSep Finset.univ fun i => iprop(∃ κ : ℕ, cellInv ER (sched m ρ) κ (kcell (c, i))) : sProp 𝕄) from by
        rw [← bigSep_sep']
        exact (bigSep_mono fun i _ => (Rounds.body_intro ER (sched m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens dealt to their payers. -/
theorem toks_around : (bigSep Finset.univ fun c : Dev nD => (toks c : sProp 𝕄)) = bigSep Finset.univ fun c : Dev nD => payToks c := by
  unfold toks payToks
  rw [bigSep_sep', bigSep_sep', bigSep_sep', bigSep_sep',
    bigSep_deal (fun c k => (dutyTok ER (barCell c) 0 k : sProp 𝕄)),
    bigSep_deal (fun c j => (dutyTok ER (recvCell c j) 0 (0 : Fin 7) : sProp 𝕄))]

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- With the records (persistent, the same for every device) a device's linear part is its
    ghost state. -/
theorem ghost_intro (K : Dev nD × Fin 15 → ℕ) (c : Dev nD) : iprop(records m ρ K ∗ linear c) ⊢ G' m ρ c := by
  unfold G' ghost
  iintro H
  iexists K
  iexact H

/-- All devices: the names chosen, the records shared out, the tokens with their payers. -/
theorem regroup :
    (bigSep Finset.univ fun c : Dev nD => iprop((bigSep Finset.univ fun i => iprop(∃ κ : ℕ, cellInv ER (sched m ρ) κ (kcell (c, i))))
          ∗ (bigSep Finset.univ fun i => iprop(atPos ER (kcell (c, i)) 0 ∅ 0 ∗ reached ER (kcell (c, i)) 0)) ∗ toks c) : sProp 𝕄)
      ⊢ bigSep Finset.univ (G' m ρ) := by
  rw [bigSep_sep', bigSep_sep', ← bigSep_univ_prod (fun ck : Dev nD × Fin 15 => iprop(∃ κ : ℕ, cellInv ER (sched m ρ) κ (kcell ck))),
    bigSep_congr (s := Finset.univ) (fun (c : Dev nD) _ => bigSep_sep' Finset.univ (fun i : Fin 15 => (atPos ER (kcell (c, i)) 0 ∅ 0 : sProp 𝕄)) (fun i => reached ER (kcell (c, i)) 0)),
    bigSep_sep', ← bigSep_univ_prod (fun ck : Dev nD × Fin 15 => (reached ER (kcell ck) 0 : sProp 𝕄)), toks_around]
  iintro ⟨HI, ⟨Hat, #HR⟩, Htk⟩
  ihave HK := (BI.bigSep_exists_pi Finset.univ (fun (ck : Dev nD × Fin 15) (κ : ℕ) => (cellInv ER (sched m ρ) κ (kcell ck) : sProp 𝕄))) $$ HI
  icases HK with ⟨%K, #HI⟩
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun i : Fin 15 => (atPos ER (kcell (c, i)) 0 ∅ 0 : sProp 𝕄)) payToks).symm).trans
      (bigSep_mono fun c _ => show _ ⊢ linear c from Entails.of_eq (by unfold linear; rw [bigSep_fin15]; simp only [kcell_iB, kcell_iS, kcell_iR])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- info: 'Cert.KernelIdeal.Gather.hu₀' depends on axioms: [propext, Classical.choice, Quot.sound] -/
#guard_msgs in #print axioms hu₀

/-- info: 'Cert.KernelIdeal.Gather.glob' depends on axioms: [propext, Classical.choice, Quot.sound] -/
#guard_msgs in #print axioms glob

end Cert.KernelIdeal.Gather

end
-- ==== Proof.Launch.lean ====
/-
  The all-gather-and-sum kernel on the eight-device mesh: the launch.

  Each device's body is taken as proved from its starting ghost state; here the mesh-wide
  statement is assembled.  What a device owes at launch is paid to cells of other devices, and
  the credit the launch deals a device is exactly what the seven peers owe its barrier cell
  (one unit each) and its seven receive cells (one row's credit each).  The levels put the
  barrier cells below the receive cells and everything a device waits on in between below
  both, so no wait is blocked by what the waiter still owes.  After the run the input block is
  unchanged and the result array holds the column sums of the gathered array.
-/
import proofs.«901092_g7700000000001093_dist_sum_ax0_shard0_i_m512_n256_v7x_i8_bf16_1_alg».proof.Proof.Proto
import Idealize.ShloMosaic.Lib.Pipeline.Launch
import Idealize.ShloMosaic.Lib.Pipeline.Kit
import Idealize.ShloMosaic.Lib.Pipeline.Cells
import Idealize.ShloMosaic.Lib.Pipeline.Value
import Idealize.ShloMosaic.Lib.Tactic

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device owes at launch; the levels -/

omit [FloatOps F] in
theorem L_of_ne (g : GSem nD τ sig) (h : g.1.2 ≠ .tc) : L g = ∅ := if_neg h
omit [FloatOps F] in
theorem L_tc (c : Dev nD) (sm : SemLoc sig) : L ((c : Thread nD τ), sm) = {()} := if_pos rfl

omit [FloatOps F] in
theorem lv_bar (d : Dev nD) : lv (barCell d) () = 1 := by dsimp only [lv]; rw [if_pos rfl]
omit [FloatOps F] in
theorem lv_recv (d : Dev nD) (j : Fin 7) : lv (recvCell d j) () = 2 := by
  dsimp only [lv]; rw [if_neg (recv_ne_bar j), recvJ_recv]; rfl
omit [FloatOps F] in
/-- A DMA semaphore that is no receive semaphore sits at level 0. -/
theorem lv_other (d : Dev nD) (q : DmaSem sig) (hq : recvJ (SemLoc.dma q : SemLoc sig) = none) : lv ((d : Thread nD τ), .dma q) () = 0 := by
  dsimp only [lv]; rw [if_neg (fun h => by cases h), hq]; rfl

omit [FloatOps F] in
/-- The copies' dues are owed to receive cells only, -/
theorem OR_pos {c : Dev nD} {g : GSem nD τ sig} {u : Unit} (h : 0 < OR c g u) : ∃ j, g = recvCell (sh j c) j := by
  unfold OR at h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  all_goals exact ⟨_, (Pipeline.tallyAt_pos h).1⟩

omit [FloatOps F] in
/-- and all a device owes at launch to receive cells and barrier cells. -/
theorem O₀_pos {c : Dev nD} {g : GSem nD τ sig} {u : Unit} (h : 0 < O₀ c g u) :
    (∃ j, g = recvCell (sh j c) j) ∨ (∃ k, g = barCell (sh k c)) := by
  unfold O₀ at h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  · exact Or.inl (OR_pos h)
  all_goals exact Or.inr ⟨_, (Pipeline.tallyAt_pos h).1⟩

omit [FloatOps F] in
/-- A wait on a level-0 DMA cell (the staging cells, the send cells) is below everything a
    device owes at launch, and after its body it owes nothing. -/
theorem mayWait_stage (c : Dev nD) (q : DmaSem sig) (hq : recvJ (SemLoc.dma q : SemLoc sig) = none) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    rw [lv_other c q hq]
    rcases O₀_pos hg with ⟨j, rfl⟩ | ⟨k, rfl⟩
    · exact ⟨by rw [L_tc]; exact Finset.mem_singleton_self _, by rw [lv_recv]; decide⟩
    · exact ⟨by rw [L_tc]; exact Finset.mem_singleton_self _, by rw [lv_bar]; decide⟩
  · rw [MayWait_zero]; iintro -; iempintro

omit [FloatOps F] in
/-- At its barrier wait a device has sent its seven signals and owes the copies' dues only:
    receive cells, above its barrier cell. -/
theorem mayWait_bar (c : Dev nD) :
    (levAts L lv : sProp 𝕄) ⊢ MayWait (c : Thread nD τ) (.reg barS) () (OR c) :=
  Pipeline.mayWait_of_levAts (by rw [L_tc]; exact Finset.mem_singleton_self _) fun g u hg => by
    obtain ⟨j, rfl⟩ := OR_pos hg
    exact ⟨by rw [L_tc]; exact Finset.mem_singleton_self _, by rw [lv_bar, lv_recv]; decide⟩

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The launch credit -/

omit [FloatOps F] in
/-- Seven units on one cell are one credit of seven. -/
theorem cred_seven (g : GSem nD τ sig) :
    (iprop(cred (tallyAt g () 1) ∗ cred (tallyAt g () 1) ∗ cred (tallyAt g () 1) ∗ cred (tallyAt g () 1)
        ∗ cred (tallyAt g () 1) ∗ cred (tallyAt g () 1) ∗ cred (tallyAt g () 1)) : sProp 𝕄) ⊢ cred (tallyAt g () 7) := by
  rw [show (tallyAt g () 7 : CellTallies nD τ sig Unit)
      = tallyAt g () 1 + (tallyAt g () 1 + (tallyAt g () 1 + (tallyAt g () 1 + (tallyAt g () 1 + (tallyAt g () 1 + tallyAt g () 1))))) from by
    simp only [tallyAt_add]]
  exact (sep_mono_right <| (sep_mono_right <| (sep_mono_right <| (sep_mono_right <| (sep_mono_right <| (cred_add _ _).2).trans (cred_add _ _).2).trans
    (cred_add _ _).2).trans (cred_add _ _).2).trans (cred_add _ _).2).trans (cred_add _ _).2

omit [FloatOps F] in
/-- Signal k of every device goes k+1 places on: device c's barrier cell gets one unit of it. -/
theorem launch_bar (c : Dev nD) (k : Fin 7) : (Pipeline.launchCred (fun d => bT d k) c : sProp 𝕄) ⊢ cred (tallyAt (barCell c) () 1) :=
  Pipeline.launchCred_tallyAt (.reg barS) (sh k) (bk k) (sh_bk k) (bk_sh k) () 1 c

omit [FloatOps F] in
/-- Copy j of every device goes j+1 places on: device c's j-th receive cell gets one row's credit of it. -/
theorem launch_recv (c : Dev nD) (j : Fin 7) : (Pipeline.launchCred (fun d => rT d j) c : sProp 𝕄) ⊢ cred (tallyAt (recvCell c j) () N) :=
  Pipeline.launchCred_tallyAt (.dma (recvS j)) (sh j) (bk j) (sh_bk j) (bk_sh j) () N c

omit [FloatOps F] in
/-- The credit the launch deals device c: its barrier's seven units, each receive cell's row credit. -/
theorem creds (c : Dev nD) :
    (Pipeline.launchCred O₀ c : sProp 𝕄) ⊢ iprop(cred (tallyAt (barCell c) () 7) ∗ bigSep Finset.univ fun j : Fin 7 => cred (tallyAt (recvCell c j) () N)) := by
  rw [show (O₀ : Dev nD → CellTallies nD τ sig Unit)
      = fun d => rT d 6 + rT d 5 + rT d 4 + rT d 3 + rT d 2 + rT d 1 + rT d 0 + bT d 6 + bT d 5 + bT d 4 + bT d 3 + bT d 2 + bT d 1 + bT d 0 from rfl]
  simp only [Pipeline.launchCred_add]
  rw [bigSep_fin7]
  iintro ⟨⟨⟨⟨⟨⟨⟨⟨⟨⟨⟨⟨⟨R6, R5⟩, R4⟩, R3⟩, R2⟩, R1⟩, R0⟩, B6⟩, B5⟩, B4⟩, B3⟩, B2⟩, B1⟩, B0⟩
  isplitl [B0 B1 B2 B3 B4 B5 B6]
  · iapply (cred_seven (F := F) (barCell c))
    ihave B0 := (launch_bar (F := F) c 0) $$ B0
    ihave B1 := (launch_bar (F := F) c 1) $$ B1
    ihave B2 := (launch_bar (F := F) c 2) $$ B2
    ihave B3 := (launch_bar (F := F) c 3) $$ B3
    ihave B4 := (launch_bar (F := F) c 4) $$ B4
    ihave B5 := (launch_bar (F := F) c 5) $$ B5
    ihave B6 := (launch_bar (F := F) c 6) $$ B6
    iframe
  · ihave R0 := (launch_recv (F := F) c 0) $$ R0
    ihave R1 := (launch_recv (F := F) c 1) $$ R1
    ihave R2 := (launch_recv (F := F) c 2) $$ R2
    ihave R3 := (launch_recv (F := F) c 3) $$ R3
    ihave R4 := (launch_recv (F := F) c 4) $$ R4
    ihave R5 := (launch_recv (F := F) c 5) $$ R5
    ihave R6 := (launch_recv (F := F) c 6) $$ R6
    iframe

/-! ### The theorem's side conditions -/

/-- From what the launch hands device c to what its body starts from: the credit dealt is the
    barrier's seven units and each receive cell's row credit. -/
theorem start_intro (G' : Dev nD → sProp 𝕄) (hG' : ∀ c, G' c ⊢ iprop(∃ K, ghost m ρ K c)) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' c)
      ⊢ |={Set.univ}=> iprop(start m ρ c ∗ emp) := by
  iintro ⟨-, Hlev, Hcr, -, HG⟩
  ihave Hc := (creds (F := F) c) $$ Hcr
  icases Hc with ⟨H1, HN⟩
  ihave HG := (hG' c) $$ HG
  imodintro
  unfold start
  isplitl
  · isplitl [HG]; · iexact HG
    isplitl [H1]; · iexact H1
    isplitl [HN]; · iexact HN
    iexact Hlev
  · iempintro

/-- The one scoped buffer that is no staging buffer is the gather buffer, at whatever it holds. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ cPts
  iintro ⟨Hs, -, ⟨%f, Hr⟩⟩
  isplitl [Hs]; · iexact Hs
  iexists f; iexact Hr

omit [FloatOps F] in
/-- The kernel's own fourteen cells are its seven send and its seven receive cells. -/
theorem ownSems0_intro (c : Dev nD) :
    (iprop((bigSep Finset.univ fun j : Fin 7 => semVal (sendCell c j) 0) ∗ (bigSep Finset.univ fun j : Fin 7 => semVal (recvCell c j) 0)) : sProp 𝕄)
      ⊢ (Pipeline.ownSems0 (Ix := Unit) (Name := ℕ) (U := UU) (Lvl := ℕ) (Val := Elt F) (τ := τ) osem c : sProp 𝕄) := by
  rw [Pipeline.ownSems0_eq_of_list c osem [0, 1, 2, 3, 4, 5, 6, 7, 8, 9, 10, 11, 12, 13] (by decide) (by decide), bigSep_fin7, bigSep_fin7]
  show _ ⊢ iprop(semVal (sendCell c 0) 0 ∗ semVal (sendCell c 1) 0 ∗ semVal (sendCell c 2) 0 ∗ semVal (sendCell c 3) 0 ∗ semVal (sendCell c 4) 0
    ∗ semVal (sendCell c 5) 0 ∗ semVal (sendCell c 6) 0 ∗ semVal (recvCell c 0) 0 ∗ semVal (recvCell c 1) 0 ∗ semVal (recvCell c 2) 0
    ∗ semVal (recvCell c 3) 0 ∗ semVal (recvCell c 4) 0 ∗ semVal (recvCell c 5) 0 ∗ semVal (recvCell c 6) 0)
  iintro ⟨⟨S0, S1, S2, S3, S4, S5, S6⟩, ⟨R0, R1, R2, R3, R4, R5, R6⟩⟩
  iframe

/-- After the point the fourteen own cells are back at zero and the gather buffer is whole. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq]
  unfold Φ₁ cPts
  iintro ⟨Hr, HzS, HzV⟩
  isplitr; · iempintro
  isplitl [HzS HzV]
  · iapply (ownSems0_intro (F := F) c)
    isplitl [HzS] <;> iassumption
  iexists (gath m ρ); iexact Hr

theorem share_eq (c : Dev nD) (w : Fin cfg0.W) : (dats m ρ 0 c).share w = fullShare := by unfold Dat.share; split <;> rfl

/-! ### The run -/

/-- The windowed arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: given each
    device's body proved from its starting ghost state, and that ghost state set up, every weakly fair execution of
    @main — the eight kernels handshaking on the runtime's barrier semaphore, then copying their rows to one
    another — terminates, and every final state has each device's windowed arrays at the computed contents. -/
theorem run_main
    (hbody : ∀ c, BodyObligation (dats (F := F) m ρ 0 c) (defs₀ (F := F)) 𝒱₀ () Set.univ)
    (hownSems : Pipeline.OwnSemFacts cfg0.spec osem)
    (G G' : Dev nD → sProp 𝕄) (u₀ : UU)
    (hu₀ : (ownU u₀ : sProp 𝕄)
      ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄)
      ⊢ |={Set.univ}=> bigSep Finset.univ G')
    (hG' : ∀ c, G' c ⊢ iprop(∃ K, ghost m ρ K c)) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ hownSems (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G) (G' := G') (u₀ := u₀)
    (hu₀ := hu₀)
    (hglob := hglob)
    (hA := fun _ _ => rfl) (hpf := fun _ k => k.elim0)
    (X := start m ρ) (Y := fun _ => iprop(emp)) (Z := fun _ => iprop(emp))
    (hX := start_intro m ρ G' hG') (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input block after the run holds what it held. -/
theorem finalA_x (c : Dev nD) : finalA m ρ c (0 : Fin 2) = m ((c : Thread nD τ).loc main_arg0) :=
  (dats (F := F) m ρ 0 c).arrAt_in (0 : Fin 2) rfl _

/-- The result array, read through its one block, is what the one write-back wrote: what the body left in the
    output staging buffer. -/
theorem finalA_out_blk (c : Dev nD) :
    ((cfg0.win (1 : Fin 2)).blk t₀).view.read (Elt F) (finalA m ρ c (1 : Fin 2)) = outv m ρ := by
  unfold finalA
  rw [show cfg0.N = (t₀ : Fin cfg0.N).val + 1 from rfl, (dats (F := F) m ρ 0 c).arrAt_succ (1 : Fin 2) t₀, flush0_1 t₀, if_pos rfl]
  exact View.read_write_univ _ _

/-- The block is the whole array, so the result array after the run is the column sums of the gathered array. -/
theorem finalA_out (c : Dev nD) : finalA m ρ c (1 : Fin 2) = outv m ρ := by
  have hz : (fun a => (win0_1.index t₀) a * main_v1.ty.shape.size a) = fun _ => 0 := funext fun a => by fin_cases a <;> decide
  exact (Memref.read_access_unit_zero (Elt F) main_v1 hz (fun a => by fin_cases a <;> decide) (finalA m ρ c (1 : Fin 2))).symm.trans (finalA_out_blk m ρ c)

/-- The export: on every device the result array ends as the column sums of the gathered array and the input
    block as it was. -/
theorem run_val
    (hbody : ∀ c, BodyObligation (dats (F := F) m ρ 0 c) (defs₀ (F := F)) 𝒱₀ () Set.univ)
    (hownSems : Pipeline.OwnSemFacts cfg0.spec osem)
    (G G' : Dev nD → sProp 𝕄) (u₀ : UU)
    (hu₀ : (ownU u₀ : sProp 𝕄)
      ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄)
      ⊢ |={Set.univ}=> bigSep Finset.univ G')
    (hG' : ∀ c, G' c ⊢ iprop(∃ K, ghost m ρ K c)) :
    θ_run defs (onTc (τ := τ) (main (F := F))) ⟨m, fun _ => 0, ρ⟩ (fun r => ∀ c : Dev nD,
      r.2.mem ((c.tc : Thread nD τ).loc main_v1) = outv m ρ
        ∧ r.2.mem ((c.tc : Thread nD τ).loc main_arg0) = m ((c.tc : Thread nD τ).loc main_arg0)) :=
  (θ_run defs _ _).mono (fun _ h c => ⟨(h c 1).trans (finalA_out m ρ c), (h c 0).trans (finalA_x m ρ c)⟩)
    (run_main m ρ hbody hownSems G G' u₀ hu₀ hglob hG')

/-- info: 'Cert.KernelIdeal.Gather.run_val' depends on axioms: [propext, Classical.choice, Quot.sound] -/
#guard_msgs in #print axioms run_val

end Cert.KernelIdeal.Gather

end
-- ==== Proof.LibBlockSum.lean ====
import Mathlib.Algebra.BigOperators.Fin
import Mathlib.Data.Fintype.BigOperators
import Mathlib.Logic.Equiv.Fin.Basic

/-! # Sums accumulated step by step, and a contraction cut into blocks

A block-wise matrix product accumulates, over KB steps, the partial sums of one entry: step `kb` adds the sum over
the TK contraction positions of block `kb`. Here: an accumulator defined by "first term, then add the next term" is
the sum of the terms so far; a sum over KB blocks of TK positions each is the sum over all KB · TK positions; and,
together, the accumulator after the last step is the whole contraction sum. All in any commutative additive monoid
(the extended reals are one: no finiteness is used). -/

namespace Cert.Hand.BlockSum

variable {M : Type*} [AddCommMonoid M]

/-! ## The accumulator is the sum of the terms so far -/

/-- An accumulator that starts at the first term and adds the next term at each step holds, after step `n`, the sum
    of the terms `0 … n`. The recurrence is asked only below a bound `K` (the number of steps). -/
theorem acc_eq_sum_range_of_lt (K : ℕ) (p acc : ℕ → M) (h0 : acc 0 = p 0)
    (hs : ∀ n, n + 1 < K → acc (n + 1) = acc n + p (n + 1)) (n : ℕ) (hn : n < K) :
    acc n = ∑ i ∈ Finset.range (n + 1), p i := by
  induction n with
  | zero => rw [h0, Finset.sum_range_one]
  | succ n ih => rw [hs n hn, ih (Nat.lt_of_succ_lt hn), Finset.sum_range_succ p (n + 1)]

/-- The same with the recurrence at every step. -/
theorem acc_eq_sum_range (p acc : ℕ → M) (h0 : acc 0 = p 0)
    (hs : ∀ n, acc (n + 1) = acc n + p (n + 1)) (n : ℕ) :
    acc n = ∑ i ∈ Finset.range (n + 1), p i :=
  acc_eq_sum_range_of_lt (n + 1) p acc h0 (fun m _ => hs m) n (Nat.lt_succ_self n)

/-- The same for an accumulator reset to zero before the first term is added: `acc 0 = 0 + p 0`. -/
theorem acc_eq_sum_range_of_lt_zero_add (K : ℕ) (p acc : ℕ → M) (h0 : acc 0 = 0 + p 0)
    (hs : ∀ n, n + 1 < K → acc (n + 1) = acc n + p (n + 1)) (n : ℕ) (hn : n < K) :
    acc n = ∑ i ∈ Finset.range (n + 1), p i :=
  acc_eq_sum_range_of_lt K p acc (h0.trans (zero_add _)) hs n hn

theorem acc_eq_sum_range_zero_add (p acc : ℕ → M) (h0 : acc 0 = 0 + p 0)
    (hs : ∀ n, acc (n + 1) = acc n + p (n + 1)) (n : ℕ) :
    acc n = ∑ i ∈ Finset.range (n + 1), p i :=
  acc_eq_sum_range p acc (h0.trans (zero_add _)) hs n

/-- A sum over the first `n` naturals is the sum over `Fin n`. -/
theorem sum_range_eq_sum_fin (p : ℕ → M) (n : ℕ) : ∑ i ∈ Finset.range n, p i = ∑ i : Fin n, p i.val :=
  (Fin.sum_univ_eq_sum_range p n).symm

/-- The accumulator after step `n` as a sum over `Fin (n + 1)`. -/
theorem acc_eq_sum_fin_of_lt (K : ℕ) (p acc : ℕ → M) (h0 : acc 0 = p 0)
    (hs : ∀ n, n + 1 < K → acc (n + 1) = acc n + p (n + 1)) (n : ℕ) (hn : n < K) :
    acc n = ∑ i : Fin (n + 1), p i.val :=
  (acc_eq_sum_range_of_lt K p acc h0 hs n hn).trans (sum_range_eq_sum_fin p (n + 1))

theorem acc_eq_sum_fin (p acc : ℕ → M) (h0 : acc 0 = p 0)
    (hs : ∀ n, acc (n + 1) = acc n + p (n + 1)) (n : ℕ) :
    acc n = ∑ i : Fin (n + 1), p i.val :=
  (acc_eq_sum_range p acc h0 hs n).trans (sum_range_eq_sum_fin p (n + 1))

theorem acc_eq_sum_fin_of_lt_zero_add (K : ℕ) (p acc : ℕ → M) (h0 : acc 0 = 0 + p 0)
    (hs : ∀ n, n + 1 < K → acc (n + 1) = acc n + p (n + 1)) (n : ℕ) (hn : n < K) :
    acc n = ∑ i : Fin (n + 1), p i.val :=
  acc_eq_sum_fin_of_lt K p acc (h0.trans (zero_add _)) hs n hn

/-- After the last of `K` steps: the sum of all `K` terms. -/
theorem acc_last_eq_sum_fin (K : ℕ) (hK : 0 < K) (p acc : ℕ → M) (h0 : acc 0 = p 0)
    (hs : ∀ n, n + 1 < K → acc (n + 1) = acc n + p (n + 1)) :
    acc (K - 1) = ∑ i : Fin K, p i.val := by
  obtain ⟨k, rfl⟩ : ∃ k, K = k + 1 := ⟨K - 1, by omega⟩
  exact acc_eq_sum_fin_of_lt (k + 1) p acc h0 hs k (Nat.lt_succ_self k)

/-! ## A contraction cut into blocks -/

/-- Position `kk` of block `kb` is a position of the whole contraction. -/
theorem block_lt {KB TK : ℕ} (kb : Fin KB) (kk : Fin TK) : kb.val * TK + kk.val < KB * TK :=
  calc kb.val * TK + kk.val < kb.val * TK + TK := Nat.add_lt_add_left kk.isLt _
    _ = (kb.val + 1) * TK := (Nat.succ_mul _ _).symm
    _ ≤ KB * TK := Nat.mul_le_mul_right _ kb.isLt

/-- Summing block by block is summing over all positions: position `kk` of block `kb` is `kb · TK + kk`. -/
theorem sum_blocks (KB TK : ℕ) (f : Fin (KB * TK) → M) :
    ∑ kb : Fin KB, ∑ kk : Fin TK, f ⟨kb.val * TK + kk.val, block_lt kb kk⟩ = ∑ k : Fin (KB * TK), f k := by
  rw [← Equiv.sum_comp (finProdFinEquiv (m := KB) (n := TK)) f, Fintype.sum_prod_type]
  refine Finset.sum_congr rfl fun kb _ => Finset.sum_congr rfl fun kk _ => congrArg f (Fin.ext ?_)
  show kb.val * TK + kk.val = kk.val + TK * kb.val
  rw [Nat.mul_comm, Nat.add_comm]

/-- The same at a literal extent `N = KB · TK` (for example 4 blocks of 512 at `Fin 2048`, 8 blocks of 512 at
    `Fin 4096`: `hN` is `rfl` or `by decide`); the bound on `kb · TK + kk` may be any proof `hlt`. -/
theorem sum_blocks_cast (KB TK N : ℕ) (hN : KB * TK = N) (f : Fin N → M)
    (hlt : ∀ (kb : Fin KB) (kk : Fin TK), kb.val * TK + kk.val < N := fun kb kk => hN ▸ block_lt kb kk) :
    ∑ kb : Fin KB, ∑ kk : Fin TK, f ⟨kb.val * TK + kk.val, hlt kb kk⟩ = ∑ k : Fin N, f k := by
  subst hN
  exact sum_blocks KB TK f

/-- The same for a function of the position as a natural number. -/
theorem sum_blocks_nat (KB TK : ℕ) (g : ℕ → M) :
    ∑ kb : Fin KB, ∑ kk : Fin TK, g (kb.val * TK + kk.val) = ∑ k : Fin (KB * TK), g k.val :=
  sum_blocks KB TK fun k => g k.val

theorem sum_blocks_nat_cast (KB TK N : ℕ) (hN : KB * TK = N) (g : ℕ → M) :
    ∑ kb : Fin KB, ∑ kk : Fin TK, g (kb.val * TK + kk.val) = ∑ k : Fin N, g k.val := by
  subst hN
  exact sum_blocks_nat KB TK g

/-- Four blocks of 512 positions are the 2048 positions. -/
theorem sum_blocks_4_512 (f : Fin 2048 → M) (hlt : ∀ (kb : Fin 4) (kk : Fin 512), kb.val * 512 + kk.val < 2048 := fun kb kk => by omega) :
    ∑ kb : Fin 4, ∑ kk : Fin 512, f ⟨kb.val * 512 + kk.val, hlt kb kk⟩ = ∑ k : Fin 2048, f k :=
  sum_blocks_cast 4 512 2048 rfl f hlt

/-- Eight blocks of 512 positions are the 4096 positions. -/
theorem sum_blocks_8_512 (f : Fin 4096 → M) (hlt : ∀ (kb : Fin 8) (kk : Fin 512), kb.val * 512 + kk.val < 4096 := fun kb kk => by omega) :
    ∑ kb : Fin 8, ∑ kk : Fin 512, f ⟨kb.val * 512 + kk.val, hlt kb kk⟩ = ∑ k : Fin 4096, f k :=
  sum_blocks_cast 8 512 4096 rfl f hlt

/-! ## Both: the accumulator after the last step is the whole contraction sum -/

/-- An accumulator whose step `kb` adds the sum over block `kb`'s TK positions (`hp`), started at the first
    block's sum, holds after the last of the KB steps the sum over all `N = KB · TK` positions. -/
theorem acc_last_eq_sum_blocks (KB TK N : ℕ) (hN : KB * TK = N) (hKB : 0 < KB) (f : Fin N → M) (p acc : ℕ → M)
    (hlt : ∀ (kb : Fin KB) (kk : Fin TK), kb.val * TK + kk.val < N)
    (hp : ∀ kb : Fin KB, p kb.val = ∑ kk : Fin TK, f ⟨kb.val * TK + kk.val, hlt kb kk⟩)
    (h0 : acc 0 = p 0) (hs : ∀ n, n + 1 < KB → acc (n + 1) = acc n + p (n + 1)) :
    acc (KB - 1) = ∑ k : Fin N, f k := by
  rw [acc_last_eq_sum_fin KB hKB p acc h0 hs, ← sum_blocks_cast KB TK N hN f hlt]
  exact Finset.sum_congr rfl fun kb _ => hp kb

/-- The same for an accumulator reset to zero before the first block's sum is added. -/
theorem acc_last_eq_sum_blocks_zero_add (KB TK N : ℕ) (hN : KB * TK = N) (hKB : 0 < KB) (f : Fin N → M) (p acc : ℕ → M)
    (hlt : ∀ (kb : Fin KB) (kk : Fin TK), kb.val * TK + kk.val < N)
    (hp : ∀ kb : Fin KB, p kb.val = ∑ kk : Fin TK, f ⟨kb.val * TK + kk.val, hlt kb kk⟩)
    (h0 : acc 0 = 0 + p 0) (hs : ∀ n, n + 1 < KB → acc (n + 1) = acc n + p (n + 1)) :
    acc (KB - 1) = ∑ k : Fin N, f k :=
  acc_last_eq_sum_blocks KB TK N hN hKB f p acc hlt hp (h0.trans (zero_add _)) hs

/-- The same with the block sums written out in the recurrence: no intermediate `p`. -/
theorem acc_last_eq_sum_blocks' (KB TK N : ℕ) (hN : KB * TK = N) (hKB : 0 < KB) (f : Fin N → M) (acc : ℕ → M)
    (hlt : ∀ (kb : Fin KB) (kk : Fin TK), kb.val * TK + kk.val < N)
    (h0 : acc 0 = ∑ kk : Fin TK, f ⟨(⟨0, hKB⟩ : Fin KB).val * TK + kk.val, hlt ⟨0, hKB⟩ kk⟩)
    (hs : ∀ n (h : n + 1 < KB), acc (n + 1) = acc n + ∑ kk : Fin TK, f ⟨(⟨n + 1, h⟩ : Fin KB).val * TK + kk.val, hlt ⟨n + 1, h⟩ kk⟩) :
    acc (KB - 1) = ∑ k : Fin N, f k := by
  refine acc_last_eq_sum_blocks KB TK N hN hKB f
    (fun n => if h : n < KB then ∑ kk : Fin TK, f ⟨(⟨n, h⟩ : Fin KB).val * TK + kk.val, hlt ⟨n, h⟩ kk⟩ else 0) acc hlt
    (fun kb => by rw [dif_pos kb.isLt]) (by rw [h0, dif_pos hKB]) (fun n h => by rw [hs n h, dif_pos h])

/-! ## Steps numbered through all blocks

The grid numbers its points through: point `t` is step `t % K` of block `t / K`. At a block's first step the
accumulator restarts, at the others it adds to what the point before left. -/

/-- With K steps per block, the accumulator restarted at each block's first step (`t % K = 0`) and adding the
    step's term to what step `t - 1` left otherwise holds, after step `t`, the sum of the terms from the block's
    first step `K · (t / K)` up to `t`. The two rules are asked only of the steps below `N`. -/
theorem seg_acc_eq_sum_range (K : ℕ) (hK : 0 < K) (a p : ℕ → M) (N : ℕ)
    (hA : ∀ t, t < N → t % K = 0 → a t = p t)
    (hB : ∀ t, t < N → t % K ≠ 0 → a t = a (t - 1) + p t)
    (t : ℕ) (ht : t < N) :
    a t = ∑ i ∈ Finset.range (t % K + 1), p (K * (t / K) + i) := by
  have hr : t % K < K := Nat.mod_lt _ hK
  have key := acc_eq_sum_range_of_lt (t % K + 1) (fun n => p (K * (t / K) + n)) (fun n => a (K * (t / K) + n))
    (hA (K * (t / K)) (lt_of_le_of_lt (Nat.mul_div_le t K) ht) (Nat.mul_mod_right K (t / K)))
    (fun n hn => by
      have hn' : n + 1 < K := lt_of_lt_of_le hn hr
      have hle : K * (t / K) + (n + 1) ≤ t := by
        have := Nat.div_add_mod t K
        omega
      have hm : (K * (t / K) + (n + 1)) % K ≠ 0 := by
        rw [Nat.mul_add_mod, Nat.mod_eq_of_lt hn']; exact Nat.succ_ne_zero n
      exact hB (K * (t / K) + (n + 1)) (lt_of_le_of_lt hle ht) hm)
    (t % K) (Nat.lt_succ_self _)
  have e : K * (t / K) + t % K = t := Nat.div_add_mod t K
  simpa only [e] using key

/-- The same for an accumulator reset to zero before the first term is added. -/
theorem seg_acc_eq_sum_range_zero_add (K : ℕ) (hK : 0 < K) (a p : ℕ → M) (N : ℕ)
    (hA : ∀ t, t < N → t % K = 0 → a t = 0 + p t)
    (hB : ∀ t, t < N → t % K ≠ 0 → a t = a (t - 1) + p t)
    (t : ℕ) (ht : t < N) :
    a t = ∑ i ∈ Finset.range (t % K + 1), p (K * (t / K) + i) :=
  seg_acc_eq_sum_range K hK a p N (fun t h h0 => (hA t h h0).trans (zero_add _)) hB t ht

/-- After a block's last step (`t % K = K - 1`): the sum of the block's K terms. -/
theorem seg_acc_last (K : ℕ) (hK : 0 < K) (a p : ℕ → M) (N : ℕ)
    (hA : ∀ t, t < N → t % K = 0 → a t = p t)
    (hB : ∀ t, t < N → t % K ≠ 0 → a t = a (t - 1) + p t)
    (t : ℕ) (ht : t < N) (hl : t % K = K - 1) :
    a t = ∑ i : Fin K, p (K * (t / K) + i.val) := by
  rw [seg_acc_eq_sum_range K hK a p N hA hB t ht, hl, Nat.sub_add_cancel hK]
  exact sum_range_eq_sum_fin (fun i => p (K * (t / K) + i)) K

theorem seg_acc_last_zero_add (K : ℕ) (hK : 0 < K) (a p : ℕ → M) (N : ℕ)
    (hA : ∀ t, t < N → t % K = 0 → a t = 0 + p t)
    (hB : ∀ t, t < N → t % K ≠ 0 → a t = a (t - 1) + p t)
    (t : ℕ) (ht : t < N) (hl : t % K = K - 1) :
    a t = ∑ i : Fin K, p (K * (t / K) + i.val) :=
  seg_acc_last K hK a p N (fun t h h0 => (hA t h h0).trans (zero_add _)) hB t ht hl

/-- After a block's last step, when step `kb` of the block adds the sum over the TK positions of contraction block
    `kb` (`hp`): the sum over all `Nc = KB · TK` contraction positions. -/
theorem seg_acc_last_eq_sum_blocks (KB TK Nc : ℕ) (hN : KB * TK = Nc) (hKB : 0 < KB) (f : Fin Nc → M) (a p : ℕ → M) (N : ℕ)
    (hA : ∀ t, t < N → t % KB = 0 → a t = 0 + p t)
    (hB : ∀ t, t < N → t % KB ≠ 0 → a t = a (t - 1) + p t)
    (t : ℕ) (ht : t < N) (hl : t % KB = KB - 1)
    (hlt : ∀ (kb : Fin KB) (kk : Fin TK), kb.val * TK + kk.val < Nc)
    (hp : ∀ kb : Fin KB, p (KB * (t / KB) + kb.val) = ∑ kk : Fin TK, f ⟨kb.val * TK + kk.val, hlt kb kk⟩) :
    a t = ∑ k : Fin Nc, f k := by
  rw [seg_acc_last_zero_add KB hKB a p N hA hB t ht hl, ← sum_blocks_cast KB TK Nc hN f hlt]
  exact Finset.sum_congr rfl fun kb _ => hp kb

end Cert.Hand.BlockSum
-- ==== Proof.Value.lean ====
/-
  The value of the all-gather-and-sum kernel, at the ideal instance (floats are extended reals,
  addition exact).

  Every device ends with the same 1 x 256 row: at column q, the sum over the eight devices r of
  the column sum of device r's 512 x 256 block.  The reference sums column q of the whole
  4096 x 256 array, from zero.  Device r's block is rows 512 r … 512 r + 511 of the whole array,
  so the kernel's double sum runs over every row exactly once, block by block; a sum over eight
  blocks of 512 positions is the sum over the 4096 positions in any commutative additive monoid,
  and the extended reals are one: nothing has to be finite.
-/
import proofs.«901092_g7700000000001093_dist_sum_ax0_shard0_i_m512_n256_v7x_i8_bf16_1_alg».proof.Proof.Proto
import proofs.«901092_g7700000000001093_dist_sum_ax0_shard0_i_m512_n256_v7x_i8_bf16_1_alg».proof.Proof.Gen.ReferenceIdeal.Read
import proofs.«901092_g7700000000001093_dist_sum_ax0_shard0_i_m512_n256_v7x_i8_bf16_1_alg».proof.Defs
import proofs.«901092_g7700000000001093_dist_sum_ax0_shard0_i_m512_n256_v7x_i8_bf16_1_alg».proof.Proof.LibBlockSum
import Idealize.ShloMosaic.Lib.Layout
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.GatherValue

open Cert.KernelIdeal Cert.KernelIdeal.Gen Cert.KernelIdeal.Gather
open Idealize.ShloMosaic Idealize.ShloMosaic.TcCoe Idealize.ShloMosaic.ValueIdx
open scoped BigOperators

/-- Summing a two-axis array over its rows: the index put back at row i of column q. -/
theorem lift_rows {n0 n1 : Nat} (h : Shape.Reduces ⟨2, ![n0, n1]⟩ [0] ⟨1, ![n1]⟩) (q : Fin n1) (i : Fin n0) :
    h.lift (ix1 q) i = ix2 i q := by
  funext a; match a with | ⟨0, _⟩ => rfl | ⟨1, _⟩ => rfl

/-- The rows summed away: a 512 x 256 block's column sums, read at column q of the one row. -/
theorem pay2_apply (v : Vec Ideal S512x256 .f32) (u : Fin 1) (q : Fin 256) :
    k0_pay2 (F := Ideal) v (ix2 u q) = ∑ i : Fin 512, v (ix2 i q) := by
  unfold k0_pay2
  rw [shapeCast_self, shapeCast_self]
  refine (shapeCast_a_1a_apply _ _ u q).trans ?_
  refine (Ideal.multiReduction_add_single v _ reduces_S512x256_S256 _ _ (ix1 q)).trans ?_
  exact Finset.sum_congr rfl fun i _ => congrArg v (lift_rows _ q i)

/-- The same for the 8 x 256 gather buffer. -/
theorem pay1_apply (v : Vec Ideal S8x256 .f32) (u : Fin 1) (q : Fin 256) :
    k0_pay1 (F := Ideal) v (ix2 u q) = ∑ r : Fin 8, v (ix2 r q) := by
  unfold k0_pay1
  refine (shapeCast_a_1a_apply _ _ u q).trans ?_
  refine (Ideal.multiReduction_add_single v _ reduces_S8x256_S256 _ _ (ix1 q)).trans ?_
  exact Finset.sum_congr rfl fun i _ => congrArg v (lift_rows _ q i)

variable (m : (ℓ : Loc nD τ sig) → Buf (Elt Ideal) ℓ) (ρ : Dev nD → PrngReg)

/-- Device c's argument buffer, as a 512 x 256 array of extended reals. -/
def arg (c : Dev nD) : Vec Ideal S512x256 .f32 := m ((c : Thread nD τ).loc main_arg0)

/-- A device's staged block is its whole argument buffer: the one window's block is the whole
    array, its offsets (block index 0 times the extents) all zero. -/
theorem xstg_eq (c : Dev nD) : xstg (F := Ideal) m ρ c = arg m c :=
  Memref.read_access_unit_zero (Elt Ideal) main_arg0 (funext fun a => Nat.zero_mul _) _ _

/-- The gathered array at row r, column q: the column sum of device r's block. -/
theorem gath_apply (r : Fin 8) (q : Fin 256) :
    gath (F := Ideal) m ρ (ix2 r q) = ∑ i : Fin 512, arg m r (ix2 i q) := by
  show k0_pay2 (F := Ideal) (xstg m ρ r) (ix2 (0 : Fin 1) q) = _
  rw [xstg_eq, pay2_apply]

/-- The kernel's result at column q: the sum over the devices of their blocks' column sums. -/
theorem outv_apply (u : Fin 1) (q : Fin 256) :
    outv (F := Ideal) m ρ (ix2 u q) = ∑ r : Fin 8, ∑ i : Fin 512, arg m r (ix2 i q) := by
  unfold outv
  refine (pay1_apply _ u q).trans ?_
  exact Finset.sum_congr rfl fun r _ => gath_apply m ρ r q

/-- The reference's result at column q: zero plus the sum of the whole array's column q. -/
theorem ref_apply (X : Vec Ideal ⟨2, ![4096, 256]⟩ .f32) (u : Fin 1) (q : Fin 256) :
    Cert.ReferenceIdeal.Read.val_main_v1 (F := Ideal) X (ix2 u q) = ∑ k : Fin 4096, X (ix2 k q) := by
  rw [Cert.ReferenceIdeal.Read.val_main_v1_apply, Cert.ReferenceIdeal.Read.val_main_v0_apply,
    Cert.ReferenceIdeal.Read.val_main_cst_apply]
  show (Ideal.ofBits .f32 0x00000000#32 : EReal) + _ = _
  rw [Ideal.ofBits_zero_f32, zero_add]
  exact Finset.sum_congr rfl fun k _ => congrArg X
    (funext fun a => by match a with | ⟨0, _⟩ => rfl | ⟨1, _⟩ => rfl)

/-- Row i of block r of the whole array is its row 512 r + i, column for column. -/
theorem block_apply_rows (X : Vec Ideal ⟨2, ![4096, 256]⟩ .f32) (r : Fin 8) (i : Fin 512) (q : Fin 256)
    (hlt : r.val * 512 + i.val < 4096) :
    (Layout.block ⟨2, ![512, 256]⟩ ⟨2, ![4096, 256]⟩ 0 8 r X) (ix2 i q) = X (ix2 ⟨r.val * 512 + i.val, hlt⟩ q) :=
  congrArg X (Shape.idx_ext₂ rfl rfl)

/-- Eight partial column sums of 512 rows each, summed: the column sum of all 4096 rows, when
    every device's argument buffer holds its block of the whole array. -/
theorem sum_args (X : Vec Ideal ⟨2, ![4096, 256]⟩ .f32)
    (hagree : ∀ c : Dev nD, arg m c = Layout.block ⟨2, ![512, 256]⟩ ⟨2, ![4096, 256]⟩ 0 8 c X) (q : Fin 256) :
    ∑ r : Fin 8, ∑ i : Fin 512, arg m r (ix2 i q) = ∑ k : Fin 4096, X (ix2 k q) := by
  refine Eq.trans ?_ (Cert.Hand.BlockSum.sum_blocks_8_512 (M := Elt Ideal .f32) fun k => X (ix2 k q))
  refine Finset.sum_congr rfl fun r _ => Finset.sum_congr rfl fun i _ => ?_
  rw [hagree r]
  exact block_apply_rows X r i q _

/-- THE VALUE. Every device's result is the reference's: both are, column by column, the sum of
    the whole array's 4096 rows, the kernel's taken as eight partial sums of 512 rows each and
    then summed (addition of extended reals is commutative and associative; nothing needs to be
    finite). -/
theorem outv_eq_reference (X : (⟨2, ![4096, 256]⟩ : Shape).Idx → Elt Ideal .f32)
    (hagree : ∀ c : Dev nD, m ((c.tc : Thread nD τ).loc main_arg0)
      = Layout.block ⟨2, ![512, 256]⟩ ⟨2, ![4096, 256]⟩ 0 8 c X) :
    outv (F := Ideal) m ρ = Cert.ReferenceIdeal.Read.val_main_v1 (F := Ideal) X := by
  funext j
  obtain ⟨u, q, rfl⟩ : ∃ (u : Fin 1) (q : Fin 256), j = ix2 u q := ⟨j 0, j 1, eq_ix2 j⟩
  exact (outv_apply m ρ u q).trans ((sum_args m X hagree q).trans (ref_apply X u q).symm)

/-- info: 'Cert.KernelIdeal.GatherValue.outv_eq_reference' depends on axioms: [propext, Classical.choice, Quot.sound] -/
#guard_msgs in #print axioms outv_eq_reference

end Cert.KernelIdeal.GatherValue

end
-- ==== Proof.Bits.Proto.lean ====
/-
  The all-gather-and-sum kernel on the eight-device mesh: the vocabulary of its protocol.

  Device c first tells every other device that it has entered (one unit on each peer's barrier
  semaphore), writes the column sums of its own block into row c of its 8 x 256 gather buffer,
  waits for the seven units of its own barrier semaphore, copies its row c into row c of every
  peer's gather buffer, waits for the seven rows arriving from its peers and for its own seven
  copies to have left, and sums the eight rows.

  Under the rounds discipline: a barrier cell has one round of seven unit duties, duty k paid
  by the device k+1 places before the owner, which hands over the row of ITS gather buffer
  that the owner will write; each of a device's seven send cells and seven receive cells has
  one duty.  A send cell's duty hands back the share of the source row lent to the copy; a
  receive cell's duty hands the owner the written row.  All rows are stated against ONE
  array, the gathered array whose row r holds the column sums of device r's block.
-/
import proofs.«901092_g7700000000001093_dist_sum_ax0_shard0_i_m512_n256_v7x_i8_bf16_1_alg».proof.Proof.Gen.Kernel
import proofs.«901092_g7700000000001093_dist_sum_ax0_shard0_i_m512_n256_v7x_i8_bf16_1_alg».proof.Proof.Gen.Kernel.Skeleton
import proofs.«901092_g7700000000001093_dist_sum_ax0_shard0_i_m512_n256_v7x_i8_bf16_1_alg».proof.Proof.Gen.Kernel.Launch
import proofs.«901092_g7700000000001093_dist_sum_ax0_shard0_i_m512_n256_v7x_i8_bf16_1_alg».proof.Proof.Gen.Kernel.Points
import Idealize.ShloMosaic.Lib.Pipeline.Launch
import Idealize.ShloMosaic.Lib.Pipeline.Kit
import Idealize.ShloMosaic.Lib.Tactic
import Idealize.ShloMosaic.Lib.ValueIdx

noncomputable section

namespace Cert.Kernel.Gather

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Positions on the mesh: k+1 places on, k+1 places back -/

def sh (k : Fin 7) (c : Dev nD) : Dev nD := ⟨(c.val + k.val + 1) % 8, Nat.mod_lt _ (by decide)⟩
def bk (k : Fin 7) (c : Dev nD) : Dev nD := ⟨(c.val + 7 - k.val) % 8, Nat.mod_lt _ (by decide)⟩

theorem bk_sh (k : Fin 7) (c : Dev nD) : bk k (sh k c) = c := by revert k c; decide
theorem sh_bk (k : Fin 7) (c : Dev nD) : sh k (bk k c) = c := by revert k c; decide
theorem sh_ne (k : Fin 7) (c : Dev nD) : sh k c ≠ c := by revert k c; decide
theorem bk_ne (k : Fin 7) (c : Dev nD) : bk k c ≠ c := by revert k c; decide
/-- Going k+1 places on is going 7-k places back. -/
theorem sh_eq_bk_rev (k : Fin 7) (c : Dev nD) : sh k c = bk k.rev c := by revert k c; decide
theorem bk_eq_sh_rev (k : Fin 7) (c : Dev nD) : bk k c = sh k.rev c := by revert k c; decide
theorem sh_inj_left (c : Dev nD) : Function.Injective fun k : Fin 7 => sh k c := by revert c; decide
theorem bk_inj_left (c : Dev nD) : Function.Injective fun k : Fin 7 => bk k c := by revert c; decide

/-- The kernel's `device_id` chains: signal k and copy k both name the device k+1 places on. -/
theorem dev1_eq (c : Dev nD) : (⟨k0_dev1 c, k0_dev1_lt c⟩ : Dev nD) = sh 0 c := Fin.ext (k0_dev1_eq c)
theorem dev2_eq (c : Dev nD) : (⟨k0_dev2 c, k0_dev2_lt c⟩ : Dev nD) = sh 1 c := Fin.ext (k0_dev2_eq c)
theorem dev3_eq (c : Dev nD) : (⟨k0_dev3 c, k0_dev3_lt c⟩ : Dev nD) = sh 2 c := Fin.ext (k0_dev3_eq c)
theorem dev4_eq (c : Dev nD) : (⟨k0_dev4 c, k0_dev4_lt c⟩ : Dev nD) = sh 3 c := Fin.ext (k0_dev4_eq c)
theorem dev5_eq (c : Dev nD) : (⟨k0_dev5 c, k0_dev5_lt c⟩ : Dev nD) = sh 4 c := Fin.ext (k0_dev5_eq c)
theorem dev6_eq (c : Dev nD) : (⟨k0_dev6 c, k0_dev6_lt c⟩ : Dev nD) = sh 5 c := Fin.ext (k0_dev6_eq c)
theorem dev7_eq (c : Dev nD) : (⟨k0_dev7 c, k0_dev7_lt c⟩ : Dev nD) = sh 6 c := Fin.ext (k0_dev7_eq c)
theorem dev8_eq (c : Dev nD) : (⟨k0_dev8 c, k0_dev8_lt c⟩ : Dev nD) = sh 0 c := Fin.ext (k0_dev8_eq c)
theorem dev9_eq (c : Dev nD) : (⟨k0_dev9 c, k0_dev9_lt c⟩ : Dev nD) = sh 1 c := Fin.ext (k0_dev9_eq c)
theorem dev10_eq (c : Dev nD) : (⟨k0_dev10 c, k0_dev10_lt c⟩ : Dev nD) = sh 2 c := Fin.ext (k0_dev10_eq c)
theorem dev11_eq (c : Dev nD) : (⟨k0_dev11 c, k0_dev11_lt c⟩ : Dev nD) = sh 3 c := Fin.ext (k0_dev11_eq c)
theorem dev12_eq (c : Dev nD) : (⟨k0_dev12 c, k0_dev12_lt c⟩ : Dev nD) = sh 4 c := Fin.ext (k0_dev12_eq c)
theorem dev13_eq (c : Dev nD) : (⟨k0_dev13 c, k0_dev13_lt c⟩ : Dev nD) = sh 5 c := Fin.ext (k0_dev13_eq c)
theorem dev14_eq (c : Dev nD) : (⟨k0_dev14 c, k0_dev14_lt c⟩ : Dev nD) = sh 6 c := Fin.ext (k0_dev14_eq c)

/-! ## The memrefs and cells -/

abbrev xM : Memref sig .tc .vmem S512x256 .f32 := Memref.whole cc0_stg0_0
abbrev oM : Memref sig .tc .vmem S1x256 .f32 := Memref.whole cc0_stg1_0
abbrev cM : Memref sig .tc .vmem S8x256 .f32 := Memref.whole cc0_scratch0

/-- Row r of the gather buffer, as the kernel slices it for its copies. -/
abbrev rowM (r : Dev nD) : Memref sig .tc .vmem S1x256 .f32 :=
  cM.slice (Rect.unit (s := S8x256) (k0_off2 r) S1x256.size (k0_off2_inb r)) (fun _ => rfl)

/-- The runtime's barrier semaphore of collective id 0 (unscoped); the seven send and seven
    receive DMA semaphores (scoped scratch), by position. -/
abbrev barS : Sem sig := (SemArray.scalar (sig.barrier 0 rfl) : Sems sig S_).sem
def sendS (j : Fin 7) : DmaSem sig := ⟨2 + j.val, by have := j.isLt; show 2 + j.val < 16; omega⟩
def recvS (j : Fin 7) : DmaSem sig := ⟨9 + j.val, by have := j.isLt; show 9 + j.val < 16; omega⟩

abbrev barCell (c : Dev nD) : GSem nD τ sig := ((c : Thread nD τ), .reg barS)
abbrev sendCell (c : Dev nD) (j : Fin 7) : GSem nD τ sig := ((c : Thread nD τ), .dma (sendS j))
abbrev recvCell (c : Dev nD) (j : Fin 7) : GSem nD τ sig := ((c : Thread nD τ), .dma (recvS j))

/-- The units one row's copy puts on a DMA semaphore. -/
abbrev N : ℕ := (rowM (0 : Dev nD)).view.dmaCredit
theorem N_pos : 0 < N := View.dmaCredit_pos _ (by decide)
theorem N_row (r : Dev nD) : (rowM r).view.dmaCredit = N := rfl

/-! ## Contents -/

/-- Device c's block of x, as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))

/-- The gathered array: row r holds the column sums of device r's block. -/
def gath : (cc0_scratch0 : Ref sig .tc).ty.Contents (Elt F) :=
  fun i => k0_pay2 (xstg m ρ (i 0)) (ValueIdx.ix2 (0 : Fin 1) (i 1))

/-- The kernel's result, on every device: the column sums of the gathered array. -/
def outv : (cc0_stg1_0 : Ref sig .tc).ty.Contents (Elt F) := k0_pay1 (gath m ρ)

/-- Share q of row r of device t's gather buffer, at contents f. -/
def rowPts (t r : Dev nD) (q : PosShare TreeShare) (f : Buf (Elt F) ((rowM r).view.loc (t : Thread nD τ))) : sProp 𝕄 :=
  (rowM r).view.loc (t : Thread nD τ) ↦[(rowM r).view.set]{q} f

/-- The seven shares a device's own row is lent out in, one per copy. -/
def qs : Fin 7 → PosShare TreeShare
  | 0 => fullShare.left
  | 1 => fullShare.right.left
  | 2 => fullShare.right.right.left
  | 3 => fullShare.right.right.right.left
  | 4 => fullShare.right.right.right.right.left
  | 5 => fullShare.right.right.right.right.right.left
  | 6 => fullShare.right.right.right.right.right.right

omit [FloatOps F] in
instance rowPts_storable (t r : Dev nD) (q) (f) : BI.Storable (upEmb : UEmb _ 𝕄) (rowPts (F := F) t r q f) := by unfold rowPts; infer_instance

/-! ## The schedule -/

/-- Which send (receive) semaphore a DMA semaphore is, if any. -/
def sendJ : SemLoc sig → Option (Fin 7)
  | .dma q => if h : 2 ≤ q.val ∧ q.val < 9 then some ⟨q.val - 2, by omega⟩ else none
  | _ => none
def recvJ : SemLoc sig → Option (Fin 7)
  | .dma q => if h : 9 ≤ q.val ∧ q.val < 16 then some ⟨q.val - 9, by omega⟩ else none
  | _ => none

/-- Duty k of g's barrier cell: the device k+1 places before g hands g the row of its gather
    buffer that g will write, at whatever it holds. -/
def barPay (g : Dev nD) (k : Fin 7) : sProp 𝕄 := iprop(∃ f, rowPts (bk k g) g fullShare f)
/-- The duty of c's j-th send cell: the share of its own row lent to copy j, back. -/
def sendPay (c : Dev nD) (j : Fin 7) : sProp 𝕄 := rowPts c c (qs j) (gath m ρ)
/-- The duty of g's j-th receive cell: row (j+1 places before g) of g's buffer, written. -/
def recvPay (g : Dev nD) (j : Fin 7) : sProp 𝕄 := rowPts g (bk j g) fullShare (gath m ρ)

def sched : Rounds.Schedule (GSem nD τ sig) (Fin 7) 𝕄 where
  duties g r :=
    if r = 0 ∧ g.1.2 = .tc then
      (if g.2 = .reg barS then Finset.univ else if (sendJ g.2).isSome ∨ (recvJ g.2).isSome then {0} else ∅)
    else ∅
  unitless _ := False
  amount g _ _ := if g.2 = .reg barS then 1 else N
  payload g _ d :=
    if g.2 = .reg barS then barPay g.1.1 d
    else match sendJ g.2, recvJ g.2 with
      | some j, _ => sendPay m ρ g.1.1 j
      | none, some j => recvPay m ρ g.1.1 j
      | none, none => iprop(emp)
  amount_pos g _ _ _ := by
    by_cases h : g.2 = .reg barS
    · rw [if_pos h]; exact Nat.one_pos
    · rw [if_neg h]; exact N_pos

/-! ## The schedule's tables -/

section Tables
variable (c : Dev nD) (j : Fin 7)

omit [FloatOps F] in
theorem sendJ_send : sendJ (SemLoc.dma (sendS j) : SemLoc sig) = some j := by revert j; decide
omit [FloatOps F] in
theorem recvJ_send : recvJ (SemLoc.dma (sendS j) : SemLoc sig) = none := by revert j; decide
omit [FloatOps F] in
theorem sendJ_recv : sendJ (SemLoc.dma (recvS j) : SemLoc sig) = none := by revert j; decide
omit [FloatOps F] in
theorem recvJ_recv : recvJ (SemLoc.dma (recvS j) : SemLoc sig) = some j := by revert j; decide
omit [FloatOps F] in
theorem send_ne_bar : (SemLoc.dma (sendS j) : SemLoc sig) ≠ .reg barS := fun h => by cases h
omit [FloatOps F] in
theorem recv_ne_bar : (SemLoc.dma (recvS j) : SemLoc sig) ≠ .reg barS := fun h => by cases h
omit [FloatOps F] in
theorem send_ne_recv (j j' : Fin 7) : (SemLoc.dma (sendS j) : SemLoc sig) ≠ .dma (recvS j') := by revert j j'; decide
omit [FloatOps F] in
theorem sendS_inj : Function.Injective (sendS : Fin 7 → DmaSem sig) := by decide
omit [FloatOps F] in
theorem recvS_inj : Function.Injective (recvS : Fin 7 → DmaSem sig) := by decide

theorem duties_bar : (sched (F := F) m ρ).duties (barCell c) 0 = Finset.univ := by
  dsimp only [sched]; rw [if_pos ⟨rfl, rfl⟩, if_pos rfl]
theorem duties_send : (sched (F := F) m ρ).duties (sendCell c j) 0 = {0} := by
  dsimp only [sched]; rw [if_pos ⟨rfl, rfl⟩, if_neg (send_ne_bar j), if_pos (Or.inl (by rw [sendJ_send]; rfl))]
theorem duties_recv : (sched (F := F) m ρ).duties (recvCell c j) 0 = {0} := by
  dsimp only [sched]; rw [if_pos ⟨rfl, rfl⟩, if_neg (recv_ne_bar j), if_pos (Or.inr (by rw [recvJ_recv]; rfl))]
theorem duties_later (g : GSem nD τ sig) : ∀ r, 1 ≤ r → (sched (F := F) m ρ).duties g r = ∅ :=
  fun r hr => by dsimp only [sched]; rw [if_neg fun h => by omega]

theorem amount_bar (d : Fin 7) : (sched (F := F) m ρ).amount (barCell c) 0 d = 1 := by dsimp only [sched]; exact if_pos rfl
theorem amount_send (d : Fin 7) : (sched (F := F) m ρ).amount (sendCell c j) 0 d = N := by dsimp only [sched]; exact if_neg (send_ne_bar j)
theorem amount_recv (d : Fin 7) : (sched (F := F) m ρ).amount (recvCell c j) 0 d = N := by dsimp only [sched]; exact if_neg (recv_ne_bar j)

theorem expect_bar : (sched (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_send : (sched (F := F) m ρ).expect (sendCell c j) 0 = N := by
  unfold Schedule.expect Schedule.amountOf; rw [duties_send, Finset.sum_singleton, amount_send]
theorem expect_recv : (sched (F := F) m ρ).expect (recvCell c j) 0 = N := by
  unfold Schedule.expect Schedule.amountOf; rw [duties_recv, Finset.sum_singleton, amount_recv]

theorem payload_bar (k : Fin 7) : (sched (F := F) m ρ).payload (barCell c) 0 k = barPay c k := by dsimp only [sched]; rw [if_pos rfl]
theorem payload_send (d : Fin 7) : (sched (F := F) m ρ).payload (sendCell c j) 0 d = sendPay m ρ c j := by
  dsimp only [sched]; rw [if_neg (send_ne_bar j)]; simp only [sendJ_send]
theorem payload_recv (d : Fin 7) : (sched (F := F) m ρ).payload (recvCell c j) 0 d = recvPay m ρ c j := by
  dsimp only [sched]; rw [if_neg (recv_ne_bar j)]; simp only [sendJ_recv, recvJ_recv]

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The whole of the barrier cell's round: the seven peers' rows. -/
theorem rest_bar : bigSep ((sched (F := F) m ρ).duties (barCell c) 0 \ ∅) (fun d => (sched (F := F) m ρ).payload (barCell c) 0 d)
    = iprop(barPay c 0 ∗ barPay c 1 ∗ barPay c 2 ∗ barPay c 3 ∗ barPay c 4 ∗ barPay c 5 ∗ barPay c 6) := by
  rw [Finset.sdiff_empty, duties_bar, bigSep_fin7]; simp only [payload_bar]
theorem rest_send : bigSep ((sched (F := F) m ρ).duties (sendCell c j) 0 \ ∅) (fun d => (sched (F := F) m ρ).payload (sendCell c j) 0 d) = sendPay m ρ c j := by
  rw [Finset.sdiff_empty, duties_send, bigSep_singleton, payload_send]
theorem rest_recv : bigSep ((sched (F := F) m ρ).duties (recvCell c j) 0 \ ∅) (fun d => (sched (F := F) m ρ).payload (recvCell c j) 0 d) = recvPay m ρ c j := by
  rw [Finset.sdiff_empty, duties_recv, bigSep_singleton, payload_recv]

instance sched_payload_storable (g : GSem nD τ sig) (r : ℕ) (d : Fin 7) :
    BI.Storable (upEmb : UEmb _ 𝕄) ((sched (F := F) m ρ).payload g r d) := by
  show BI.Storable upEmb (if g.2 = .reg barS then barPay g.1.1 d
    else match sendJ g.2, recvJ g.2 with
      | some j, _ => sendPay m ρ g.1.1 j
      | none, some j => recvPay m ρ g.1.1 j
      | none, none => iprop(emp))
  unfold barPay sendPay recvPay
  (repeat' split) <;> infer_instance

end Tables

/-! ## What each device owes at launch; the levels -/

/-- One row's credit on the j-th receive cell of the device j+1 places on; one unit on the
    barrier cell of the device k+1 places on. -/
def rT (c : Dev nD) (j : Fin 7) : CellTallies nD τ sig Unit := tallyAt (recvCell (sh j c) j) () N
def bT (c : Dev nD) (k : Fin 7) : CellTallies nD τ sig Unit := tallyAt (barCell (sh k c)) () 1
/-- What the seven copies pay, summed so that copy 0 peels the last summand; -/
def OR (c : Dev nD) : CellTallies nD τ sig Unit := rT c 6 + rT c 5 + rT c 4 + rT c 3 + rT c 2 + rT c 1 + rT c 0
/-- and before them the seven signals, signal 0 the last summand. -/
def O₀ (c : Dev nD) : CellTallies nD τ sig Unit := OR c + bT c 6 + bT c 5 + bT c 4 + bT c 3 + bT c 2 + bT c 1 + bT c 0

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if (recvJ g.2).isSome then 2 else 0

/-- The kernel's own (scoped) semaphores, as the launch indexes them: the seven send, then the
    seven receive. -/
abbrev osem (i : Fin 14) : SemLoc sig :=
  if h : i.val < 7 then .dma (sendS ⟨i.val, h⟩) else .dma (recvS ⟨i.val - 7, by have := i.isLt; omega⟩)

/-! ## The ghost state a device's body starts from -/

/-- A device's fifteen cells: its barrier cell, its seven send cells, its seven receive cells. -/
def csem (i : Fin 15) : SemLoc sig :=
  if i.val = 0 then .reg barS
  else if h : i.val < 8 then .dma (sendS ⟨i.val - 1, by omega⟩)
  else .dma (recvS ⟨i.val - 8, by have := i.isLt; omega⟩)
abbrev kcell (ck : Dev nD × Fin 15) : GSem nD τ sig := ((ck.1 : Thread nD τ), csem ck.2)
def iB : Fin 15 := 0
def iS (j : Fin 7) : Fin 15 := ⟨1 + j.val, by have := j.isLt; omega⟩
def iR (j : Fin 7) : Fin 15 := ⟨8 + j.val, by have := j.isLt; omega⟩
omit [FloatOps F] in
theorem kcell_iB (c : Dev nD) : kcell (c, iB) = barCell c := rfl
omit [FloatOps F] in
theorem kcell_iS (c : Dev nD) (j : Fin 7) : kcell (c, iS j) = sendCell c j := by revert c j; decide
omit [FloatOps F] in
theorem kcell_iR (c : Dev nD) (j : Fin 7) : kcell (c, iR j) = recvCell c j := by revert c j; decide

/-- Every cell's invariant, under the names the launch allocated them at, and that every cell
    has reached round 0: persistent, known to every device. -/
def records (K : Dev nD × Fin 15 → ℕ) : sProp 𝕄 :=
  iprop((bigSep Finset.univ fun ck : Dev nD × Fin 15 => cellInv ER (sched m ρ) (K ck) (kcell ck))
    ∗ bigSep Finset.univ fun ck : Dev nD × Fin 15 => reached ER (kcell ck) 0)

instance records_persistent (K : Dev nD × Fin 15 → ℕ) : BI.Persistent (records m ρ K) := by unfold records; infer_instance

/-- The tokens of the duties device c pays: duty k of the barrier cell k+1 places on, its own
    seven send duties, the receive duty j of the device j+1 places on. -/
def payToks (c : Dev nD) : sProp 𝕄 :=
  iprop((bigSep Finset.univ fun k : Fin 7 => dutyTok ER (barCell (sh k c)) 0 k)
    ∗ (bigSep Finset.univ fun j : Fin 7 => dutyTok ER (sendCell c j) 0 (0 : Fin 7))
    ∗ (bigSep Finset.univ fun j : Fin 7 => dutyTok ER (recvCell (sh j c) j) 0 (0 : Fin 7)))
/-- What stays with device c alone: its positions at round 0 of its fifteen cells and those tokens. -/
def linear (c : Dev nD) : sProp 𝕄 :=
  iprop((atPos ER (barCell c) 0 ∅ 0
      ∗ (bigSep Finset.univ fun j : Fin 7 => atPos ER (sendCell c j) 0 ∅ 0)
      ∗ (bigSep Finset.univ fun j : Fin 7 => atPos ER (recvCell c j) 0 ∅ 0))
    ∗ payToks c)
def ghost (K : Dev nD × Fin 15 → ℕ) (c : Dev nD) : sProp 𝕄 := iprop(records m ρ K ∗ linear c)

/-- What device c's body starts from: that at some names, the credit dealt at launch (its
    barrier's seven units, each receive cell's row credit) and the level facts. -/
def start (c : Dev nD) : sProp 𝕄 :=
  iprop((∃ K, ghost m ρ K c) ∗ cred (tallyAt (barCell c) () 7)
    ∗ (bigSep Finset.univ fun j : Fin 7 => cred (tallyAt (recvCell c j) () N)) ∗ levAts L lv)

/-- The whole gather buffer of device c at contents f. -/
def cPts (c : Dev nD) (f : Buf (Elt F) ((c : Thread nD τ).loc cc0_scratch0)) : sProp 𝕄 :=
  ((c : Thread nD τ).loc cc0_scratch0) ↦{fullShare} f

def Φ₀ (c : Dev nD) : sProp 𝕄 := iprop(start m ρ c ∗ ∃ f, cPts c f)
/-- After the point: the gather buffer holding the gathered array, the fourteen OWN cells at
    zero, closed (the barrier cell is the runtime's: nothing to hand back). -/
def Φ₁ (c : Dev nD) : sProp 𝕄 :=
  iprop(cPts c (gath m ρ) ∗ (bigSep Finset.univ fun j : Fin 7 => semVal (sendCell c j) 0)
    ∗ (bigSep Finset.univ fun j : Fin 7 => semVal (recvCell c j) 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outv m ρ
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

/-- A whole staging buffer of device c at contents X, as the pipeline hands it to the body. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body of device c runs from, its ghost state opened at the names K; -/
def bodyPre (K : Dev nD × Fin 15 → ℕ) (c : Dev nD) : sProp 𝕄 :=
  iprop((ghost m ρ K c ∗ cred (tallyAt (barCell c) () 7)
      ∗ (bigSep Finset.univ fun j : Fin 7 => cred (tallyAt (recvCell c j) () N)) ∗ levAts L lv ∗ ∃ f, cPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- and what it ends in. -/
def bodyPost (c : Dev nD) : sProp 𝕄 :=
  iprop(Φ₁ m ρ c ∗ (dats m ρ 0 c).owesAt () t₀.succ ∗ stg c cc0_stg0_0 (xstg m ρ c) ∗ stg c cc0_stg1_0 (outv m ρ))

end Cert.Kernel.Gather

end
-- ==== Proof.Bits.Mid.lean ====
/-
  The body in two halves.  The first half runs a device from its entry through its seven
  signals, the column sums of its block, the wait on its barrier and its seven copies; the
  second half waits for the seven arriving rows and the seven departed copies, and sums the
  gathered rows.  Between them the device holds no part of its gather buffer: its own row is
  lent out to its seven copies in seven shares and its other seven rows are with its peers.
-/
import proofs.«901092_g7700000000001093_dist_sum_ax0_shard0_i_m512_n256_v7x_i8_bf16_1_alg».proof.Proof.Bits.Proto

noncomputable section

namespace Cert.Kernel.Gather

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The device's position on the mesh axis, as the kernel computes the word. -/
def v2w (c : Dev nD) : BitVec 32 := Scalar.remsi (Scalar.divsi (Dev.word c) 1#32) 8#32

/-- The kernel on device c, as the pipeline calls it. -/
abbrev bodyAt : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) cc0_scratch1 cc0_scratch2

/-- What is left of the kernel on device c after its seven copies have been started: the seven
    waits for arriving rows, the seven waits for its own copies, the sum of the eight rows. -/
def second (c : Dev nD) (v2 : BitVec 32) : Prog (TpuEff nD τ sig (Elt F) Λ₀ .tc) PUnit := do
  k0_part5 xM (Memref.isWhole_whole _) oM (Memref.isWhole_whole _) cM (Memref.isWhole_whole _) cc0_scratch1 cc0_scratch2 c v2
  k0_part6 xM (Memref.isWhole_whole _) oM (Memref.isWhole_whole _) cM (Memref.isWhole_whole _) cc0_scratch1 cc0_scratch2 c v2
  k0_part7 xM (Memref.isWhole_whole _) oM (Memref.isWhole_whole _) cM (Memref.isWhole_whole _) cc0_scratch1 cc0_scratch2 c
  let v197 : DmaSems sig S1 := cc0_scratch1.slice (Rect.unit (s := S7) ![6] S1.size inb_S7_S1_6)
  let v198 : DmaSems sig S_ := v197.squeeze S_ squeezes_S1_S_
  let v199 : Memref sig .tc .vmem S1x256 .f32 := cM.slice (Rect.unit (s := S8x256) (k0_off2 c) S1x256.size (k0_off2_inb c)) (fun _ => rfl)
  let v200 : Memref sig .tc .vmem S1x256 .f32 := cM.slice (Rect.unit (s := S8x256) (k0_off2 c) S1x256.size (k0_off2_inb c)) (fun _ => rfl)
  Prog.lift (.waitDma2 v198.sem v200 v199 (View.wordExact_bits rfl) (View.wordExact_bits rfl))
  let v201 : Vec F S8x256 .f32 ← Prog.lift (.load cM (Rect.unit (s := S8x256) ![0, 0] S8x256.size inb_S8x256_S8x256_0_0).toLoadRect (View.loadsAt_vmem h_S8x256))
  let v204 : Vec F S1x256 .f32 ← Prog.lift (.load oM (Rect.unit (s := S1x256) ![0, 0] S1x256.size inb_S1x256_S1x256_0_0).toLoadRect (View.loadsAt_vmem h_S1x256))
  Prog.lift (.store oM (Rect.unit (s := S1x256) ![0, 0] S1x256.size inb_S1x256_S1x256_0_0) (k0_pay1 v201) Finset.univ (View.stores_vmem_bits_univ h_S1x256 rfl) (.inl rfl))
  pure ⟨⟩

/-- What device c holds between the halves: every cell's invariant and reached-fact, the level
    facts, its positions at round 0 of its seven send and seven receive cells, the credit of
    each (a send cell's from its copy's departure, a receive cell's dealt at launch), nothing
    owed any more, its staged block of x and the staged output. -/
def midPt (K : Dev nD × Fin 15 → ℕ) (c : Dev nD) : sProp 𝕄 :=
  iprop(records m ρ K ∗ levAts L lv
    ∗ (bigSep Finset.univ fun j : Fin 7 => atPos ER (sendCell c j) 0 ∅ 0)
    ∗ (bigSep Finset.univ fun j : Fin 7 => atPos ER (recvCell c j) 0 ∅ 0)
    ∗ (bigSep Finset.univ fun j : Fin 7 => cred (tallyAt (sendCell c j) () N))
    ∗ (bigSep Finset.univ fun j : Fin 7 => cred (tallyAt (recvCell c j) () N))
    ∗ (∃ W : Waits sig Unit, owes (c : Thread nD τ) 0 W)
    ∗ (((c : Thread nD τ).loc cc0_stg0_0) ↦{fullShare} xstg m ρ c)
    ∗ (∃ g : Buf (Elt F) ((c : Thread nD τ).loc cc0_stg1_0), ((c : Thread nD τ).loc cc0_stg1_0) ↦{fullShare} g))

end Cert.Kernel.Gather

end
-- ==== Proof.Bits.Rows.lean ====
/-
  The gather buffer by rows: device t's 8 x 256 buffer is its eight rows; a row held whole is
  the seven shares it is lent out in; the row a device stores its column sums into, and the
  row a peer's copy lands in, hold the gathered array's values there.
-/
import proofs.«901092_g7700000000001093_dist_sum_ax0_shard0_i_m512_n256_v7x_i8_bf16_1_alg».proof.Proof.Bits.Proto
import Idealize.ShloMosaic.Lib.Pipeline.Value

noncomputable section

namespace Cert.Kernel.Gather

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The rectangle the kernel loads and stores its own row through. -/
abbrev ownRect (c : Dev nD) : Rect S8x256 := Rect.unit (s := S8x256) (k0_off1 c) S1x256.size (k0_off1_inb c)

/-! ## Which indices of the buffer a row's rectangle holds -/

/-- A one-row rectangle at offset (r, 0) holds exactly the indices whose row is r. -/
theorem mem_unit_row {off : Fin S8x256.rank → Nat} {inb} (r : Dev nD) (h : off = ![r.val, 0]) (i : S8x256.Idx) :
    i ∈ (Rect.unit (s := S8x256) off S1x256.size inb).set ↔ (i 0).val = r.val := by
  subst h
  rw [Rect.mem_set_unit]
  constructor
  · intro h
    have h0 := h 0
    simp only [Matrix.cons_val_zero] at h0
    have : S1x256.size 0 = 1 := rfl
    omega
  · intro h a
    have h1 : (i 1).val < 256 := (i 1).isLt
    revert a
    rw [Fin.forall_fin_two]
    refine ⟨?_, ?_⟩
    · show r.val ≤ (i 0).val ∧ (i 0).val < r.val + 1
      omega
    · show 0 ≤ (i 1).val ∧ (i 1).val < 0 + 256
      omega

/-- The row sets, as sets of indices of the one buffer. -/
abbrev rowSet (r : Dev nD) : Finset S8x256.Idx := (rowM r).view.set

theorem rowSet_eq (r : Dev nD) :
    rowSet r = (Rect.unit (s := S8x256) (k0_off2 r) S1x256.size (k0_off2_inb r)).set := View.set_slice_whole _ _

theorem mem_row (r : Dev nD) (i : S8x256.Idx) : i ∈ rowSet r ↔ (i 0).val = r.val := by
  rw [rowSet_eq]; exact mem_unit_row r (k0_off2_eq r) i

/-- Different rows share no index, -/
theorem rows_disj (r r' : Dev nD) (h : r ≠ r') : Disjoint (rowSet r) (rowSet r') := by
  rw [Finset.disjoint_left]
  intro i hi hi'
  rw [mem_row] at hi hi'
  exact h (Fin.ext (hi.symm.trans hi'))

/-- and every index lies in the row its first coordinate names. -/
theorem rows_cover : (Finset.univ : Finset (Dev nD)).biUnion rowSet = Finset.univ := by
  ext i
  simp only [Finset.mem_biUnion, Finset.mem_univ, true_and, iff_true]
  exact ⟨⟨(i 0).val, (i 0).isLt⟩, (mem_row _ i).mpr rfl⟩

/-- The whole buffer is its eight rows. -/
theorem cPts_rows (c : Dev nD) (f : Buf (Elt F) ((c : Thread nD τ).loc cc0_scratch0)) :
    cPts (F := F) c f ⊣⊢ bigSep Finset.univ fun r : Dev nD => rowPts c r fullShare f := by
  unfold cPts rowPts
  have h := pointsTo_biUnion (nD := nD) (τ := τ) (sig := sig) (Ix := Unit) (Val := Elt F) (Name := ℕ) (U := UU) (Lvl := ℕ)
    (ℓ := (c : Thread nD τ).loc cc0_scratch0) (q := fullShare) (f := f) (Finset.univ : Finset (Dev nD)) rowSet
    (fun r _ r' _ hne => rows_disj r r' hne)
  rw [rows_cover] at h
  rw [h]

/-! ## The eight devices as one and the seven others -/

/-- Seven distinct devices none of which is c are all the devices but c. -/
theorem erase_eq_map (g : Fin 7 ↪ Dev nD) (c : Dev nD) (hne : ∀ k, g k ≠ c) :
    (Finset.univ : Finset (Dev nD)).erase c = Finset.univ.map g := by
  symm
  apply Finset.eq_of_subset_of_card_le
  · intro x hx
    obtain ⟨k, -, rfl⟩ := Finset.mem_map.mp hx
    exact Finset.mem_erase.mpr ⟨hne k, Finset.mem_univ _⟩
  · rw [Finset.card_map, Finset.card_erase_of_mem (Finset.mem_univ c), Finset.card_univ, Finset.card_univ,
      Fintype.card_fin, Fintype.card_fin]
    decide

omit [FloatOps F] in
/-- So a product over the eight devices is the factor at c and the product over those seven. -/
theorem bigSep_around (g : Fin 7 ↪ Dev nD) (c : Dev nD) (hne : ∀ k, g k ≠ c) (Φ : Dev nD → sProp 𝕄) :
    bigSep Finset.univ Φ = iprop(Φ c ∗ bigSep Finset.univ fun k : Fin 7 => Φ (g k)) := by
  rw [bigSep_univ_at Φ c, erase_eq_map g c hne, bigSep_map]

/-- The whole buffer of device c is its own row c and the seven rows of the devices k+1 places on; -/
theorem rows_split (c : Dev nD) (f : Buf (Elt F) ((c : Thread nD τ).loc cc0_scratch0)) :
    cPts (F := F) c f ⊢ iprop(rowPts c c fullShare f ∗ bigSep Finset.univ fun k : Fin 7 => rowPts c (sh k c) fullShare f) :=
  (cPts_rows c f).1.trans (Entails.of_eq
    (bigSep_around ⟨fun k => sh k c, sh_inj_left c⟩ c (fun k => sh_ne k c) fun r => rowPts c r fullShare f))
/-- and it is put together again from its own row and the seven rows of the devices j+1 places back. -/
theorem rows_join (c : Dev nD) (f : Buf (Elt F) ((c : Thread nD τ).loc cc0_scratch0)) :
    iprop(rowPts c c fullShare f ∗ bigSep Finset.univ fun j : Fin 7 => rowPts c (bk j c) fullShare f) ⊢ cPts (F := F) c f :=
  (Entails.of_eq
    (bigSep_around ⟨fun k => bk k c, bk_inj_left c⟩ c (fun k => bk_ne k c) fun r => rowPts c r fullShare f).symm).trans
    (cPts_rows c f).2

/-- A row held whole is the seven shares it is lent out in. -/
theorem rowPts_shares (t r : Dev nD) (f : Buf (Elt F) ((rowM r).view.loc (t : Thread nD τ))) :
    rowPts (F := F) t r fullShare f ⊣⊢ bigSep Finset.univ fun j : Fin 7 => rowPts t r (qs j) f := by
  -- a share is its left and its right half; the seven shares are the left halves met going right six times
  have hs : ∀ q : PosShare TreeShare, rowPts (F := F) t r q f = iprop(rowPts t r q.left f ∗ rowPts t r q.right f) :=
    fun q => BI.equiv_iff.mp ⟨(pointsTo_share (PosShare.mem_left_op_right q)).1, (pointsTo_share (PosShare.mem_left_op_right q)).2⟩
  rw [bigSep_fin7]
  simp only [qs]
  rw [hs fullShare, hs fullShare.right, hs fullShare.right.right, hs fullShare.right.right.right,
    hs fullShare.right.right.right.right, hs fullShare.right.right.right.right.right]

/-- The rectangle of the kernel's own accesses holds the indices of row c. -/
theorem ownRect_set (c : Dev nD) : (ownRect c).set = rowSet c := by
  ext i
  rw [mem_row]; exact mem_unit_row c (k0_off1_eq c) i

/-- The kernel's load and store of its own row touch that row only. -/
theorem own_load_sub (c : Dev nD) :
    (cM : Memref sig .tc .vmem S8x256 .f32).view.setOn (ownRect c).toLoadRect.set ⊆ (rowM c).view.set := by
  intro i hi
  obtain ⟨y, hy, rfl⟩ := Finset.mem_map.mp hi
  show y ∈ rowSet c
  rw [← ownRect_set]; exact hy
theorem own_store_sub (c : Dev nD) :
    ((cM : Memref sig .tc .vmem S8x256 .f32).access (ownRect c)).setOn Finset.univ ⊆ (rowM c).view.set := by
  rw [View.setOn_univ, show ((cM : Memref sig .tc .vmem S8x256 .f32).access (ownRect c)).set = (ownRect c).set from
    View.set_slice_whole _ _, ownRect_set]

open Idealize.ShloMosaic.ValueIdx in
/-- Through the kernel's own rectangle, column b of the one row is column b of row c of the buffer. -/
theorem own_emb (c : Dev nD) (b : Fin 256) :
    ((cM : Memref sig .tc .vmem S8x256 .f32).access (ownRect c)).emb (ix2 (0 : Fin 1) b) = (ix2 c b : S8x256.Idx) := by
  funext a
  match a with
  | ⟨0, _⟩ =>
    apply Fin.ext
    show k0_off1 c 0 + 1 * 0 = c.val
    rw [k0_off1_eq]; rfl
  | ⟨1, _⟩ =>
    apply Fin.ext
    show k0_off1 c 1 + 1 * b.val = b.val
    rw [k0_off1_eq]; show 0 + 1 * b.val = b.val; omega

open Idealize.ShloMosaic.ValueIdx in
/-- After device c has stored the column sums of its block, its row c holds the gathered array's row c. -/
theorem row_stored (c : Dev nD) (f : Buf (Elt F) (((cM : Memref sig .tc .vmem S8x256 .f32).access (ownRect c)).loc (c : Thread nD τ))) :
    rowPts c c fullShare (((cM : Memref sig .tc .vmem S8x256 .f32).access (ownRect c)).write (Elt F) f (k0_pay2 (xstg m ρ c)) Finset.univ)
      = rowPts c c fullShare (gath m ρ) := by
  unfold rowPts
  apply pointsTo_congr
  intro i hi
  -- an index of row c is column b of the one stored row, for some b
  have hi' : i ∈ ((cM : Memref sig .tc .vmem S8x256 .f32).access (ownRect c)).set := by
    rw [show ((cM : Memref sig .tc .vmem S8x256 .f32).access (ownRect c)).set = (ownRect c).set from
      View.set_slice_whole _ _, ownRect_set]
    exact hi
  obtain ⟨y, rfl⟩ := View.exists_emb_of_mem_set _ hi'
  obtain ⟨a, b, rfl⟩ : ∃ (a : Fin 1) (b : Fin 256), y = ix2 a b := ⟨y 0, y 1, eq_ix2 y⟩
  obtain rfl : a = 0 := Subsingleton.elim _ _
  -- there the store left the column sum of block c at b, which is the gathered array at (c, b)
  rw [View.write_emb_of_mem _ _ (Finset.mem_univ _), own_emb, cast_eq]
  rfl

/-- Row c of device t's buffer, overwritten by a copy of a row c that holds the gathered array's, holds it too. -/
theorem row_landed (t c : Dev nD) (fd : Buf (Elt F) ((rowM c).view.loc (t : Thread nD τ))) :
    rowPts t c fullShare ((rowM c).view.write (Elt F) fd ((rowM c).view.read (Elt F) (gath m ρ)) Finset.univ)
      = rowPts t c fullShare (gath m ρ) := by
  unfold rowPts
  apply pointsTo_congr
  intro i hi
  obtain ⟨y, rfl⟩ := View.exists_emb_of_mem_set _ hi
  -- the copy wrote at each index of the row what the source row, the gathered array's, holds there
  rw [View.write_emb_of_mem _ _ (Finset.mem_univ _), View.read_apply, cast_cast, cast_eq]

/-- info: 'Cert.Kernel.Gather.rows_join' depends on axioms: [propext, Classical.choice, Quot.sound] -/
#guard_msgs in #print axioms rows_join

/-- info: 'Cert.Kernel.Gather.row_landed' depends on axioms: [propext, Classical.choice, Quot.sound] -/
#guard_msgs in #print axioms row_landed

end Cert.Kernel.Gather

end
-- ==== Proof.Bits.First.lean ====
/-
  The first half of the body on device c.  Seven signals, signal k handing the device k+1
  places on the row of c's gather buffer that device will write; the column sums of c's block
  stored into row c, which then holds the gathered array's row c; the wait for the seven units
  of c's barrier cell, which brings row c of every peer's buffer; seven copies, copy j lending
  share j of row c and writing row c of the device j+1 places on.
-/
import proofs.«901092_g7700000000001093_dist_sum_ax0_shard0_i_m512_n256_v7x_i8_bf16_1_alg».proof.Proof.Bits.Mid
import proofs.«901092_g7700000000001093_dist_sum_ax0_shard0_i_m512_n256_v7x_i8_bf16_1_alg».proof.Proof.Bits.Rows
import proofs.«901092_g7700000000001093_dist_sum_ax0_shard0_i_m512_n256_v7x_i8_bf16_1_alg».proof.Proof.Gen.Kernel.Skeleton
import Idealize.ShloMosaic.Lib.Tactic
import Idealize.ShloMosaic.Lib.Pipeline.Launch

noncomputable section

namespace Cert.Kernel.Gather

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells' invariants and reached-facts, one at a time -/

theorem inv_at (K : Dev nD × Fin 15 → ℕ) (ck : Dev nD × Fin 15) :
    (bigSep Finset.univ fun ck : Dev nD × Fin 15 => (cellInv ER (sched m ρ) (K ck) (kcell ck) : sProp 𝕄)) ⊢ cellInv ER (sched m ρ) (K ck) (kcell ck) :=
  bigSep_elim (Finset.mem_univ ck)
omit [FloatOps F] in
theorem reached_at (ck : Dev nD × Fin 15) :
    (bigSep Finset.univ fun ck : Dev nD × Fin 15 => (reached ER (kcell ck) 0 : sProp 𝕄)) ⊢ reached ER (kcell ck) 0 :=
  bigSep_elim (Finset.mem_univ ck)

/-! ## The printed semaphores are the send and receive semaphores by position -/

omit [FloatOps F] in
theorem semS0 : ((SemArray.slice cc0_scratch1 (Rect.unit (s := S7) ![0] S1.size inb_S7_S1_0)).squeeze S_ squeezes_S1_S_).sem = sendS 0 := by decide
omit [FloatOps F] in
theorem semR0 : ((SemArray.slice cc0_scratch2 (Rect.unit (s := S7) ![0] S1.size inb_S7_S1_0)).squeeze S_ squeezes_S1_S_).sem = recvS 0 := by decide
omit [FloatOps F] in
theorem semS1 : ((SemArray.slice cc0_scratch1 (Rect.unit (s := S7) ![1] S1.size inb_S7_S1_1)).squeeze S_ squeezes_S1_S_).sem = sendS 1 := by decide
omit [FloatOps F] in
theorem semR1 : ((SemArray.slice cc0_scratch2 (Rect.unit (s := S7) ![1] S1.size inb_S7_S1_1)).squeeze S_ squeezes_S1_S_).sem = recvS 1 := by decide
omit [FloatOps F] in
theorem semS2 : ((SemArray.slice cc0_scratch1 (Rect.unit (s := S7) ![2] S1.size inb_S7_S1_2)).squeeze S_ squeezes_S1_S_).sem = sendS 2 := by decide
omit [FloatOps F] in
theorem semR2 : ((SemArray.slice cc0_scratch2 (Rect.unit (s := S7) ![2] S1.size inb_S7_S1_2)).squeeze S_ squeezes_S1_S_).sem = recvS 2 := by decide
omit [FloatOps F] in
theorem semS3 : ((SemArray.slice cc0_scratch1 (Rect.unit (s := S7) ![3] S1.size inb_S7_S1_3)).squeeze S_ squeezes_S1_S_).sem = sendS 3 := by decide
omit [FloatOps F] in
theorem semR3 : ((SemArray.slice cc0_scratch2 (Rect.unit (s := S7) ![3] S1.size inb_S7_S1_3)).squeeze S_ squeezes_S1_S_).sem = recvS 3 := by decide
omit [FloatOps F] in
theorem semS4 : ((SemArray.slice cc0_scratch1 (Rect.unit (s := S7) ![4] S1.size inb_S7_S1_4)).squeeze S_ squeezes_S1_S_).sem = sendS 4 := by decide
omit [FloatOps F] in
theorem semR4 : ((SemArray.slice cc0_scratch2 (Rect.unit (s := S7) ![4] S1.size inb_S7_S1_4)).squeeze S_ squeezes_S1_S_).sem = recvS 4 := by decide
omit [FloatOps F] in
theorem semS5 : ((SemArray.slice cc0_scratch1 (Rect.unit (s := S7) ![5] S1.size inb_S7_S1_5)).squeeze S_ squeezes_S1_S_).sem = sendS 5 := by decide
omit [FloatOps F] in
theorem semR5 : ((SemArray.slice cc0_scratch2 (Rect.unit (s := S7) ![5] S1.size inb_S7_S1_5)).squeeze S_ squeezes_S1_S_).sem = recvS 5 := by decide
omit [FloatOps F] in
theorem semS6 : ((SemArray.slice cc0_scratch1 (Rect.unit (s := S7) ![6] S1.size inb_S7_S1_6)).squeeze S_ squeezes_S1_S_).sem = sendS 6 := by decide
omit [FloatOps F] in
theorem semR6 : ((SemArray.slice cc0_scratch2 (Rect.unit (s := S7) ![6] S1.size inb_S7_S1_6)).squeeze S_ squeezes_S1_S_).sem = recvS 6 := by decide

/-! ## The staged block read whole; the device j+1 places on is 7-j places back -/

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) :
    (xM : Memref sig .tc .vmem S512x256 .f32).view.readAt (Elt F)
      (Rect.unit (s := S512x256) ![0, 0] S512x256.size inb_S512x256_S512x256_0_0).toLoadRect f = f :=
  Memref.readAt_unit_zero (Elt F) cc0_stg0_0 hz2 _ f
omit [FloatOps F] in
theorem bk_rev_eq_sh (j : Fin 7) (c : Dev nD) : bk j.rev c = sh j c := by revert j c; decide

/-! ## One signal, one copy -/

/-- Signal k of device c: duty k of the barrier cell of the device k+1 places on, paid with
    c's row of that device's index. -/
theorem wp_sig (K : Dev nD × Fin 15 → ℕ) (c : Dev nD) (k : Fin 7) (n : Dev nD) (hn : n = sh k c) {α : Type} {Q : α → sProp 𝕄}
    {kk : PUnit → Prog (TpuEff nD τ sig (Elt F) Λ₀ .tc) α} (O : CellTallies nD τ sig Unit) (W : Waits sig Unit)
    (f : Buf (Elt F) ((rowM (sh k c)).view.loc (c : Thread nD τ))) :
    iprop(records m ρ K ∗ owes (c : Thread nD τ) (O + bT c k) W ∗ dutyTok ER (barCell (sh k c)) 0 k ∗ rowPts c (sh k c) fullShare f)
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS (1#32).toNat) kk) Q) := by
  subst hn
  unfold records
  iintro ⟨⟨#HI, #Hr⟩, HO, Htok, Hrow⟩ Hk
  iapply (Rounds.wp_signal 𝒱₀ ER (sched m ρ) (c : Thread nD τ) none (dst := (sh k c : Thread nD τ)) (κ := K (sh k c, iB))
      (d := k) (by rw [duties_bar]; exact Finset.mem_univ _) ((amount_bar m ρ (sh k c) k).trans (by decide)) () O rfl) $$ [HO Htok Hrow]
  · isplitr; · iapply (inv_at m ρ K (sh k c, iB)); iexact HI
    isplitl [HO]; · iexact HO
    isplitl [Htok]; · iexact Htok
    isplitl [Hrow]
    · rw [payload_bar]; unfold barPay; rw [bk_sh]; iexists f; iexact Hrow
    · iapply (reached_at (F := F) (sh k c, iB)); iexact Hr
  iexact Hk

/-- Copy j of device c: share j of c's own row, holding the gathered array's row c, into row c
    of the device j+1 places on. -/
theorem wp_snd (K : Dev nD × Fin 15 → ℕ) (c : Dev nD) (j : Fin 7) (n : Dev nD) (hn : n = sh j c) (t : Dev nD) (ht : t = sh j c)
    (sS sR : DmaSem sig) (hsS : sS = sendS j) (hsR : sR = recvS j)
    {hsc : (rowM c : Memref sig (Dev.tc n : Thread nD τ).2.kind .vmem S1x256 .f32).view.ref.isScScratch = false}
    {hsrc : (rowM c : Memref sig .tc .vmem S1x256 .f32).view.WordExact} {hdst : (rowM c : Memref sig .tc .vmem S1x256 .f32).view.WordExact}
    {hsem : DmaTarget.Typed .vmem (.dma sR) (.remote (Dev.tc n : Thread nD τ) (rowM c : Memref sig .tc .vmem S1x256 .f32) (.dma sS) hsc)}
    {α : Type} {Q : α → sProp 𝕄} {kk : PUnit → Prog (TpuEff nD τ sig (Elt F) Λ₀ .tc) α}
    (fn : Buf (Elt F) ((rowM c).view.loc (t : Thread nD τ))) (O : CellTallies nD τ sig Unit) (W : Waits sig Unit) :
    iprop(records m ρ K ∗ rowPts c c (qs j) (gath m ρ) ∗ rowPts t c fullShare fn
        ∗ owes (c : Thread nD τ) (O + rT c j) W
        ∗ dutyTok ER (sendCell c j) 0 (0 : Fin 7) ∗ dutyTok ER (recvCell (sh j c) j) 0 (0 : Fin 7))
      ⊢ iprop(((cred (tallyAt (sendCell c j) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (rowM c) (.remote (Dev.tc n : Thread nD τ) (rowM c) (.dma sS) hsc) (.dma sR) hsrc hdst hsem) kk) Q) := by
  subst hn hsS hsR ht
  unfold records
  iintro ⟨⟨#HI, #Hr⟩, Hsrc, Hdst, HO, Ht1, Ht2⟩ Hk
  have hI1 := inv_at m ρ K (c, iS j); rw [kcell_iS] at hI1
  have hI2 := inv_at m ρ K (sh j c, iR j); rw [kcell_iR] at hI2
  have hr1 := reached_at (F := F) (c, iS j); rw [kcell_iS] at hr1
  have hr2 := reached_at (F := F) (sh j c, iR j); rw [kcell_iR] at hr2
  unfold rowPts
  iapply (Rounds.wp_send_pointsTo 𝒱₀ ER (sched m ρ) (c : Thread nD τ) none (κ₁ := K (c, iS j)) (κ₂ := K (sh j c, iR j))
    (r₁ := 0) (r₂ := 0) (d₁ := 0) (d₂ := 0) (fd := fn) (q := qs j) (fs := gath m ρ)
    (by rw [duties_send]; exact Finset.mem_singleton_self _) (by rw [duties_recv]; exact Finset.mem_singleton_self _)
    () () N rfl (amount_send m ρ c j 0) (amount_recv m ρ (sh j c) j 0) O rfl (W := W)
    (by rw [payload_send]; exact BI.Entails.refl _)
    (by rw [payload_recv]; unfold recvPay; rw [bk_sh]; exact Entails.of_eq (row_landed m ρ (sh j c) c fn))) $$ [Hsrc Hdst HO Ht1 Ht2]
  · isplitr; · iapply hI1; iexact HI
    isplitr; · iapply hI2; iexact HI
    isplitl [Hsrc]; · iexact Hsrc
    isplitl [Hdst]; · iexact Hdst
    isplitl [HO]; · iexact HO
    isplitl [Ht1]; · iexact Ht1
    isplitr; · iapply hr1; iexact Hr
    isplitl [Ht2]; · iexact Ht2
    iapply hr2; iexact Hr
  iexact Hk

/-! ## The first half -/

set_option maxHeartbeats 1600000 in
set_option maxRecDepth 8000 in
theorem first_half (K : Dev nD × Fin 15 → ℕ) (c : Dev nD)
    (hmw : (levAts L lv : sProp 𝕄) ⊢ MayWait (c : Thread nD τ) (.reg barS) () (OR c)) (Kt : PUnit → sProp 𝕄) :
    iprop(bodyPre m ρ K c ∗ (midPt m ρ K c -∗ wp frame (wpE (defs₀ (F := F)) 𝒱₀ (c : Thread nD τ) none) Set.univ (second (F := F) c (v2w c)) Kt))
      ⊢ wp frame (wpE (defs₀ (F := F)) 𝒱₀ (c : Thread nD τ) none) Set.univ (bodyAt (F := F)) Kt := by
  unfold bodyAt; rw [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold bodyPre ghost linear payToks
  simp only [bigSep_fin7]
  iintro ⟨⟨⟨⟨#HR, ⟨HatB, ⟨HatS0, HatS1, HatS2, HatS3, HatS4, HatS5, HatS6⟩, ⟨HatV0, HatV1, HatV2, HatV3, HatV4, HatV5, HatV6⟩⟩,
      ⟨HtB0, HtB1, HtB2, HtB3, HtB4, HtB5, HtB6⟩, ⟨HtS0, HtS1, HtS2, HtS3, HtS4, HtS5, HtS6⟩, ⟨HtV0, HtV1, HtV2, HtV3, HtV4, HtV5, HtV6⟩⟩,
      HcB, ⟨HcV0, HcV1, HcV2, HcV3, HcV4, HcV5, HcV6⟩, #Hlev, ⟨%f0, Hscr⟩⟩,
    Ho, ⟨%d0, %g0, %hg0, Hx⟩, ⟨%d1, %g1, %hg1, Hout⟩⟩, Hk⟩
  -- what the device owes, and its gather buffer row by row
  unfold Dat.owesAt Pipeline.owesWithin
  icases Ho with ⟨%W, %hW, HO⟩
  rw [show (dats m ρ 0 c).owed t₀.castSucc = O₀ c from rfl]
  unfold O₀
  have hx : g0 = xstg m ρ c := by rw [hg0]; unfold Dat.before; rw [if_pos (fetch0_0 t₀)]; rfl
  subst hx
  ihave Hrows := (rows_split (F := F) c f0) $$ Hscr
  icases Hrows with ⟨Hown, Hrows⟩
  ihave Hr7 := (Entails.of_eq (bigSep_fin7 _)) $$ Hrows
  icases Hr7 with ⟨Hrow0, Hrow1, Hrow2, Hrow3, Hrow4, Hrow5, Hrow6⟩
  -- signal 0: to the device 1 places on, handing it this device's row of that index
  iapply (wp_sig m ρ K c 0 _ (dev1_eq c) (OR c + bT c 6 + bT c 5 + bT c 4 + bT c 3 + bT c 2 + bT c 1) W f0) $$ [HO HtB0 Hrow0]
  · isplitr; · iexact HR
    isplitl [HO]; · iexact HO
    isplitl [HtB0]; · iexact HtB0
    iexact Hrow0
  iintro HO
  -- signal 1: to the device 2 places on, handing it this device's row of that index
  iapply (wp_sig m ρ K c 1 _ (dev2_eq c) (OR c + bT c 6 + bT c 5 + bT c 4 + bT c 3 + bT c 2) W f0) $$ [HO HtB1 Hrow1]
  · isplitr; · iexact HR
    isplitl [HO]; · iexact HO
    isplitl [HtB1]; · iexact HtB1
    iexact Hrow1
  iintro HO
  -- signal 2: to the device 3 places on, handing it this device's row of that index
  iapply (wp_sig m ρ K c 2 _ (dev3_eq c) (OR c + bT c 6 + bT c 5 + bT c 4 + bT c 3) W f0) $$ [HO HtB2 Hrow2]
  · isplitr; · iexact HR
    isplitl [HO]; · iexact HO
    isplitl [HtB2]; · iexact HtB2
    iexact Hrow2
  iintro HO
  -- signal 3: to the device 4 places on, handing it this device's row of that index
  iapply (wp_sig m ρ K c 3 _ (dev4_eq c) (OR c + bT c 6 + bT c 5 + bT c 4) W f0) $$ [HO HtB3 Hrow3]
  · isplitr; · iexact HR
    isplitl [HO]; · iexact HO
    isplitl [HtB3]; · iexact HtB3
    iexact Hrow3
  iintro HO
  -- signal 4: to the device 5 places on, handing it this device's row of that index
  iapply (wp_sig m ρ K c 4 _ (dev5_eq c) (OR c + bT c 6 + bT c 5) W f0) $$ [HO HtB4 Hrow4]
  · isplitr; · iexact HR
    isplitl [HO]; · iexact HO
    isplitl [HtB4]; · iexact HtB4
    iexact Hrow4
  iintro HO
  -- signal 5: to the device 6 places on, handing it this device's row of that index
  iapply (wp_sig m ρ K c 5 _ (dev6_eq c) (OR c + bT c 6) W f0) $$ [HO HtB5 Hrow5]
  · isplitr; · iexact HR
    isplitl [HO]; · iexact HO
    isplitl [HtB5]; · iexact HtB5
    iexact Hrow5
  iintro HO
  -- signal 6: to the device 7 places on, handing it this device's row of that index
  iapply (wp_sig m ρ K c 6 _ (dev7_eq c) (OR c) W f0) $$ [HO HtB6 Hrow6]
  · isplitr; · iexact HR
    isplitl [HO]; · iexact HO
    isplitl [HtB6]; · iexact HtB6
    iexact Hrow6
  iintro HO
  -- the column sums of the block, into the device's own row
  iapply (wp_load 𝒱₀ (c : Thread nD τ) none Set.univ (m := xM) (Finset.subset_univ _)) $$ Hx; iintro Hx
  rw [read_x]
  unfold rowPts
  iapply (wp_load 𝒱₀ (c : Thread nD τ) none Set.univ (m := cM) (own_load_sub c)) $$ Hown; iintro Hown
  iapply (wp_store 𝒱₀ (c : Thread nD τ) none Set.univ (m := cM) (r := ownRect c) (Mk := Finset.univ) (own_store_sub c)) $$ Hown; iintro Hown
  have hst : ((((cM : Memref sig .tc .vmem S8x256 .f32).access (ownRect c)).loc (c : Thread nD τ)
        ↦[(rowM c).view.set]{fullShare} (((cM : Memref sig .tc .vmem S8x256 .f32).access (ownRect c)).write (Elt F) f0 (k0_pay2 (xstg m ρ c)) Finset.univ)) : sProp 𝕄)
      = rowPts c c fullShare (gath m ρ) := row_stored m ρ c f0
  ihave Hown := (Entails.of_eq hst) $$ Hown
  -- the wait for the seven units of its barrier cell: row c of every peer's buffer comes with them
  iapply (Rounds.wp_wait_rest_token 𝒱₀ ER (sched m ρ) (c : Thread nD τ) none (κ := K (c, iB))
      (wpE_semWait_eq 𝒱₀ (c : Thread nD τ) none Set.univ) (Set.mem_univ _) () (O := OR c) (W := W) (R := 0) (m := 0) (T := ∅)
      (by rw [expect_bar]; decide)) $$ [HcB HO HatB]
  · isplitr; · unfold records; icases HR with ⟨#HI, -⟩; iapply (inv_at m ρ K (c, iB)); iexact HI
    isplitl [HcB]; · iexact HcB
    isplitl [HO]; · iexact HO
    isplitr; · iapply hmw; iexact Hlev
    iexact HatB
  iintro ⟨HO, HatB, -, Hpay⟩
  ihave Hp := (Entails.of_eq (rest_bar m ρ c)) $$ Hpay
  unfold barPay
  icases Hp with ⟨⟨%fb0, Hpeer0⟩, ⟨%fb1, Hpeer1⟩, ⟨%fb2, Hpeer2⟩, ⟨%fb3, Hpeer3⟩, ⟨%fb4, Hpeer4⟩, ⟨%fb5, Hpeer5⟩, ⟨%fb6, Hpeer6⟩⟩
  -- the device's own row in the seven shares its copies borrow
  ihave Hq := (rowPts_shares (F := F) c c (gath m ρ)).1 $$ Hown
  ihave Hq7 := (Entails.of_eq (bigSep_fin7 _)) $$ Hq
  icases Hq7 with ⟨Hq0, Hq1, Hq2, Hq3, Hq4, Hq5, Hq6⟩
  unfold OR
  generalize hW' : insert (SemLoc.reg barS, ()) W = W'
  -- copy 0: row c into row c of the device 1 places on (that row came with duty 6 of the barrier round)
  iapply (wp_snd m ρ K c 0 _ (dev8_eq c) (bk 6 c) (bk_rev_eq_sh 0 c) _ _ semS0 semR0 fb6 (rT c 6 + rT c 5 + rT c 4 + rT c 3 + rT c 2 + rT c 1) W') $$ [Hq0 Hpeer6 HO HtS0 HtV0]
  · isplitr; · iexact HR
    isplitl [Hq0]; · iexact Hq0
    isplitl [Hpeer6]; · iexact Hpeer6
    isplitl [HO]; · iexact HO
    isplitl [HtS0]; · iexact HtS0
    iexact HtV0
  iintro ⟨HcS0, HO⟩
  -- copy 1: row c into row c of the device 2 places on (that row came with duty 5 of the barrier round)
  iapply (wp_snd m ρ K c 1 _ (dev9_eq c) (bk 5 c) (bk_rev_eq_sh 1 c) _ _ semS1 semR1 fb5 (rT c 6 + rT c 5 + rT c 4 + rT c 3 + rT c 2) W') $$ [Hq1 Hpeer5 HO HtS1 HtV1]
  · isplitr; · iexact HR
    isplitl [Hq1]; · iexact Hq1
    isplitl [Hpeer5]; · iexact Hpeer5
    isplitl [HO]; · iexact HO
    isplitl [HtS1]; · iexact HtS1
    iexact HtV1
  iintro ⟨HcS1, HO⟩
  -- copy 2: row c into row c of the device 3 places on (that row came with duty 4 of the barrier round)
  iapply (wp_snd m ρ K c 2 _ (dev10_eq c) (bk 4 c) (bk_rev_eq_sh 2 c) _ _ semS2 semR2 fb4 (rT c 6 + rT c 5 + rT c 4 + rT c 3) W') $$ [Hq2 Hpeer4 HO HtS2 HtV2]
  · isplitr; · iexact HR
    isplitl [Hq2]; · iexact Hq2
    isplitl [Hpeer4]; · iexact Hpeer4
    isplitl [HO]; · iexact HO
    isplitl [HtS2]; · iexact HtS2
    iexact HtV2
  iintro ⟨HcS2, HO⟩
  -- copy 3: row c into row c of the device 4 places on (that row came with duty 3 of the barrier round)
  iapply (wp_snd m ρ K c 3 _ (dev11_eq c) (bk 3 c) (bk_rev_eq_sh 3 c) _ _ semS3 semR3 fb3 (rT c 6 + rT c 5 + rT c 4) W') $$ [Hq3 Hpeer3 HO HtS3 HtV3]
  · isplitr; · iexact HR
    isplitl [Hq3]; · iexact Hq3
    isplitl [Hpeer3]; · iexact Hpeer3
    isplitl [HO]; · iexact HO
    isplitl [HtS3]; · iexact HtS3
    iexact HtV3
  iintro ⟨HcS3, HO⟩
  -- copy 4: row c into row c of the device 5 places on (that row came with duty 2 of the barrier round)
  iapply (wp_snd m ρ K c 4 _ (dev12_eq c) (bk 2 c) (bk_rev_eq_sh 4 c) _ _ semS4 semR4 fb2 (rT c 6 + rT c 5) W') $$ [Hq4 Hpeer2 HO HtS4 HtV4]
  · isplitr; · iexact HR
    isplitl [Hq4]; · iexact Hq4
    isplitl [Hpeer2]; · iexact Hpeer2
    isplitl [HO]; · iexact HO
    isplitl [HtS4]; · iexact HtS4
    iexact HtV4
  iintro ⟨HcS4, HO⟩
  -- copy 5: row c into row c of the device 6 places on (that row came with duty 1 of the barrier round)
  iapply (wp_snd m ρ K c 5 _ (dev13_eq c) (bk 1 c) (bk_rev_eq_sh 5 c) _ _ semS5 semR5 fb1 (rT c 6) W') $$ [Hq5 Hpeer1 HO HtS5 HtV5]
  · isplitr; · iexact HR
    isplitl [Hq5]; · iexact Hq5
    isplitl [Hpeer1]; · iexact Hpeer1
    isplitl [HO]; · iexact HO
    isplitl [HtS5]; · iexact HtS5
    iexact HtV5
  iintro ⟨HcS5, HO⟩
  -- copy 6: row c into row c of the device 7 places on (that row came with duty 0 of the barrier round)
  iapply (wp_snd m ρ K c 6 _ (dev14_eq c) (bk 0 c) (bk_rev_eq_sh 6 c) _ _ semS6 semR6 fb0 0 W') $$ [Hq6 Hpeer0 HO HtS6 HtV6]
  · isplitr; · iexact HR
    isplitl [Hq6]; · iexact Hq6
    isplitl [Hpeer0]; · iexact Hpeer0
    isplitl [HO]; · rw [zero_add]; iexact HO
    isplitl [HtS6]; · iexact HtS6
    iexact HtV6
  iintro ⟨HcS6, HO⟩
  -- between the halves
  iapply Hk
  unfold midPt
  simp only [bigSep_fin7]
  isplitr; · iexact HR
  isplitr; · iexact Hlev
  isplitl [HatS0 HatS1 HatS2 HatS3 HatS4 HatS5 HatS6]
  · isplitl [HatS0]; · iexact HatS0
    isplitl [HatS1]; · iexact HatS1
    isplitl [HatS2]; · iexact HatS2
    isplitl [HatS3]; · iexact HatS3
    isplitl [HatS4]; · iexact HatS4
    isplitl [HatS5]; · iexact HatS5
    iexact HatS6
  isplitl [HatV0 HatV1 HatV2 HatV3 HatV4 HatV5 HatV6]
  · isplitl [HatV0]; · iexact HatV0
    isplitl [HatV1]; · iexact HatV1
    isplitl [HatV2]; · iexact HatV2
    isplitl [HatV3]; · iexact HatV3
    isplitl [HatV4]; · iexact HatV4
    isplitl [HatV5]; · iexact HatV5
    iexact HatV6
  isplitl [HcS0 HcS1 HcS2 HcS3 HcS4 HcS5 HcS6]
  · isplitl [HcS0]; · iexact HcS0
    isplitl [HcS1]; · iexact HcS1
    isplitl [HcS2]; · iexact HcS2
    isplitl [HcS3]; · iexact HcS3
    isplitl [HcS4]; · iexact HcS4
    isplitl [HcS5]; · iexact HcS5
    iexact HcS6
  isplitl [HcV0 HcV1 HcV2 HcV3 HcV4 HcV5 HcV6]
  · isplitl [HcV0]; · iexact HcV0
    isplitl [HcV1]; · iexact HcV1
    isplitl [HcV2]; · iexact HcV2
    isplitl [HcV3]; · iexact HcV3
    isplitl [HcV4]; · iexact HcV4
    isplitl [HcV5]; · iexact HcV5
    iexact HcV6
  isplitl [HO]; · iexists W'; iexact HO
  isplitl [Hx]; · iexact Hx
  iexists g1; iexact Hout

end Cert.Kernel.Gather

end
-- ==== Proof.Bits.Second.lean ====
/-
  The second half of a device's body: the seven waits for the rows arriving from its peers,
  the seven waits for its own copies to have left, and the sum of the eight gathered rows.
-/
import proofs.«901092_g7700000000001093_dist_sum_ax0_shard0_i_m512_n256_v7x_i8_bf16_1_alg».proof.Proof.Bits.Mid
import proofs.«901092_g7700000000001093_dist_sum_ax0_shard0_i_m512_n256_v7x_i8_bf16_1_alg».proof.Proof.Bits.Rows
import proofs.«901092_g7700000000001093_dist_sum_ax0_shard0_i_m512_n256_v7x_i8_bf16_1_alg».proof.Proof.Gen.Kernel.Skeleton
import Idealize.ShloMosaic.Lib.Tactic
import Idealize.ShloMosaic.Lib.Pipeline.Launch

noncomputable section

namespace Cert.Kernel.Gather

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] duties_send duties_recv amount_send amount_recv expect_send expect_recv payload_send payload_recv rest_send rest_recv

/-- The invariants of a device's receive and send cells, from the records every device knows. -/
theorem inv_recv (K : Dev nD × Fin 15 → ℕ) (c : Dev nD) (j : Fin 7) :
    records m ρ K ⊢ cellInv ER (sched m ρ) (K (c, iR j)) (recvCell c j) := by
  unfold records
  rw [← kcell_iR c j]
  iintro ⟨H, _⟩
  iapply (show bigSep Finset.univ (fun ck : Dev nD × Fin 15 => cellInv ER (sched m ρ) (K ck) (kcell ck))
    ⊢ cellInv ER (sched m ρ) (K (c, iR j)) (kcell (c, iR j)) from BI.bigSep_elim (Finset.mem_univ (c, iR j)))
  iexact H

theorem inv_send (K : Dev nD × Fin 15 → ℕ) (c : Dev nD) (j : Fin 7) :
    records m ρ K ⊢ cellInv ER (sched m ρ) (K (c, iS j)) (sendCell c j) := by
  unfold records
  rw [← kcell_iS c j]
  iintro ⟨H, _⟩
  iapply (show bigSep Finset.univ (fun ck : Dev nD × Fin 15 => cellInv ER (sched m ρ) (K ck) (kcell ck))
    ⊢ cellInv ER (sched m ρ) (K (c, iS j)) (kcell (c, iS j)) from BI.bigSep_elim (Finset.mem_univ (c, iS j)))
  iexact H

/-- Closing a cell of one's own that has no duty after round 0, from its position at round 1. -/
theorem close_recv (K : Dev nD × Fin 15 → ℕ) (c : Dev nD) (j : Fin 7) :
    iprop(records m ρ K ∗ atPos ER (recvCell c j) 1 ∅ 0) ⊢ iprop(|={Set.univ}=> semVal (recvCell c j) 0) := by
  iintro ⟨#Hrec, Hat⟩
  ihave #HI := (inv_recv m ρ K c j) $$ Hrec
  iapply (Rounds.cell_close ER (sched m ρ) (Set.mem_univ _) (fun h => h) (R := 1) (duties_later m ρ _))
  isplitr
  · iexact HI
  · iexact Hat

theorem close_send (K : Dev nD × Fin 15 → ℕ) (c : Dev nD) (j : Fin 7) :
    iprop(records m ρ K ∗ atPos ER (sendCell c j) 1 ∅ 0) ⊢ iprop(|={Set.univ}=> semVal (sendCell c j) 0) := by
  iintro ⟨#Hrec, Hat⟩
  ihave #HI := (inv_send m ρ K c j) $$ Hrec
  iapply (Rounds.cell_close ER (sched m ρ) (Set.mem_univ _) (fun h => h) (R := 1) (duties_later m ρ _))
  isplitr
  · iexact HI
  · iexact Hat

/-- The seven lent shares of a device's own row, back, are the row held whole. -/
theorem own_row (c : Dev nD) :
    iprop(sendPay m ρ c 0 ∗ sendPay m ρ c 1 ∗ sendPay m ρ c 2 ∗ sendPay m ρ c 3 ∗ sendPay m ρ c 4 ∗ sendPay m ρ c 5 ∗ sendPay m ρ c 6)
      ⊢ rowPts c c fullShare (gath m ρ) := by
  have h := (rowPts_shares (F := F) c c (gath m ρ)).2
  rw [bigSep_fin7] at h
  exact h

/-- The own row and the seven arrived rows are the whole gather buffer, holding the gathered array. -/
theorem buffer_joined (c : Dev nD) :
    iprop((sendPay m ρ c 0 ∗ sendPay m ρ c 1 ∗ sendPay m ρ c 2 ∗ sendPay m ρ c 3 ∗ sendPay m ρ c 4 ∗ sendPay m ρ c 5 ∗ sendPay m ρ c 6)
        ∗ recvPay m ρ c 0 ∗ recvPay m ρ c 1 ∗ recvPay m ρ c 2 ∗ recvPay m ρ c 3 ∗ recvPay m ρ c 4 ∗ recvPay m ρ c 5 ∗ recvPay m ρ c 6)
      ⊢ ((cM : Memref sig .tc .vmem S8x256 .f32).view.loc (c : Thread nD τ) ↦{fullShare} gath m ρ : sProp 𝕄) := by
  have h := rows_join (F := F) c (gath m ρ)
  rw [bigSep_fin7] at h
  exact (sep_mono_l (own_row m ρ c)).trans h

/-- A whole staging buffer, read through its memref. -/
theorem xM_view (c : Dev nD) (f : Buf (Elt F) ((c : Thread nD τ).loc cc0_stg0_0)) :
    (((c : Thread nD τ).loc cc0_stg0_0) ↦{fullShare} f : sProp 𝕄)
      ⊢ ((xM : Memref sig .tc .vmem S512x256 .f32).view.loc (c : Thread nD τ) ↦{fullShare} f) := .rfl
theorem oM_view (c : Dev nD) (f : Buf (Elt F) ((c : Thread nD τ).loc cc0_stg1_0)) :
    (((c : Thread nD τ).loc cc0_stg1_0) ↦{fullShare} f : sProp 𝕄)
      ⊢ ((oM : Memref sig .tc .vmem S1x256 .f32).view.loc (c : Thread nD τ) ↦{fullShare} f) := .rfl

/-- What the last store leaves in the staged output: the column sums of the gathered array. -/
theorem out_written (g : (cc0_stg1_0 : Ref sig .tc).ty.Contents (Elt F)) :
    (oM : Memref sig .tc .vmem S1x256 .f32).view.writes (Elt F) g
      [⟨Rect.unit (s := S1x256) ![0, 0] S1x256.size inb_S1x256_S1x256_0_0,
        k0_pay1 ((cM : Memref sig .tc .vmem S8x256 .f32).view.readAt (Elt F)
          (Rect.unit (s := S8x256) ![0, 0] S8x256.size inb_S8x256_S8x256_0_0).toLoadRect (gath m ρ))⟩]
      = outv m ρ := by
  rw [View.writes_singleton]
  have hr : (cM : Memref sig .tc .vmem S8x256 .f32).view.readAt (Elt F)
      (Rect.unit (s := S8x256) ![0, 0] S8x256.size inb_S8x256_S8x256_0_0).toLoadRect (gath m ρ) = gath m ρ :=
    Memref.readAt_unit_zero (Elt F) cc0_scratch0 (by funext a; fin_cases a <;> rfl) inb_S8x256_S8x256_0_0 (gath m ρ)
  rw [hr]
  exact Memref.write_access_unit_zero_univ (Elt F) cc0_stg1_0 (by funext a; fin_cases a <;> rfl) inb_S1x256_S1x256_0_0 g (k0_pay1 (gath m ρ))

/-- What the device ends in, put together. -/
theorem post_assemble (c : Dev nD) (W' : Waits sig Unit) (g : Buf (Elt F) ((c : Thread nD τ).loc cc0_stg1_0)) :
    iprop(((cM : Memref sig .tc .vmem S8x256 .f32).view.loc (c : Thread nD τ) ↦{fullShare} gath m ρ)
        ∗ (semVal (sendCell c 0) 0 ∗ semVal (sendCell c 1) 0 ∗ semVal (sendCell c 2) 0 ∗ semVal (sendCell c 3) 0
            ∗ semVal (sendCell c 4) 0 ∗ semVal (sendCell c 5) 0 ∗ semVal (sendCell c 6) 0)
        ∗ (semVal (recvCell c 0) 0 ∗ semVal (recvCell c 1) 0 ∗ semVal (recvCell c 2) 0 ∗ semVal (recvCell c 3) 0
            ∗ semVal (recvCell c 4) 0 ∗ semVal (recvCell c 5) 0 ∗ semVal (recvCell c 6) 0)
        ∗ owes (c : Thread nD τ) 0 W'
        ∗ ((xM : Memref sig .tc .vmem S512x256 .f32).view.loc (c : Thread nD τ) ↦{fullShare} xstg m ρ c)
        ∗ ((oM : Memref sig .tc .vmem S1x256 .f32).view.loc (c : Thread nD τ) ↦{fullShare}
            (oM : Memref sig .tc .vmem S1x256 .f32).view.writes (Elt F) g
              [⟨Rect.unit (s := S1x256) ![0, 0] S1x256.size inb_S1x256_S1x256_0_0,
                k0_pay1 ((cM : Memref sig .tc .vmem S8x256 .f32).view.readAt (Elt F)
                  (Rect.unit (s := S8x256) ![0, 0] S8x256.size inb_S8x256_S8x256_0_0).toLoadRect (gath m ρ))⟩]))
      ⊢ bodyPost m ρ c := by
  rw [out_written m ρ g]
  unfold bodyPost Φ₁ cPts
  rw [bigSep_fin7, bigSep_fin7]
  iintro ⟨Hb, Hs, Hr, HO, Hx, Ho⟩
  isplitl [Hb Hs Hr]
  · isplitl [Hb]; · iexact Hb
    isplitl [Hs]; · iexact Hs
    iexact Hr
  isplitl [HO]
  · iexists W'
    isplitr; · ipureintro; exact fun _ _ => Or.inl trivial
    iexact HO
  isplitl [Hx]
  · iexists _
    isplitr; · ipureintro; rfl
    iexact Hx
  · iexists _
    isplitr; · ipureintro; rfl
    iexact Ho

theorem second_half (K : Dev nD × Fin 15 → ℕ) (c : Dev nD) (Kt : PUnit → sProp 𝕄) :
    iprop(midPt m ρ K c ∗ (bodyPost m ρ c -∗ Kt ⟨⟩))
      ⊢ wp frame (wpE (defs₀ (F := F)) 𝒱₀ (c : Thread nD τ) none) Set.univ (second (F := F) c (v2w c)) Kt := by
  unfold midPt
  simp only [bigSep_fin7]
  iintro ⟨⟨#Hrec, #Hlev, HatS, HatR, HcS, HcR, ⟨%W, HO⟩, Hx, ⟨%g, Ho⟩⟩, Hk⟩
  unfold second
  simp only [k0_part5_eq_skeleton, k0_part6_eq_skeleton, k0_part7_eq_skeleton]
  unfold k0_part5_skel k0_part6_skel k0_part7_skel
  simp only [Prog.lift, Prog.bind_op, Prog.bind_ret, Prog.pure_eq_ret]
  ihave #HIr0 := (inv_recv m ρ K c 0) $$ Hrec
  ihave #HIr1 := (inv_recv m ρ K c 1) $$ Hrec
  ihave #HIr2 := (inv_recv m ρ K c 2) $$ Hrec
  ihave #HIr3 := (inv_recv m ρ K c 3) $$ Hrec
  ihave #HIr4 := (inv_recv m ρ K c 4) $$ Hrec
  ihave #HIr5 := (inv_recv m ρ K c 5) $$ Hrec
  ihave #HIr6 := (inv_recv m ρ K c 6) $$ Hrec
  ihave #HIs0 := (inv_send m ρ K c 0) $$ Hrec
  ihave #HIs1 := (inv_send m ρ K c 1) $$ Hrec
  ihave #HIs2 := (inv_send m ρ K c 2) $$ Hrec
  ihave #HIs3 := (inv_send m ρ K c 3) $$ Hrec
  ihave #HIs4 := (inv_send m ρ K c 4) $$ Hrec
  ihave #HIs5 := (inv_send m ρ K c 5) $$ Hrec
  ihave #HIs6 := (inv_send m ρ K c 6) $$ Hrec
  icases HatS with ⟨HatS0, HatS1, HatS2, HatS3, HatS4, HatS5, HatS6⟩
  icases HatR with ⟨HatR0, HatR1, HatR2, HatR3, HatR4, HatR5, HatR6⟩
  icases HcS with ⟨HcS0, HcS1, HcS2, HcS3, HcS4, HcS5, HcS6⟩
  icases HcR with ⟨HcR0, HcR1, HcR2, HcR3, HcR4, HcR5, HcR6⟩
  -- the fourteen waits
  sl_exec
  -- the fourteen cells, closed
  imod (close_send m ρ K c 0) $$ [HatS0] with Hs0
  · isplitr
    · iexact Hrec
    · iexact HatS0
  imod (close_send m ρ K c 1) $$ [HatS1] with Hs1
  · isplitr
    · iexact Hrec
    · iexact HatS1
  imod (close_send m ρ K c 2) $$ [HatS2] with Hs2
  · isplitr
    · iexact Hrec
    · iexact HatS2
  imod (close_send m ρ K c 3) $$ [HatS3] with Hs3
  · isplitr
    · iexact Hrec
    · iexact HatS3
  imod (close_send m ρ K c 4) $$ [HatS4] with Hs4
  · isplitr
    · iexact Hrec
    · iexact HatS4
  imod (close_send m ρ K c 5) $$ [HatS5] with Hs5
  · isplitr
    · iexact Hrec
    · iexact HatS5
  imod (close_send m ρ K c 6) $$ [HatS6] with Hs6
  · isplitr
    · iexact Hrec
    · iexact HatS6
  imod (close_recv m ρ K c 0) $$ [HatR0] with Hr0
  · isplitr
    · iexact Hrec
    · iexact HatR0
  imod (close_recv m ρ K c 1) $$ [HatR1] with Hr1
  · isplitr
    · iexact Hrec
    · iexact HatR1
  imod (close_recv m ρ K c 2) $$ [HatR2] with Hr2
  · isplitr
    · iexact Hrec
    · iexact HatR2
  imod (close_recv m ρ K c 3) $$ [HatR3] with Hr3
  · isplitr
    · iexact Hrec
    · iexact HatR3
  imod (close_recv m ρ K c 4) $$ [HatR4] with Hr4
  · isplitr
    · iexact Hrec
    · iexact HatR4
  imod (close_recv m ρ K c 5) $$ [HatR5] with Hr5
  · isplitr
    · iexact Hrec
    · iexact HatR5
  imod (close_recv m ρ K c 6) $$ [HatR6] with Hr6
  · isplitr
    · iexact Hrec
    · iexact HatR6
  -- the buffer, whole again
  ihave Hbuf := (buffer_joined m ρ c) $$ [HatS0_pay1 HatS1_pay1 HatS2_pay1 HatS3_pay1 HatS4_pay1 HatS5_pay1 HatS6_pay1 HatR0_pay1 HatR1_pay1 HatR2_pay1 HatR3_pay1 HatR4_pay1 HatR5_pay1 HatR6_pay1]
  · isplitl [HatS0_pay1 HatS1_pay1 HatS2_pay1 HatS3_pay1 HatS4_pay1 HatS5_pay1 HatS6_pay1]
    · isplitl [HatS0_pay1]; · iexact HatS0_pay1
      isplitl [HatS1_pay1]; · iexact HatS1_pay1
      isplitl [HatS2_pay1]; · iexact HatS2_pay1
      isplitl [HatS3_pay1]; · iexact HatS3_pay1
      isplitl [HatS4_pay1]; · iexact HatS4_pay1
      isplitl [HatS5_pay1]; · iexact HatS5_pay1
      iexact HatS6_pay1
    · isplitl [HatR0_pay1]; · iexact HatR0_pay1
      isplitl [HatR1_pay1]; · iexact HatR1_pay1
      isplitl [HatR2_pay1]; · iexact HatR2_pay1
      isplitl [HatR3_pay1]; · iexact HatR3_pay1
      isplitl [HatR4_pay1]; · iexact HatR4_pay1
      isplitl [HatR5_pay1]; · iexact HatR5_pay1
      iexact HatR6_pay1
  ihave Hx' := (xM_view c _) $$ Hx
  ihave Ho' := (oM_view c _) $$ Ho
  -- the sum of the eight rows, stored
  sl_exec
  sl_step
  iapply Hk
  iapply (post_assemble m ρ c _ g)
  isplitl [Hbuf]; · iexact Hbuf
  isplitl [Hs0 Hs1 Hs2 Hs3 Hs4 Hs5 Hs6]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hs6
  isplitl [Hr0 Hr1 Hr2 Hr3 Hr4 Hr5 Hr6]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    iexact Hr6
  isplitl [HO]; · iexact HO
  isplitl [Hx']; · iexact Hx'
  iexact Ho'

/-- info: 'Cert.Kernel.Gather.second_half' depends on axioms: [propext, Classical.choice, Quot.sound] -/
#guard_msgs in #print axioms second_half

end Cert.Kernel.Gather

end
-- ==== Proof.Bits.Body.lean ====
/-
  The body of the kernel on device c, whole: its two halves in sequence, and the form in which
  the launch asks for it.
-/
import proofs.«901092_g7700000000001093_dist_sum_ax0_shard0_i_m512_n256_v7x_i8_bf16_1_alg».proof.Proof.Bits.First
import proofs.«901092_g7700000000001093_dist_sum_ax0_shard0_i_m512_n256_v7x_i8_bf16_1_alg».proof.Proof.Bits.Second

noncomputable section

namespace Cert.Kernel.Gather

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body on device c from its ghost state opened at the names K: the first half leaves the
    device between the halves, the second half takes it to the end. -/
theorem sound_body (K : Dev nD × Fin 15 → ℕ) (c : Dev nD)
    (hmw : (levAts L lv : sProp 𝕄) ⊢ MayWait (c : Thread nD τ) (.reg barS) () (OR c)) (Kt : PUnit → sProp 𝕄) :
    iprop(bodyPre m ρ K c ∗ (bodyPost m ρ c -∗ Kt ⟨⟩))
      ⊢ wp frame (wpE (defs₀ (F := F)) 𝒱₀ (c : Thread nD τ) none) Set.univ (bodyAt (F := F)) Kt := by
  iintro ⟨Hpre, Hk⟩
  iapply (first_half m ρ K c hmw Kt)
  isplitl [Hpre]; · iexact Hpre
  iintro Hmid
  iapply (second_half m ρ K c Kt)
  isplitl [Hmid]; · iexact Hmid
  iexact Hk

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the launch hands the body at the one point of the grid. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The body obligation of device c, given that its barrier cell sits below the receive cells
    it still owes at its barrier wait. -/
theorem body_obligation (hmw : ∀ c : Dev nD, (levAts L lv : sProp 𝕄) ⊢ MayWait (c : Thread nD τ) (.reg barS) () (OR c)) (c : Dev nD) :
    BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ (bodyAt (F := F)) (fun _ => bodyPost m ρ c)
  unfold bodyPre' Φ₀ start
  iintro ⟨⟨⟨⟨%K, Hg⟩, Hrest⟩, Hscr⟩, Ho, Hx, Hout⟩
  iapply (sound_body m ρ K c (hmw c) fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Cert.Kernel.Gather

end
-- ==== Proof.Bits.Fund.lean ====
/-
  The all-gather-and-sum kernel on the eight-device mesh: the ghost state at launch.

  The rounds algebra's initial element holds, for each of the 8 x 15 cells, its round state at
  counter zero, the fact that round 0 is reached and the owner's position at the start of round
  0; and one token per duty: per device the seven duties of its barrier cell and the single
  duty of each of its seven send and seven receive cells.  It is dealt device by device.  The
  global step then puts every cell's counter (at zero) together with its round state under an
  invariant, and hands every token to the device that PAYS its duty: duty k of the barrier cell
  of device g to the device k+1 places before g, the duty of g's j-th receive cell to the device
  j+1 places before g, while a send cell's duty stays with its owner.  Moving k+1 places on is a
  bijection of the mesh, so each of these deals is a re-indexing of one big separating
  conjunction over the devices.
-/
import proofs.«901092_g7700000000001093_dist_sum_ax0_shard0_i_m512_n256_v7x_i8_bf16_1_alg».proof.Proof.Bits.Proto
import Idealize.ShloMosaic.Lib.Pipeline.Launch
import Idealize.ShloMosaic.Lib.Pipeline.Kit
import Idealize.ShloMosaic.Lib.Tactic

noncomputable section

namespace Cert.Kernel.Gather

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Index bookkeeping -/

theorem ownSemFacts : Pipeline.OwnSemFacts cfg0.spec osem := by decide

/-- Moving k+1 places on, as a bijection of the mesh. -/
def shE (k : Fin 7) : Dev nD ≃ Dev nD := ⟨sh k, bk k, bk_sh k, sh_bk k⟩

/-- The fifteen positions of a device's cells: the barrier cell, the seven send cells, the seven
    receive cells. -/
def cellIx : Unit ⊕ (Fin 7 ⊕ Fin 7) → Fin 15
  | .inl _ => iB
  | .inr (.inl j) => iS j
  | .inr (.inr j) => iR j
def ixCell (i : Fin 15) : Unit ⊕ (Fin 7 ⊕ Fin 7) :=
  if i.val = 0 then .inl ()
  else if h : i.val < 8 then .inr (.inl ⟨i.val - 1, by omega⟩)
  else .inr (.inr ⟨i.val - 8, by have := i.isLt; omega⟩)
def e15 : Unit ⊕ (Fin 7 ⊕ Fin 7) ≃ Fin 15 :=
  ⟨cellIx, ixCell, fun x => by revert x; decide, fun i => by revert i; decide⟩

/-- The fourteen own semaphores: the seven send, then the seven receive. -/
def ownIx : Fin 7 ⊕ Fin 7 → Fin 14
  | .inl j => ⟨j.val, by have := j.isLt; omega⟩
  | .inr j => ⟨7 + j.val, by have := j.isLt; omega⟩
def ixOwn (i : Fin 14) : Fin 7 ⊕ Fin 7 :=
  if h : i.val < 7 then .inl ⟨i.val, h⟩ else .inr ⟨i.val - 7, by have := i.isLt; omega⟩
def e14 : Fin 7 ⊕ Fin 7 ≃ Fin 14 :=
  ⟨ownIx, ixOwn, fun x => by revert x; decide, fun i => by revert i; decide⟩

omit [FloatOps F] in
theorem osem_send (j : Fin 7) : osem (e14 (.inl j)) = .dma (sendS j) := by revert j; decide
omit [FloatOps F] in
theorem osem_recv (j : Fin 7) : osem (e14 (.inr j)) = .dma (recvS j) := by revert j; decide

omit [FloatOps F] in
/-- A conjunction over a device's fifteen cells, by kind of cell. -/
theorem bigSep_fin15 (Φ : Fin 15 → sProp 𝕄) :
    bigSep Finset.univ Φ = iprop(Φ iB ∗ (bigSep Finset.univ fun j : Fin 7 => Φ (iS j)) ∗ bigSep Finset.univ fun j : Fin 7 => Φ (iR j)) := by
  rw [bigSep_univ_equiv e15 Φ, bigSep_univ_sum, bigSep_univ_sum, bigSep_univ_of_subsingleton ()]
  rfl

omit [FloatOps F] in
/-- Dealing along the bijections "k+1 places on": a double conjunction over devices and duties,
    re-indexed duty by duty. -/
theorem bigSep_deal (Φ : Dev nD → Fin 7 → sProp 𝕄) :
    (bigSep Finset.univ fun c : Dev nD => bigSep Finset.univ fun k : Fin 7 => Φ c k)
      = bigSep Finset.univ fun c : Dev nD => bigSep Finset.univ fun k : Fin 7 => Φ (sh k c) k := by
  rw [bigSep_univ_comm, bigSep_univ_comm (fun c k => Φ (sh k c) k)]
  exact bigSep_congr fun k _ => bigSep_univ_equiv (shE k) (fun c => Φ c k)

omit [FloatOps F] in
theorem csem_injective : Function.Injective (csem : Fin 15 → SemLoc sig) := by decide

omit [FloatOps F] in
theorem kcell_injective : Function.Injective (kcell : Dev nD × Fin 15 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The cells of the protocol: every device's fifteen. -/
def ringCells : Finset (GSem nD τ sig) := Finset.univ.map ⟨kcell, kcell_injective⟩

/-- The duty tokens as minted, by (owner, duty): the seven duties of its barrier cell, the single
    duty of each of its send cells and of each of its receive cells. -/
def tokOf (cs : Dev nD × (Fin 7 ⊕ (Fin 7 ⊕ Fin 7))) : GSem nD τ sig × ℕ × Fin 7 := match cs.2 with
  | .inl k => (barCell cs.1, 0, k)
  | .inr (.inl j) => (sendCell cs.1 j, 0, 0)
  | .inr (.inr j) => (recvCell cs.1 j, 0, 0)

omit [FloatOps F] in
theorem tokOf_injective : Function.Injective (tokOf : Dev nD × (Fin 7 ⊕ (Fin 7 ⊕ Fin 7)) → GSem nD τ sig × ℕ × Fin 7) := by
  rintro ⟨c, s⟩ ⟨c', s'⟩ h
  have h1 : c = c' := by
    have := congrArg (fun x : GSem nD τ sig × ℕ × Fin 7 => x.1.1.1) h
    rcases s with k | j | j <;> rcases s' with k' | j' | j' <;> exact this
  subst h1
  have h2 := congrArg (fun x : GSem nD τ sig × ℕ × Fin 7 => x.1.2) h
  have h3 := congrArg (fun x : GSem nD τ sig × ℕ × Fin 7 => x.2.2) h
  rcases s with k | j | j <;> rcases s' with k' | j' | j'
  · have : k = k' := h3
    rw [this]
  · exact absurd h2.symm (send_ne_bar j')
  · exact absurd h2.symm (recv_ne_bar j')
  · exact absurd h2 (send_ne_bar j)
  · have : j = j' := sendS_inj (SemLoc.dma.inj h2)
    rw [this]
  · exact absurd h2 (send_ne_recv j j')
  · exact absurd h2 (recv_ne_bar j)
  · exact absurd h2.symm (send_ne_recv j' j)
  · have : j = j' := recvS_inj (SemLoc.dma.inj h2)
    rw [this]

def ringToks : Finset (GSem nD τ sig × ℕ × Fin 7) := Finset.univ.map ⟨tokOf, tokOf_injective⟩

/-- The launch element: the pipeline library's, and the protocol's over those cells and tokens. -/
def u₀ : UU :=
  (initOf (Pipeline.cells cfgs cellOf_inj) (Pipeline.launchToks cfgs cellOf_inj), initOf ringCells ringToks)

/-! ## What the launch element deals each device -/

/-- The duty tokens of device c's own cells. -/
def toks (c : Dev nD) : sProp 𝕄 :=
  iprop((bigSep Finset.univ fun k : Fin 7 => dutyTok ER (barCell c) 0 k)
    ∗ (bigSep Finset.univ fun j : Fin 7 => dutyTok ER (sendCell c j) 0 (0 : Fin 7))
    ∗ (bigSep Finset.univ fun j : Fin 7 => dutyTok ER (recvCell c j) 0 (0 : Fin 7)))

/-- Device c's deal: the round states of its fifteen cells at counter zero, its position at the
    start of round 0 of each with the fact that the round is reached, and its own cells' tokens. -/
def G (c : Dev nD) : sProp 𝕄 :=
  iprop((bigSep Finset.univ fun i : Fin 15 => roundState ER (sched m ρ) (kcell (c, i)) 0)
    ∗ (bigSep Finset.univ fun i : Fin 15 => iprop(atPos ER (kcell (c, i)) 0 ∅ 0 ∗ reached ER (kcell (c, i)) 0)) ∗ toks c)

/-- What the global step makes of it. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun i : Fin 15 => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element, dealt: the pipeline library's half as it stands, the protocol's half
    device by device. -/
theorem hu₀ : (ownU (u₀) : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  imod (fund_ring m ρ) $$ HX with HG
  imodintro
  isplitl [HP] <;> iassumption

/-! ## The semaphores at zero -/

omit [FloatOps F] in
/-- The kernel's own semaphores are the seven send and the seven receive semaphores; -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 7 => semVal (sendCell c j) 0) ∗ bigSep Finset.univ fun j : Fin 7 => semVal (recvCell c j) 0) := by
  unfold Pipeline.ownSems0
  rw [bigSep_univ_equiv e14, bigSep_univ_sum]
  simp only [osem_send, osem_recv]
  rfl
omit [FloatOps F] in
/-- the barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 15 => semVal (kcell (c, i)) 0 : sProp 𝕄) := by
  rw [ownSems0_eq, unscopedSems0_eq, bigSep_fin15]
  simp only [kcell_iB, kcell_iS, kcell_iR]
  iintro ⟨⟨HS, HV⟩, HB⟩
  isplitl [HB]; · iexact HB
  isplitl [HS] <;> iassumption

/-! ## The global step -/

/-- One device: each cell's counter at zero and round state go under an invariant. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i => iprop(∃ κ : ℕ, cellInv ER (sched m ρ) κ (kcell (c, i))))
          ∗ (bigSep Finset.univ fun i => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : Fin 15 => semVal (kcell (c, i)) 0) ∗ bigSep Finset.univ fun i : Fin 15 => roundState ER (sched m ρ) (kcell (c, i)) 0)
      ⊢ (|={Set.univ}=> bigSep Finset.univ fun i => iprop(∃ κ : ℕ, cellInv ER (sched m ρ) κ (kcell (c, i))) : sProp 𝕄) from by
        rw [← bigSep_sep']
        exact (bigSep_mono fun i _ => (Rounds.body_intro ER (sched m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens dealt to their payers. -/
theorem toks_around : (bigSep Finset.univ fun c : Dev nD => (toks c : sProp 𝕄)) = bigSep Finset.univ fun c : Dev nD => payToks c := by
  unfold toks payToks
  rw [bigSep_sep', bigSep_sep', bigSep_sep', bigSep_sep',
    bigSep_deal (fun c k => (dutyTok ER (barCell c) 0 k : sProp 𝕄)),
    bigSep_deal (fun c j => (dutyTok ER (recvCell c j) 0 (0 : Fin 7) : sProp 𝕄))]

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- With the records (persistent, the same for every device) a device's linear part is its
    ghost state. -/
theorem ghost_intro (K : Dev nD × Fin 15 → ℕ) (c : Dev nD) : iprop(records m ρ K ∗ linear c) ⊢ G' m ρ c := by
  unfold G' ghost
  iintro H
  iexists K
  iexact H

/-- All devices: the names chosen, the records shared out, the tokens with their payers. -/
theorem regroup :
    (bigSep Finset.univ fun c : Dev nD => iprop((bigSep Finset.univ fun i => iprop(∃ κ : ℕ, cellInv ER (sched m ρ) κ (kcell (c, i))))
          ∗ (bigSep Finset.univ fun i => iprop(atPos ER (kcell (c, i)) 0 ∅ 0 ∗ reached ER (kcell (c, i)) 0)) ∗ toks c) : sProp 𝕄)
      ⊢ bigSep Finset.univ (G' m ρ) := by
  rw [bigSep_sep', bigSep_sep', ← bigSep_univ_prod (fun ck : Dev nD × Fin 15 => iprop(∃ κ : ℕ, cellInv ER (sched m ρ) κ (kcell ck))),
    bigSep_congr (s := Finset.univ) (fun (c : Dev nD) _ => bigSep_sep' Finset.univ (fun i : Fin 15 => (atPos ER (kcell (c, i)) 0 ∅ 0 : sProp 𝕄)) (fun i => reached ER (kcell (c, i)) 0)),
    bigSep_sep', ← bigSep_univ_prod (fun ck : Dev nD × Fin 15 => (reached ER (kcell ck) 0 : sProp 𝕄)), toks_around]
  iintro ⟨HI, ⟨Hat, #HR⟩, Htk⟩
  ihave HK := (BI.bigSep_exists_pi Finset.univ (fun (ck : Dev nD × Fin 15) (κ : ℕ) => (cellInv ER (sched m ρ) κ (kcell ck) : sProp 𝕄))) $$ HI
  icases HK with ⟨%K, #HI⟩
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun i : Fin 15 => (atPos ER (kcell (c, i)) 0 ∅ 0 : sProp 𝕄)) payToks).symm).trans
      (bigSep_mono fun c _ => show _ ⊢ linear c from Entails.of_eq (by unfold linear; rw [bigSep_fin15]; simp only [kcell_iB, kcell_iS, kcell_iR])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- info: 'Cert.Kernel.Gather.hu₀' depends on axioms: [propext, Classical.choice, Quot.sound] -/
#guard_msgs in #print axioms hu₀

/-- info: 'Cert.Kernel.Gather.glob' depends on axioms: [propext, Classical.choice, Quot.sound] -/
#guard_msgs in #print axioms glob

end Cert.Kernel.Gather

end
-- ==== Proof.Bits.Launch.lean ====
/-
  The all-gather-and-sum kernel on the eight-device mesh: the launch.

  Each device's body is taken as proved from its starting ghost state; here the mesh-wide
  statement is assembled.  What a device owes at launch is paid to cells of other devices, and
  the credit the launch deals a device is exactly what the seven peers owe its barrier cell
  (one unit each) and its seven receive cells (one row's credit each).  The levels put the
  barrier cells below the receive cells and everything a device waits on in between below
  both, so no wait is blocked by what the waiter still owes.  After the run the input block is
  unchanged and the result array holds the column sums of the gathered array.
-/
import proofs.«901092_g7700000000001093_dist_sum_ax0_shard0_i_m512_n256_v7x_i8_bf16_1_alg».proof.Proof.Bits.Proto
import Idealize.ShloMosaic.Lib.Pipeline.Launch
import Idealize.ShloMosaic.Lib.Pipeline.Kit
import Idealize.ShloMosaic.Lib.Pipeline.Cells
import Idealize.ShloMosaic.Lib.Pipeline.Value
import Idealize.ShloMosaic.Lib.Tactic

noncomputable section

namespace Cert.Kernel.Gather

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device owes at launch; the levels -/

omit [FloatOps F] in
theorem L_of_ne (g : GSem nD τ sig) (h : g.1.2 ≠ .tc) : L g = ∅ := if_neg h
omit [FloatOps F] in
theorem L_tc (c : Dev nD) (sm : SemLoc sig) : L ((c : Thread nD τ), sm) = {()} := if_pos rfl

omit [FloatOps F] in
theorem lv_bar (d : Dev nD) : lv (barCell d) () = 1 := by dsimp only [lv]; rw [if_pos rfl]
omit [FloatOps F] in
theorem lv_recv (d : Dev nD) (j : Fin 7) : lv (recvCell d j) () = 2 := by
  dsimp only [lv]; rw [if_neg (recv_ne_bar j), recvJ_recv]; rfl
omit [FloatOps F] in
/-- A DMA semaphore that is no receive semaphore sits at level 0. -/
theorem lv_other (d : Dev nD) (q : DmaSem sig) (hq : recvJ (SemLoc.dma q : SemLoc sig) = none) : lv ((d : Thread nD τ), .dma q) () = 0 := by
  dsimp only [lv]; rw [if_neg (fun h => by cases h), hq]; rfl

omit [FloatOps F] in
/-- The copies' dues are owed to receive cells only, -/
theorem OR_pos {c : Dev nD} {g : GSem nD τ sig} {u : Unit} (h : 0 < OR c g u) : ∃ j, g = recvCell (sh j c) j := by
  unfold OR at h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  all_goals exact ⟨_, (Pipeline.tallyAt_pos h).1⟩

omit [FloatOps F] in
/-- and all a device owes at launch to receive cells and barrier cells. -/
theorem O₀_pos {c : Dev nD} {g : GSem nD τ sig} {u : Unit} (h : 0 < O₀ c g u) :
    (∃ j, g = recvCell (sh j c) j) ∨ (∃ k, g = barCell (sh k c)) := by
  unfold O₀ at h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  · exact Or.inl (OR_pos h)
  all_goals exact Or.inr ⟨_, (Pipeline.tallyAt_pos h).1⟩

omit [FloatOps F] in
/-- A wait on a level-0 DMA cell (the staging cells, the send cells) is below everything a
    device owes at launch, and after its body it owes nothing. -/
theorem mayWait_stage (c : Dev nD) (q : DmaSem sig) (hq : recvJ (SemLoc.dma q : SemLoc sig) = none) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    rw [lv_other c q hq]
    rcases O₀_pos hg with ⟨j, rfl⟩ | ⟨k, rfl⟩
    · exact ⟨by rw [L_tc]; exact Finset.mem_singleton_self _, by rw [lv_recv]; decide⟩
    · exact ⟨by rw [L_tc]; exact Finset.mem_singleton_self _, by rw [lv_bar]; decide⟩
  · rw [MayWait_zero]; iintro -; iempintro

omit [FloatOps F] in
/-- At its barrier wait a device has sent its seven signals and owes the copies' dues only:
    receive cells, above its barrier cell. -/
theorem mayWait_bar (c : Dev nD) :
    (levAts L lv : sProp 𝕄) ⊢ MayWait (c : Thread nD τ) (.reg barS) () (OR c) :=
  Pipeline.mayWait_of_levAts (by rw [L_tc]; exact Finset.mem_singleton_self _) fun g u hg => by
    obtain ⟨j, rfl⟩ := OR_pos hg
    exact ⟨by rw [L_tc]; exact Finset.mem_singleton_self _, by rw [lv_bar, lv_recv]; decide⟩

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The launch credit -/

omit [FloatOps F] in
/-- Seven units on one cell are one credit of seven. -/
theorem cred_seven (g : GSem nD τ sig) :
    (iprop(cred (tallyAt g () 1) ∗ cred (tallyAt g () 1) ∗ cred (tallyAt g () 1) ∗ cred (tallyAt g () 1)
        ∗ cred (tallyAt g () 1) ∗ cred (tallyAt g () 1) ∗ cred (tallyAt g () 1)) : sProp 𝕄) ⊢ cred (tallyAt g () 7) := by
  rw [show (tallyAt g () 7 : CellTallies nD τ sig Unit)
      = tallyAt g () 1 + (tallyAt g () 1 + (tallyAt g () 1 + (tallyAt g () 1 + (tallyAt g () 1 + (tallyAt g () 1 + tallyAt g () 1))))) from by
    simp only [tallyAt_add]]
  exact (sep_mono_right <| (sep_mono_right <| (sep_mono_right <| (sep_mono_right <| (sep_mono_right <| (cred_add _ _).2).trans (cred_add _ _).2).trans
    (cred_add _ _).2).trans (cred_add _ _).2).trans (cred_add _ _).2).trans (cred_add _ _).2

omit [FloatOps F] in
/-- Signal k of every device goes k+1 places on: device c's barrier cell gets one unit of it. -/
theorem launch_bar (c : Dev nD) (k : Fin 7) : (Pipeline.launchCred (fun d => bT d k) c : sProp 𝕄) ⊢ cred (tallyAt (barCell c) () 1) :=
  Pipeline.launchCred_tallyAt (.reg barS) (sh k) (bk k) (sh_bk k) (bk_sh k) () 1 c

omit [FloatOps F] in
/-- Copy j of every device goes j+1 places on: device c's j-th receive cell gets one row's credit of it. -/
theorem launch_recv (c : Dev nD) (j : Fin 7) : (Pipeline.launchCred (fun d => rT d j) c : sProp 𝕄) ⊢ cred (tallyAt (recvCell c j) () N) :=
  Pipeline.launchCred_tallyAt (.dma (recvS j)) (sh j) (bk j) (sh_bk j) (bk_sh j) () N c

omit [FloatOps F] in
/-- The credit the launch deals device c: its barrier's seven units, each receive cell's row credit. -/
theorem creds (c : Dev nD) :
    (Pipeline.launchCred O₀ c : sProp 𝕄) ⊢ iprop(cred (tallyAt (barCell c) () 7) ∗ bigSep Finset.univ fun j : Fin 7 => cred (tallyAt (recvCell c j) () N)) := by
  rw [show (O₀ : Dev nD → CellTallies nD τ sig Unit)
      = fun d => rT d 6 + rT d 5 + rT d 4 + rT d 3 + rT d 2 + rT d 1 + rT d 0 + bT d 6 + bT d 5 + bT d 4 + bT d 3 + bT d 2 + bT d 1 + bT d 0 from rfl]
  simp only [Pipeline.launchCred_add]
  rw [bigSep_fin7]
  iintro ⟨⟨⟨⟨⟨⟨⟨⟨⟨⟨⟨⟨⟨R6, R5⟩, R4⟩, R3⟩, R2⟩, R1⟩, R0⟩, B6⟩, B5⟩, B4⟩, B3⟩, B2⟩, B1⟩, B0⟩
  isplitl [B0 B1 B2 B3 B4 B5 B6]
  · iapply (cred_seven (F := F) (barCell c))
    ihave B0 := (launch_bar (F := F) c 0) $$ B0
    ihave B1 := (launch_bar (F := F) c 1) $$ B1
    ihave B2 := (launch_bar (F := F) c 2) $$ B2
    ihave B3 := (launch_bar (F := F) c 3) $$ B3
    ihave B4 := (launch_bar (F := F) c 4) $$ B4
    ihave B5 := (launch_bar (F := F) c 5) $$ B5
    ihave B6 := (launch_bar (F := F) c 6) $$ B6
    iframe
  · ihave R0 := (launch_recv (F := F) c 0) $$ R0
    ihave R1 := (launch_recv (F := F) c 1) $$ R1
    ihave R2 := (launch_recv (F := F) c 2) $$ R2
    ihave R3 := (launch_recv (F := F) c 3) $$ R3
    ihave R4 := (launch_recv (F := F) c 4) $$ R4
    ihave R5 := (launch_recv (F := F) c 5) $$ R5
    ihave R6 := (launch_recv (F := F) c 6) $$ R6
    iframe

/-! ### The theorem's side conditions -/

/-- From what the launch hands device c to what its body starts from: the credit dealt is the
    barrier's seven units and each receive cell's row credit. -/
theorem start_intro (G' : Dev nD → sProp 𝕄) (hG' : ∀ c, G' c ⊢ iprop(∃ K, ghost m ρ K c)) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' c)
      ⊢ |={Set.univ}=> iprop(start m ρ c ∗ emp) := by
  iintro ⟨-, Hlev, Hcr, -, HG⟩
  ihave Hc := (creds (F := F) c) $$ Hcr
  icases Hc with ⟨H1, HN⟩
  ihave HG := (hG' c) $$ HG
  imodintro
  unfold start
  isplitl
  · isplitl [HG]; · iexact HG
    isplitl [H1]; · iexact H1
    isplitl [HN]; · iexact HN
    iexact Hlev
  · iempintro

/-- The one scoped buffer that is no staging buffer is the gather buffer, at whatever it holds. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ cPts
  iintro ⟨Hs, -, ⟨%f, Hr⟩⟩
  isplitl [Hs]; · iexact Hs
  iexists f; iexact Hr

omit [FloatOps F] in
/-- The kernel's own fourteen cells are its seven send and its seven receive cells. -/
theorem ownSems0_intro (c : Dev nD) :
    (iprop((bigSep Finset.univ fun j : Fin 7 => semVal (sendCell c j) 0) ∗ (bigSep Finset.univ fun j : Fin 7 => semVal (recvCell c j) 0)) : sProp 𝕄)
      ⊢ (Pipeline.ownSems0 (Ix := Unit) (Name := ℕ) (U := UU) (Lvl := ℕ) (Val := Elt F) (τ := τ) osem c : sProp 𝕄) := by
  rw [Pipeline.ownSems0_eq_of_list c osem [0, 1, 2, 3, 4, 5, 6, 7, 8, 9, 10, 11, 12, 13] (by decide) (by decide), bigSep_fin7, bigSep_fin7]
  show _ ⊢ iprop(semVal (sendCell c 0) 0 ∗ semVal (sendCell c 1) 0 ∗ semVal (sendCell c 2) 0 ∗ semVal (sendCell c 3) 0 ∗ semVal (sendCell c 4) 0
    ∗ semVal (sendCell c 5) 0 ∗ semVal (sendCell c 6) 0 ∗ semVal (recvCell c 0) 0 ∗ semVal (recvCell c 1) 0 ∗ semVal (recvCell c 2) 0
    ∗ semVal (recvCell c 3) 0 ∗ semVal (recvCell c 4) 0 ∗ semVal (recvCell c 5) 0 ∗ semVal (recvCell c 6) 0)
  iintro ⟨⟨S0, S1, S2, S3, S4, S5, S6⟩, ⟨R0, R1, R2, R3, R4, R5, R6⟩⟩
  iframe

/-- After the point the fourteen own cells are back at zero and the gather buffer is whole. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq]
  unfold Φ₁ cPts
  iintro ⟨Hr, HzS, HzV⟩
  isplitr; · iempintro
  isplitl [HzS HzV]
  · iapply (ownSems0_intro (F := F) c)
    isplitl [HzS] <;> iassumption
  iexists (gath m ρ); iexact Hr

theorem share_eq (c : Dev nD) (w : Fin cfg0.W) : (dats m ρ 0 c).share w = fullShare := by unfold Dat.share; split <;> rfl

/-! ### The run -/

/-- The windowed arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: given each
    device's body proved from its starting ghost state, and that ghost state set up, every weakly fair execution of
    @main — the eight kernels handshaking on the runtime's barrier semaphore, then copying their rows to one
    another — terminates, and every final state has each device's windowed arrays at the computed contents. -/
theorem run_main
    (hbody : ∀ c, BodyObligation (dats (F := F) m ρ 0 c) (defs₀ (F := F)) 𝒱₀ () Set.univ)
    (hownSems : Pipeline.OwnSemFacts cfg0.spec osem)
    (G G' : Dev nD → sProp 𝕄) (u₀ : UU)
    (hu₀ : (ownU u₀ : sProp 𝕄)
      ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄)
      ⊢ |={Set.univ}=> bigSep Finset.univ G')
    (hG' : ∀ c, G' c ⊢ iprop(∃ K, ghost m ρ K c)) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ hownSems (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G) (G' := G') (u₀ := u₀)
    (hu₀ := hu₀)
    (hglob := hglob)
    (hA := fun _ _ => rfl) (hpf := fun _ k => k.elim0)
    (X := start m ρ) (Y := fun _ => iprop(emp)) (Z := fun _ => iprop(emp))
    (hX := start_intro m ρ G' hG') (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input block after the run holds what it held. -/
theorem finalA_x (c : Dev nD) : finalA m ρ c (0 : Fin 2) = m ((c : Thread nD τ).loc main_arg0) :=
  (dats (F := F) m ρ 0 c).arrAt_in (0 : Fin 2) rfl _

/-- The result array, read through its one block, is what the one write-back wrote: what the body left in the
    output staging buffer. -/
theorem finalA_out_blk (c : Dev nD) :
    ((cfg0.win (1 : Fin 2)).blk t₀).view.read (Elt F) (finalA m ρ c (1 : Fin 2)) = outv m ρ := by
  unfold finalA
  rw [show cfg0.N = (t₀ : Fin cfg0.N).val + 1 from rfl, (dats (F := F) m ρ 0 c).arrAt_succ (1 : Fin 2) t₀, flush0_1 t₀, if_pos rfl]
  exact View.read_write_univ _ _

/-- The block is the whole array, so the result array after the run is the column sums of the gathered array. -/
theorem finalA_out (c : Dev nD) : finalA m ρ c (1 : Fin 2) = outv m ρ := by
  have hz : (fun a => (win0_1.index t₀) a * main_v1.ty.shape.size a) = fun _ => 0 := funext fun a => by fin_cases a <;> decide
  exact (Memref.read_access_unit_zero (Elt F) main_v1 hz (fun a => by fin_cases a <;> decide) (finalA m ρ c (1 : Fin 2))).symm.trans (finalA_out_blk m ρ c)

/-- The export: on every device the result array ends as the column sums of the gathered array and the input
    block as it was. -/
theorem run_val
    (hbody : ∀ c, BodyObligation (dats (F := F) m ρ 0 c) (defs₀ (F := F)) 𝒱₀ () Set.univ)
    (hownSems : Pipeline.OwnSemFacts cfg0.spec osem)
    (G G' : Dev nD → sProp 𝕄) (u₀ : UU)
    (hu₀ : (ownU u₀ : sProp 𝕄)
      ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄)
      ⊢ |={Set.univ}=> bigSep Finset.univ G')
    (hG' : ∀ c, G' c ⊢ iprop(∃ K, ghost m ρ K c)) :
    θ_run defs (onTc (τ := τ) (main (F := F))) ⟨m, fun _ => 0, ρ⟩ (fun r => ∀ c : Dev nD,
      r.2.mem ((c.tc : Thread nD τ).loc main_v1) = outv m ρ
        ∧ r.2.mem ((c.tc : Thread nD τ).loc main_arg0) = m ((c.tc : Thread nD τ).loc main_arg0)) :=
  (θ_run defs _ _).mono (fun _ h c => ⟨(h c 1).trans (finalA_out m ρ c), (h c 0).trans (finalA_x m ρ c)⟩)
    (run_main m ρ hbody hownSems G G' u₀ hu₀ hglob hG')

/-- info: 'Cert.Kernel.Gather.run_val' depends on axioms: [propext, Classical.choice, Quot.sound] -/
#guard_msgs in #print axioms run_val

end Cert.Kernel.Gather

end
-- ==== Proof.lean ====
/-
  The certificate of the all-gather-and-sum kernel on the eight-device mesh against the one-device
  column sum.

  Every device ends with the column sums of the gathered array, whose row r holds the column
  sums of device r's block of x; the blocks are the eight consecutive groups of 512 rows of the
  whole array, so that value is the column sum of the whole array, which is what the reference
  computes: addition on the extended reals is commutative and associative, and nothing else is
  used.  The two kernel frames are the kernel's run with the values dropped, read at the word
  level and at the ideal level; the reference's frame is its run with the value dropped; the
  ideal pass rewrote nothing.
-/
import proofs.«901092_g7700000000001093_dist_sum_ax0_shard0_i_m512_n256_v7x_i8_bf16_1_alg».proof.Defs
import proofs.«901092_g7700000000001093_dist_sum_ax0_shard0_i_m512_n256_v7x_i8_bf16_1_alg».proof.Proof.Gen.Kernel
import proofs.«901092_g7700000000001093_dist_sum_ax0_shard0_i_m512_n256_v7x_i8_bf16_1_alg».proof.Proof.Gen.KernelIdeal
import proofs.«901092_g7700000000001093_dist_sum_ax0_shard0_i_m512_n256_v7x_i8_bf16_1_alg».proof.Proof.Gen.ReferenceIdeal
import proofs.«901092_g7700000000001093_dist_sum_ax0_shard0_i_m512_n256_v7x_i8_bf16_1_alg».proof.Proof.Gen.Pre_finite_inputs_Kernel
import proofs.«901092_g7700000000001093_dist_sum_ax0_shard0_i_m512_n256_v7x_i8_bf16_1_alg».proof.Proof.Gen.Pre_finite_inputs_ReferenceIdeal
import proofs.«901092_g7700000000001093_dist_sum_ax0_shard0_i_m512_n256_v7x_i8_bf16_1_alg».proof.Proof.Gen.ReferenceIdeal.Run
import proofs.«901092_g7700000000001093_dist_sum_ax0_shard0_i_m512_n256_v7x_i8_bf16_1_alg».proof.Proof.Gen.ReferenceIdeal.Read
import proofs.«901092_g7700000000001093_dist_sum_ax0_shard0_i_m512_n256_v7x_i8_bf16_1_alg».proof.Proof.Body
import proofs.«901092_g7700000000001093_dist_sum_ax0_shard0_i_m512_n256_v7x_i8_bf16_1_alg».proof.Proof.Fund
import proofs.«901092_g7700000000001093_dist_sum_ax0_shard0_i_m512_n256_v7x_i8_bf16_1_alg».proof.Proof.Launch
import proofs.«901092_g7700000000001093_dist_sum_ax0_shard0_i_m512_n256_v7x_i8_bf16_1_alg».proof.Proof.Value
import proofs.«901092_g7700000000001093_dist_sum_ax0_shard0_i_m512_n256_v7x_i8_bf16_1_alg».proof.Proof.Bits.Body
import proofs.«901092_g7700000000001093_dist_sum_ax0_shard0_i_m512_n256_v7x_i8_bf16_1_alg».proof.Proof.Bits.Fund
import proofs.«901092_g7700000000001093_dist_sum_ax0_shard0_i_m512_n256_v7x_i8_bf16_1_alg».proof.Proof.Bits.Launch
import Idealize.ShloMosaic.Adequacy
import Idealize.ShloMosaic.Init

noncomputable section

namespace Cert.Proof

open Idealize.ShloMosaic Idealize.SL Idealize.SL.Sem

/-- The idealized kernel's run: on every device the result buffer ends at the column sums of
    the gathered array and the argument block is unchanged. -/
theorem run_ideal {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => ∀ c : Dev Cert.KernelIdeal.nD,
        r.2.mem ((c.tc : Thread Cert.KernelIdeal.nD Cert.KernelIdeal.τ).loc Cert.KernelIdeal.main_v1) = Cert.KernelIdeal.Gather.outv m ρ
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) :=
  Cert.KernelIdeal.Gather.run_val m ρ
    (Cert.KernelIdeal.Gather.body_obligation m ρ fun c => Cert.KernelIdeal.Gather.mayWait_bar (F := F) c)
    Cert.KernelIdeal.Gather.ownSemFacts (Cert.KernelIdeal.Gather.G m ρ) (Cert.KernelIdeal.Gather.G' m ρ) Cert.KernelIdeal.Gather.u₀
    (Cert.KernelIdeal.Gather.hu₀ m ρ) (Cert.KernelIdeal.Gather.glob m ρ) (fun c => BI.Entails.refl _)

/-- The same run of the kernel as printed, read at any instance. -/
theorem run_bits {F : FTy → Type} [FloatOps F] (m : (ℓ : Loc Cert.Kernel.nD Cert.Kernel.τ Cert.Kernel.sig) → Buf (Elt F) ℓ)
    (ρ : Dev Cert.Kernel.nD → PrngReg) :
    θ_run (Cert.Kernel.defs (F := F)) (onTc (τ := Cert.Kernel.τ) (Cert.Kernel.main (F := F))) ⟨m, fun _ => 0, ρ⟩
      (fun r => ∀ c : Dev Cert.Kernel.nD,
        r.2.mem ((c.tc : Thread Cert.Kernel.nD Cert.Kernel.τ).loc Cert.Kernel.main_v1) = Cert.Kernel.Gather.outv m ρ
        ∧ r.2.mem ((c.tc : Thread Cert.Kernel.nD Cert.Kernel.τ).loc Cert.Kernel.main_arg0) = m ((c.tc : Thread Cert.Kernel.nD Cert.Kernel.τ).loc Cert.Kernel.main_arg0)) :=
  Cert.Kernel.Gather.run_val m ρ
    (Cert.Kernel.Gather.body_obligation m ρ fun c => Cert.Kernel.Gather.mayWait_bar (F := F) c)
    Cert.Kernel.Gather.ownSemFacts (Cert.Kernel.Gather.G m ρ) (Cert.Kernel.Gather.G' m ρ) Cert.Kernel.Gather.u₀
    (Cert.Kernel.Gather.hu₀ m ρ) (Cert.Kernel.Gather.glob m ρ) (fun c => BI.Entails.refl _)

theorem frame_k : Cert.frame_Kernel := fun m ρ _ =>
  (θ_run Cert.Kernel.defs _ _).mono (fun _ h c => (h c).2) (run_bits (F := Bits) m ρ)

theorem frame_ki : Cert.frame_KernelIdeal := fun m ρ _ =>
  (θ_run Cert.KernelIdeal.defs _ _).mono (fun _ h c => (h c).2) (run_ideal (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both sides are the column sums of the whole array. -/
theorem algebraic : Cert.algebraic_KernelIdeal_ReferenceIdeal := by
  intro m ρ m' ρ' _ hagree
  refine ⟨Cert.ReferenceIdeal.Read.val_main_v1 (F := Ideal) (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h c).1.trans (Cert.KernelIdeal.GatherValue.outv_eq_reference m ρ _ hagree), (h c).2⟩) (run_ideal (F := Ideal) m ρ)
  · exact (θ_run Cert.ReferenceIdeal.defs _ _).mono
      (fun _ h => ⟨(h 0).1.trans (Cert.ReferenceIdeal.Read.val_main_v1_eq _), (h 0).2⟩) (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
